-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![12288, 768]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S12288x768 : Shape := ⟨2, ![12288, 768]⟩
abbrev S_ : Shape := ⟨0, ![]⟩

class Facts : Prop where
  bcast_S_S12288x768 : S_.BroadcastsInDim S12288x768 (![] : Fin 0 → Fin S12288x768.rank)
  reducesTo_S12288x768_S_d0_1 : S12288x768.ReducesTo [0, 1] S_
  h_S_ : 0 < S_.numel

variable [Facts]

def fn {F : FTy → Type} [FloatOps F] (main_arg0 : FVec F S12288x768 .f32) : IVec S_ 1 :=
  let main_v0 : FVec F S12288x768 .f32 := Host.absf main_arg0
  let main_cst : FVec F S_ .f32 := constant S_ .f32 0x7F800000#32
  let main_v1 : FVec F S12288x768 .f32 := broadcastInDim S12288x768 ![] bcast_S_S12288x768 main_cst
  let main_v2 : IVec S12288x768 1 := cmpf .olt main_v0 main_v1
  let main_c : IVec S_ 1 := constantI S_ 1 1#1
  let main_v3 : IVec S_ 1 := (fun x v => Host.reduce IntOp.andi x v reducesTo_S12288x768_S_d0_1 h_S_) main_v2 main_c
  main_v3
-- ==== Kernel.lean ====
abbrev S1536x768 : Shape := ⟨2, ![1536, 768]⟩
abbrev S1x768 : Shape := ⟨2, ![1, 768]⟩
abbrev S8x768 : Shape := ⟨2, ![8, 768]⟩
abbrev S8 : Shape := ⟨1, ![8]⟩
abbrev S_ : Shape := ⟨0, ![]⟩
abbrev S768 : Shape := ⟨1, ![768]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S8x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v99 : Index := Scalar.indexCast v2
  let c0_64 : Index := 0#32
  ![v99.toNat, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_76 : BitVec 32 := 0#32
  ![v2.toNat, 0]
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_66 : BitVec 32 := 1#32
  let v103 : BitVec 32 := Scalar.addi v2 c1_i32_66
  let c8_i32_67 : BitVec 32 := 8#32
  let c0_i32_68 : BitVec 32 := 0#32
  let v104 : BitVec 1 := Scalar.cmpi .eq c8_i32_67 c0_i32_68
  let c1_i32_69 : BitVec 32 := 1#32
  let v105 : BitVec 32 := Scalar.select v104 c1_i32_69 c8_i32_67
  let v106 : BitVec 32 := Scalar.remsi v103 v105
  let c0_i32_71 : BitVec 32 := 0#32
  let v108 : BitVec 1 := Scalar.cmpi .slt v106 c0_i32_71
  let c0_i32_72 : BitVec 32 := 0#32
  let v109 : BitVec 1 := Scalar.cmpi .slt v105 c0_i32_72
  let v110 : BitVec 1 := Scalar.xori v108 v109
  let c0_i32_70 : BitVec 32 := 0#32
  let v107 : BitVec 1 := Scalar.cmpi .ne v106 c0_i32_70
  let v111 : BitVec 1 := Scalar.andi v110 v107
  let v112 : BitVec 32 := Scalar.addi v106 v105
  let v113 : BitVec 32 := Scalar.select v111 v112 v106
  let c1_i32_74 : BitVec 32 := 1#32
  let v114 : BitVec 32 := Scalar.muli v113 c1_i32_74
  let v115 : BitVec 32 := Scalar.addi c0_i32_75 v114
  v115.toNat
def k0_dev9 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_78 : BitVec 32 := 2#32
  let v122 : BitVec 32 := Scalar.addi v2 c2_i32_78
  let c8_i32_79 : BitVec 32 := 8#32
  let c0_i32_80 : BitVec 32 := 0#32
  let v123 : BitVec 1 := Scalar.cmpi .eq c8_i32_79 c0_i32_80
  let c1_i32_81 : BitVec 32 := 1#32
  let v124 : BitVec 32 := Scalar.select v123 c1_i32_81 c8_i32_79
  let v125 : BitVec 32 := Scalar.remsi v122 v124
  let c0_i32_83 : BitVec 32 := 0#32
  let v127 : BitVec 1 := Scalar.cmpi .slt v125 c0_i32_83
  let c0_i32_84 : BitVec 32 := 0#32
  let v128 : BitVec 1 := Scalar.cmpi .slt v124 c0_i32_84
  let v129 : BitVec 1 := Scalar.xori v127 v128
  let c0_i32_82 : BitVec 32 := 0#32
  let v126 : BitVec 1 := Scalar.cmpi .ne v125 c0_i32_82
  let v130 : BitVec 1 := Scalar.andi v129 v126
  let v131 : BitVec 32 := Scalar.addi v125 v124
  let v132 : BitVec 32 := Scalar.select v130 v131 v125
  let c1_i32_86 : BitVec 32 := 1#32
  let v133 : BitVec 32 := Scalar.muli v132 c1_i32_86
  let v134 : BitVec 32 := Scalar.addi c0_i32_87 v133
  v134.toNat
def k0_dev10 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_90 : BitVec 32 := 3#32
  let v141 : BitVec 32 := Scalar.addi v2 c3_i32_90
  let c8_i32_91 : BitVec 32 := 8#32
  let c0_i32_92 : BitVec 32 := 0#32
  let v142 : BitVec 1 := Scalar.cmpi .eq c8_i32_91 c0_i32_92
  let c1_i32_93 : BitVec 32 := 1#32
  let v143 : BitVec 32 := Scalar.select v142 c1_i32_93 c8_i32_91
  let v144 : BitVec 32 := Scalar.remsi v141 v143
  let c0_i32_95 : BitVec 32 := 0#32
  let v146 : BitVec 1 := Scalar.cmpi .slt v144 c0_i32_95
  let c0_i32_96 : BitVec 32 := 0#32
  let v147 : BitVec 1 := Scalar.cmpi .slt v143 c0_i32_96
  let v148 : BitVec 1 := Scalar.xori v146 v147
  let c0_i32_94 : BitVec 32 := 0#32
  let v145 : BitVec 1 := Scalar.cmpi .ne v144 c0_i32_94
  let v149 : BitVec 1 := Scalar.andi v148 v145
  let v150 : BitVec 32 := Scalar.addi v144 v143
  let v151 : BitVec 32 := Scalar.select v149 v150 v144
  let c1_i32_98 : BitVec 32 := 1#32
  let v152 : BitVec 32 := Scalar.muli v151 c1_i32_98
  let v153 : BitVec 32 := Scalar.addi c0_i32_99 v152
  v153.toNat
def k0_dev11 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_102 : BitVec 32 := 4#32
  let v160 : BitVec 32 := Scalar.addi v2 c4_i32_102
  let c8_i32_103 : BitVec 32 := 8#32
  let c0_i32_104 : BitVec 32 := 0#32
  let v161 : BitVec 1 := Scalar.cmpi .eq c8_i32_103 c0_i32_104
  let c1_i32_105 : BitVec 32 := 1#32
  let v162 : BitVec 32 := Scalar.select v161 c1_i32_105 c8_i32_103
  let v163 : BitVec 32 := Scalar.remsi v160 v162
  let c0_i32_107 : BitVec 32 := 0#32
  let v165 : BitVec 1 := Scalar.cmpi .slt v163 c0_i32_107
  let c0_i32_108 : BitVec 32 := 0#32
  let v166 : BitVec 1 := Scalar.cmpi .slt v162 c0_i32_108
  let v167 : BitVec 1 := Scalar.xori v165 v166
  let c0_i32_106 : BitVec 32 := 0#32
  let v164 : BitVec 1 := Scalar.cmpi .ne v163 c0_i32_106
  let v168 : BitVec 1 := Scalar.andi v167 v164
  let v169 : BitVec 32 := Scalar.addi v163 v162
  let v170 : BitVec 32 := Scalar.select v168 v169 v163
  let c1_i32_110 : BitVec 32 := 1#32
  let v171 : BitVec 32 := Scalar.muli v170 c1_i32_110
  let v172 : BitVec 32 := Scalar.addi c0_i32_111 v171
  v172.toNat
def k0_dev12 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_114 : BitVec 32 := 5#32
  let v179 : BitVec 32 := Scalar.addi v2 c5_i32_114
  let c8_i32_115 : BitVec 32 := 8#32
  let c0_i32_116 : BitVec 32 := 0#32
  let v180 : BitVec 1 := Scalar.cmpi .eq c8_i32_115 c0_i32_116
  let c1_i32_117 : BitVec 32 := 1#32
  let v181 : BitVec 32 := Scalar.select v180 c1_i32_117 c8_i32_115
  let v182 : BitVec 32 := Scalar.remsi v179 v181
  let c0_i32_119 : BitVec 32 := 0#32
  let v184 : BitVec 1 := Scalar.cmpi .slt v182 c0_i32_119
  let c0_i32_120 : BitVec 32 := 0#32
  let v185 : BitVec 1 := Scalar.cmpi .slt v181 c0_i32_120
  let v186 : BitVec 1 := Scalar.xori v184 v185
  let c0_i32_118 : BitVec 32 := 0#32
  let v183 : BitVec 1 := Scalar.cmpi .ne v182 c0_i32_118
  let v187 : BitVec 1 := Scalar.andi v186 v183
  let v188 : BitVec 32 := Scalar.addi v182 v181
  let v189 : BitVec 32 := Scalar.select v187 v188 v182
  let c1_i32_122 : BitVec 32 := 1#32
  let v190 : BitVec 32 := Scalar.muli v189 c1_i32_122
  let v191 : BitVec 32 := Scalar.addi c0_i32_123 v190
  v191.toNat
def k0_dev13 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_126 : BitVec 32 := 6#32
  let v198 : BitVec 32 := Scalar.addi v2 c6_i32_126
  let c8_i32_127 : BitVec 32 := 8#32
  let c0_i32_128 : BitVec 32 := 0#32
  let v199 : BitVec 1 := Scalar.cmpi .eq c8_i32_127 c0_i32_128
  let c1_i32_129 : BitVec 32 := 1#32
  let v200 : BitVec 32 := Scalar.select v199 c1_i32_129 c8_i32_127
  let v201 : BitVec 32 := Scalar.remsi v198 v200
  let c0_i32_131 : BitVec 32 := 0#32
  let v203 : BitVec 1 := Scalar.cmpi .slt v201 c0_i32_131
  let c0_i32_132 : BitVec 32 := 0#32
  let v204 : BitVec 1 := Scalar.cmpi .slt v200 c0_i32_132
  let v205 : BitVec 1 := Scalar.xori v203 v204
  let c0_i32_130 : BitVec 32 := 0#32
  let v202 : BitVec 1 := Scalar.cmpi .ne v201 c0_i32_130
  let v206 : BitVec 1 := Scalar.andi v205 v202
  let v207 : BitVec 32 := Scalar.addi v201 v200
  let v208 : BitVec 32 := Scalar.select v206 v207 v201
  let c1_i32_134 : BitVec 32 := 1#32
  let v209 : BitVec 32 := Scalar.muli v208 c1_i32_134
  let v210 : BitVec 32 := Scalar.addi c0_i32_135 v209
  v210.toNat
def k0_dev14 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_138 : BitVec 32 := 7#32
  let v217 : BitVec 32 := Scalar.addi v2 c7_i32_138
  let c8_i32_139 : BitVec 32 := 8#32
  let c0_i32_140 : BitVec 32 := 0#32
  let v218 : BitVec 1 := Scalar.cmpi .eq c8_i32_139 c0_i32_140
  let c1_i32_141 : BitVec 32 := 1#32
  let v219 : BitVec 32 := Scalar.select v218 c1_i32_141 c8_i32_139
  let v220 : BitVec 32 := Scalar.remsi v217 v219
  let c0_i32_143 : BitVec 32 := 0#32
  let v222 : BitVec 1 := Scalar.cmpi .slt v220 c0_i32_143
  let c0_i32_144 : BitVec 32 := 0#32
  let v223 : BitVec 1 := Scalar.cmpi .slt v219 c0_i32_144
  let v224 : BitVec 1 := Scalar.xori v222 v223
  let c0_i32_142 : BitVec 32 := 0#32
  let v221 : BitVec 1 := Scalar.cmpi .ne v220 c0_i32_142
  let v225 : BitVec 1 := Scalar.andi v224 v221
  let v226 : BitVec 32 := Scalar.addi v220 v219
  let v227 : BitVec 32 := Scalar.select v225 v226 v220
  let c1_i32_146 : BitVec 32 := 1#32
  let v228 : BitVec 32 := Scalar.muli v227 c1_i32_146
  let v229 : BitVec 32 := Scalar.addi c0_i32_147 v228
  v229.toNat
def k0_off4 (d0 : Dev nD) (c1_i32_150 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v236 : BitVec 32 := Scalar.addi v2 c1_i32_150
  let c8_i32_151 : BitVec 32 := 8#32
  let c0_i32_152 : BitVec 32 := 0#32
  let v237 : BitVec 1 := Scalar.cmpi .eq c8_i32_151 c0_i32_152
  let c1_i32_153 : BitVec 32 := 1#32
  let v238 : BitVec 32 := Scalar.select v237 c1_i32_153 c8_i32_151
  let v239 : BitVec 32 := Scalar.remsi v236 v238
  let c0_i32_155 : BitVec 32 := 0#32
  let v241 : BitVec 1 := Scalar.cmpi .slt v239 c0_i32_155
  let c0_i32_156 : BitVec 32 := 0#32
  let v242 : BitVec 1 := Scalar.cmpi .slt v238 c0_i32_156
  let v243 : BitVec 1 := Scalar.xori v241 v242
  let c0_i32_154 : BitVec 32 := 0#32
  let v240 : BitVec 1 := Scalar.cmpi .ne v239 c0_i32_154
  let v244 : BitVec 1 := Scalar.andi v243 v240
  let v245 : BitVec 32 := Scalar.addi v239 v238
  let v246 : BitVec 32 := Scalar.select v244 v245 v239
  ![v246.toNat]
def k0_off5 (d0 : Dev nD) (c1_i32_150 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v236 : BitVec 32 := Scalar.addi v2 c1_i32_150
  let c8_i32_151 : BitVec 32 := 8#32
  let c0_i32_152 : BitVec 32 := 0#32
  let v237 : BitVec 1 := Scalar.cmpi .eq c8_i32_151 c0_i32_152
  let c1_i32_153 : BitVec 32 := 1#32
  let v238 : BitVec 32 := Scalar.select v237 c1_i32_153 c8_i32_151
  let v239 : BitVec 32 := Scalar.remsi v236 v238
  let c0_i32_155 : BitVec 32 := 0#32
  let v241 : BitVec 1 := Scalar.cmpi .slt v239 c0_i32_155
  let c0_i32_156 : BitVec 32 := 0#32
  let v242 : BitVec 1 := Scalar.cmpi .slt v238 c0_i32_156
  let v243 : BitVec 1 := Scalar.xori v241 v242
  let c0_i32_154 : BitVec 32 := 0#32
  let v240 : BitVec 1 := Scalar.cmpi .ne v239 c0_i32_154
  let v244 : BitVec 1 := Scalar.andi v243 v240
  let v245 : BitVec 32 := Scalar.addi v239 v238
  let v246 : BitVec 32 := Scalar.select v244 v245 v239
  let c0_i32_160 : BitVec 32 := 0#32
  ![v246.toNat, 0]
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  h_S1x768 : 0 < S1x768.numel
  shapeCasts_S1x768_S1x768 : S1x768.ShapeCasts S1x768
  hamt_7 : (7#32 : BitVec 32).msb = false
  inb_S8_S1_1 : ∀ a, (![1] : Fin 1 → Nat) a + S1.size a ≤ S8.size a
  squeezes_S1_S_ : S1.Squeezes S_
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  inb_S8x768_S8x768_0_0 : ∀ a, (![0, 0] : Fin 2 → Nat) a + S8x768.size a ≤ S8x768.size a
  h_S8x768 : 0 < S8x768.numel
  reduces_S8x768_S768 : S8x768.Reduces [0] S768
  inb_S1x768_S1x768_0_0 : ∀ a, (![0, 0] : Fin 2 → Nat) a + S1x768.size a ≤ S1x768.size a
  hcc0_scratch1 : 2 + S8.numel ≤ 18
  hcc0_scratch2 : 10 + S8.numel ≤ 18
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x768.size a ≤ S8x768.size a
  k0_off2_inb : ∀ d0 : Dev nD, ∀ a, (k0_off2 d0) a + S1.size a ≤ S8.size a
  k0_off3_inb : ∀ d0 : Dev nD, ∀ a, (k0_off3 d0) a + S1x768.size a ≤ S8x768.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off4_inb : ∀ d0 : Dev nD, ∀ (r : Fin 7), ∀ a, (k0_off4 d0 (BitVec.ofNat 32 (1 + r.val))) a + S1.size a ≤ S8.size a
  k0_off5_inb : ∀ d0 : Dev nD, ∀ (r : Fin 7), ∀ a, (k0_off5 d0 (BitVec.ofNat 32 (1 + r.val))) a + S1x768.size a ≤ S8x768.size a
  hstage0_0 : ∀ j, (stage0_0 j).IsWhole
  hstage0_1 : ∀ j, (stage0_1 j).IsWhole

variable [Facts₀]

abbrev cc0_scratch1 : DmaSems sig S8 := SemArray.consecutive 2 S8 hcc0_scratch1
abbrev cc0_scratch2 : DmaSems sig S8 := SemArray.consecutive 10 S8 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S12288x768 : Shape := ⟨2, ![12288, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S12288x768, .f32⟩
  | .hbm, ⟨1, _⟩ => ⟨S_, .f32⟩
  | .hbm, ⟨2, _⟩ => ⟨S768, .f32⟩
  | .hbm, ⟨3, _⟩ => ⟨S1x768, .f32⟩
  | _, _ => ⟨S12288x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S12288x768_S768_d0 : S12288x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.Table.lean ====
/-
  The values of the all-gather-then-maximum kernel, as pure functions of the devices' blocks.

  Every device reduces its own 1536 x 768 block to ONE row of column maxima, the eight rows are gathered into an
  8 x 768 table that ends the same on every device (row r is device r's row), and each device's result is the row of
  column maxima of that table.
-/
import proofs.«900913_g7700000000000914_dist_max_ax0_shard0_i_m1536_n768_v7x_i8_bf16_1_alg».proof.Proof.Gen.KernelIdeal.Skeleton
import Idealize.ShloMosaic.Lib.ValueIdx

noncomputable section

namespace Cert.KernelIdeal.Tbl

open Idealize.ShloMosaic Cert.KernelIdeal Cert.KernelIdeal.Gen

variable {F : FTy → Type} [FloatOps F]

/-- The row a device contributes: the column maxima of its block (the stored value of the first vector store). -/
def rowOf (x : Vec F S1536x768 .f32) : FVec F S1x768 .f32 := k0_pay3 (k0_pay2 x)

/-- The gathered table: row r holds device r's row. -/
def table (xs : Dev nD → Vec F S1536x768 .f32) : Vec F S8x768 .f32 :=
  fun i => rowOf (xs ⟨(i 0).val, (i 0).isLt⟩) (ValueIdx.ix2 (0 : Fin 1) (i 1))

/-- Every device's result: the column maxima of the gathered table. -/
def result (xs : Dev nD → Vec F S1536x768 .f32) : FVec F S1x768 .f32 := k0_pay1 (table xs)

end Cert.KernelIdeal.Tbl

end
-- ==== Proof.Proto.lean ====
/-
  The all-gather-then-maximum kernel on eight devices: the protocol's vocabulary.

  Device c computes the row of column maxima of its block into row c of its 8 x 768 table, tells each of the other seven
  devices (one unit on their barrier semaphore) that its table exists, waits for the seven units from them, copies its
  row c into row c of each of the others' tables (send semaphore k for the device k places after it, the receiver's
  receive semaphore c), waits for the seven rows landing in its own table (receive semaphore j for row j) and for its
  seven sends, and reduces the table.

  Cells, under the rounds discipline with duty names Fin 8: a device's barrier cell has seven duties of one unit at
  round 0, named by the payer, each handing the waiter the payer's table row that the waiter will write; a send cell
  (offsets 1..7) one duty handing back the share of the device's own row the copy read; a receive cell (rows other than
  the device's own) one duty handing the device that row of its table holding the sender's row.
-/
import proofs.«900913_g7700000000000914_dist_max_ax0_shard0_i_m1536_n768_v7x_i8_bf16_1_alg».proof.Proof.Table
import proofs.«900913_g7700000000000914_dist_max_ax0_shard0_i_m1536_n768_v7x_i8_bf16_1_alg».proof.Proof.Gen.KernelIdeal.Launch
import proofs.«900913_g7700000000000914_dist_max_ax0_shard0_i_m1536_n768_v7x_i8_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties Unit) and the protocol's (duties Fin 8) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of eight -/

/-- The device k + 1 places after c. -/
def peer (c : Dev nD) (k : Fin 7) : Dev nD := ⟨(c.val + k.val + 1) % 8, Nat.mod_lt _ (by decide)⟩
/-- The device k + 1 places before c. -/
def rpeer (c : Dev nD) (k : Fin 7) : Dev nD := ⟨(c.val + 7 - k.val) % 8, Nat.mod_lt _ (by decide)⟩

theorem rpeer_peer (c : Dev nD) (k : Fin 7) : rpeer (peer c k) k = c := by revert c k; decide
theorem peer_rpeer (c : Dev nD) (k : Fin 7) : peer (rpeer c k) k = c := by revert c k; decide
theorem peer_ne (c : Dev nD) (k : Fin 7) : peer c k ≠ c := by revert c k; decide
theorem peer_inj (c : Dev nD) : Function.Injective (peer c) := by revert c; decide

/-! ## The memrefs and cells -/

abbrev xM : Memref sig .tc .vmem S1536x768 .f32 := Memref.whole cc0_stg0_0
abbrev oM : Memref sig .tc .vmem S1x768 .f32 := Memref.whole cc0_stg1_0
abbrev gM : Memref sig .tc .vmem S8x768 .f32 := Memref.whole cc0_scratch0

/-- Row r of the table. -/
abbrev rowOff (r : Fin 8) : Fin 2 → Nat := ![r.val, 0]
theorem rowOff_inb (r : Fin 8) : ∀ a, rowOff r a + S1x768.size a ≤ S8x768.size a := by revert r; decide
abbrev rowRect (r : Fin 8) : Rect S8x768 := Rect.unit (s := S8x768) (rowOff r) S1x768.size (rowOff_inb r)
abbrev rowM (r : Fin 8) : Memref sig .tc .vmem S1x768 .f32 := gM.slice (rowRect r) (fun _ => rfl)

/-- The runtime's barrier semaphore of collective id 0 (unscoped); the send and receive DMA semaphores (scoped scratch):
    send semaphore i is DMA semaphore 2 + i, receive semaphore j is DMA semaphore 10 + j. -/
abbrev barS : Sem sig := (SemArray.scalar (sig.barrier 0 rfl) : Sems sig S_).sem
abbrev sendSem (i : Fin 8) : DmaSem sig := ⟨2 + i.val, by have := i.isLt; show 2 + i.val < 18; omega⟩
abbrev recvSem (j : Fin 8) : DmaSem sig := ⟨10 + j.val, by have := j.isLt; show 10 + j.val < 18; omega⟩

abbrev barCell (c : Dev nD) : GSem nD τ sig := ((c : Thread nD τ), .reg barS)
/-- The send cell of offset k + 1. -/
abbrev sendCell (c : Dev nD) (k : Fin 7) : GSem nD τ sig := ((c : Thread nD τ), .dma (sendSem ⟨k.val + 1, by have := k.isLt; omega⟩))
/-- The receive cell of row j. -/
abbrev recvCell (c : Dev nD) (j : Fin 8) : GSem nD τ sig := ((c : Thread nD τ), .dma (recvSem j))

/-- The kernel's OWN (scoped) semaphores, as the launch theorem indexes them: DMA semaphores 2 .. 17; -/
abbrev osem : Fin 16 → SemLoc sig := fun i => .dma ⟨2 + i.val, by have := i.isLt; show 2 + i.val < 18; omega⟩
/-- all seventeen of the protocol's, as this proof indexes them: the barrier, then DMA semaphores 2 .. 17. -/
abbrev csem : Fin 17 → SemLoc sig := fun i => if h : i.val = 0 then .reg barS else .dma ⟨1 + i.val, by have := i.isLt; show 1 + i.val < 18; omega⟩
abbrev kcell (ck : Dev nD × Fin 17) : GSem nD τ sig := ((ck.1 : Thread nD τ), csem ck.2)

/-- The units of one row's transfer. -/
abbrev N : ℕ := (rowM 0).view.dmaCredit

/-! ## Contents -/

/-- What device c stages: its block of the argument. -/
def xstg (c : Dev nD) : (cc0_stg0_0 : Ref sig .tc).ty.Contents (Elt F) :=
  (win0_0.blk (0 : Fin 1)).view.read (Elt F) ((s₀ m ρ).mem ((c : Thread nD τ).loc main_arg0))

/-- The gathered table, the same on every device: row r is device r's row of column maxima. -/
def tbl : (cc0_scratch0 : Ref sig .tc).ty.Contents (Elt F) := Tbl.table (fun d => xstg m ρ d)

/-- Every device's result. -/
def outAt : (cc0_stg1_0 : Ref sig .tc).ty.Contents (Elt F) := Tbl.result (fun d => xstg m ρ d)

/-- The shares of a device's own row under its seven sends: the left half, the left half of the right half, … -/
def rsh : ℕ → PosShare TreeShare
  | 0 => fullShare
  | n + 1 => (rsh n).right
def ssh (k : ℕ) : PosShare TreeShare := (rsh k).left

/-- Device c's table row r, at share q and contents f. -/
def rowPts (c : Dev nD) (r : Fin 8) (q : PosShare TreeShare) (f : Buf (Elt F) ((c : Thread nD τ).loc cc0_scratch0)) : sProp 𝕄 :=
  ((c : Thread nD τ).loc cc0_scratch0) ↦[(rowM r).view.set]{q} f
/-- Device c's whole table. -/
def gPts (c : Dev nD) (f : Buf (Elt F) ((c : Thread nD τ).loc cc0_scratch0)) : sProp 𝕄 :=
  ((c : Thread nD τ).loc cc0_scratch0) ↦{fullShare} f

instance rowPts_storable (c : Dev nD) (r : Fin 8) (q) (f) : BI.Storable (upEmb : UEmb _ 𝕄) (rowPts (F := F) c r q f) := by unfold rowPts; infer_instance
instance gPts_storable (c : Dev nD) (f) : BI.Storable (upEmb : UEmb _ 𝕄) (gPts (F := F) c f) := by unfold gPts; infer_instance

/-! ## The schedule -/

/-- One round, round 0. A barrier cell: the seven duties named by the other devices, one unit each, duty d handing
    over row (the waiter) of device d's table. A send cell (DMA semaphores 3 .. 9): one duty 0 of a row's credit handing
    back the share of the device's own row. A receive cell (DMA semaphore 10 + j, j not the device): one duty 0 of a
    row's credit handing over row j of the device's table holding the gathered row. -/
def rd : Rounds.Schedule (GSem nD τ sig) (Fin 8) 𝕄 where
  duties g r :=
    if r = 0 ∧ g.1.2 = .tc then
      match g.2 with
      | .reg _ => Finset.univ.erase g.1.1
      | .dma q => if 3 ≤ q.val ∧ q.val ≤ 9 then {0} else if 10 ≤ q.val ∧ q.val ≠ 10 + g.1.1.val then {0} else ∅
    else ∅
  unitless _ := False
  amount g _ _ := match g.2 with
    | .reg _ => 1
    | .dma _ => N
  payload g _ d := match g.2 with
    | .reg _ => iprop(∃ f, rowPts d g.1.1 fullShare f)
    | .dma q => if q.val ≤ 9 then rowPts g.1.1 g.1.1 (ssh (q.val - 3)) (tbl m ρ)
                else rowPts g.1.1 ⟨(q.val - 10) % 8, Nat.mod_lt _ (by decide)⟩ fullShare (tbl m ρ)
  amount_pos g _ _ _ := by
    rcases g with ⟨t, sm⟩
    cases sm with
    | reg _ => exact Nat.one_pos
    | dma _ => exact View.dmaCredit_pos _ (by decide)

instance rd_payload_storable (g : GSem nD τ sig) (r : ℕ) (d : Fin 8) :
    BI.Storable (upEmb : UEmb _ 𝕄) ((rd (F := F) m ρ).payload g r d) := by
  rcases g with ⟨t, sm⟩
  cases sm with
  | reg _ => show BI.Storable upEmb iprop(∃ f, rowPts d t.1 fullShare f); infer_instance
  | dma q =>
    show BI.Storable upEmb (if q.val ≤ 9 then rowPts t.1 t.1 (ssh (q.val - 3)) (tbl m ρ)
                else rowPts t.1 ⟨(q.val - 10) % 8, Nat.mod_lt _ (by decide)⟩ fullShare (tbl m ρ))
    split <;> infer_instance

/-! ## What each core owes at launch; the levels -/

/-- What device c owes the devices k + 1 places after it, for k in S₁ the row's credit on their receive cell c, for k in
    S₂ one unit on their barrier cell. -/
def owedOf (c : Dev nD) (S₁ S₂ : Finset (Fin 7)) : CellTallies nD τ sig Unit :=
  (∑ k ∈ S₁, tallyAt (recvCell (peer c k) c) () N) + ∑ k ∈ S₂, tallyAt (barCell (peer c k)) () 1
def O₀ (c : Dev nD) : CellTallies nD τ sig Unit := owedOf c Finset.univ Finset.univ

def L (g : GSem nD τ sig) : Finset Unit := if g.1.2 = .tc then {()} else ∅
/-- barrier cells at 1, receive cells at 2, everything else (staging, send) at 0. -/
def lv (g : GSem nD τ sig) (_ : Unit) : ℕ := match g.2 with
  | .reg _ => 1
  | .dma q => if 10 ≤ q.val then 2 else 0

/-! ## The pipeline's proof data -/

/-- The protocol's persistent records under the names K the launch allocated the cells at: every cell's invariant, and
    that every cell has reached round 0. -/
def records (K : Dev nD × Fin 17 → ℕ) : sProp 𝕄 :=
  iprop((bigSep Finset.univ fun ck : Dev nD × Fin 17 => cellInv ER (rd m ρ) (K ck) (kcell ck))
    ∗ bigSep Finset.univ fun ck : Dev nD × Fin 17 => reached ER (kcell ck) 0)

instance records_persistent (K : Dev nD × Fin 17 → ℕ) : BI.Persistent (records m ρ K) := by unfold records; infer_instance

/-- The tokens of the duties device c pays, per offset: the peer's barrier duty c, the peer's receive duty, its own
    send duty. -/
def payTok (c : Dev nD) (k : Fin 7) : sProp 𝕄 :=
  iprop(dutyTok ER (barCell (peer c k)) 0 c ∗ dutyTok ER (recvCell (peer c k) c) 0 0 ∗ dutyTok ER (sendCell c k) 0 0)

/-- What stays with device c: its positions at round 0 of its seventeen cells, and the tokens of the duties it pays. -/
def linear (c : Dev nD) : sProp 𝕄 :=
  iprop((bigSep Finset.univ fun i : Fin 17 => atPos ER (kcell (c, i)) 0 ∅ 0) ∗ bigSep Finset.univ fun k : Fin 7 => payTok c k)

def ghost (K : Dev nD × Fin 17 → ℕ) (c : Dev nD) : sProp 𝕄 := iprop(records m ρ K ∗ linear c)

/-- What device c's body starts from: that at some names, its credit tokens (its barrier's seven units, the credit of
    its seven receive cells) and the level facts. -/
def start (c : Dev nD) : sProp 𝕄 :=
  iprop((∃ K, ghost m ρ K c) ∗ cred (tallyAt (barCell c) () 7)
    ∗ (bigSep Finset.univ fun k : Fin 7 => cred (tallyAt (recvCell c (peer c k)) () N)) ∗ levAts L lv)

def Φ₀ (c : Dev nD) : sProp 𝕄 := iprop(start m ρ c ∗ ∃ f, gPts c f)
/-- After the point: the table gathered, the sixteen OWN cells at zero, closed (the barrier cell is the runtime's). -/
def Φ₁ (c : Dev nD) : sProp 𝕄 := iprop(gPts c (tbl m ρ) ∗ Pipeline.ownSems0 osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.KernelIdeal.AG

end
-- ==== Proof.Sched.lean ====
/-
  The schedule's tables, cell by cell; the levels; what a device still owes after each of its payments.
-/
import proofs.«900913_g7700000000000914_dist_max_ax0_shard0_i_m1536_n768_v7x_i8_bf16_1_alg».proof.Proof.Proto

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables -/

section Sched
variable (c : Dev nD)

theorem duties_bar : (rd (F := F) m ρ).duties (barCell c) 0 = Finset.univ.erase c := by
  dsimp only [rd]; exact if_pos ⟨rfl, rfl⟩
theorem duties_send (k : Fin 7) : (rd (F := F) m ρ).duties (sendCell c k) 0 = {0} := by
  have hk := k.isLt
  dsimp only [rd]; rw [if_pos ⟨rfl, rfl⟩]
  exact if_pos ⟨by show 3 ≤ 2 + (k.val + 1); omega, by show 2 + (k.val + 1) ≤ 9; omega⟩
theorem duties_recv (j : Fin 8) (h : j ≠ c) : (rd (F := F) m ρ).duties (recvCell c j) 0 = {0} := by
  have hj := j.isLt
  have hne : j.val ≠ c.val := fun e => h (Fin.ext e)
  dsimp only [rd]; rw [if_pos ⟨rfl, rfl⟩]
  show (if 3 ≤ 10 + j.val ∧ 10 + j.val ≤ 9 then ({0} : Finset (Fin 8)) else if 10 ≤ 10 + j.val ∧ 10 + j.val ≠ 10 + c.val then {0} else ∅) = {0}
  rw [if_neg (fun h' => by omega), if_pos ⟨by omega, by omega⟩]
theorem duties_later (g : GSem nD τ sig) : ∀ r, 1 ≤ r → (rd (F := F) m ρ).duties g r = ∅ :=
  fun r hr => by dsimp only [rd]; exact if_neg fun h => by omega
/-- The two own semaphores the kernel never uses have no duty at all: send semaphore 0 and receive semaphore c. -/
theorem duties_send0 : ∀ r, (rd (F := F) m ρ).duties ((c : Thread nD τ), .dma (sendSem 0)) r = ∅ := fun r => by
  dsimp only [rd]
  split
  · show (if 3 ≤ 2 + 0 ∧ 2 + 0 ≤ 9 then ({0} : Finset (Fin 8)) else if 10 ≤ 2 + 0 ∧ 2 + 0 ≠ 10 + c.val then {0} else ∅) = ∅
    rw [if_neg (fun h' => by omega), if_neg (fun h' => by omega)]
  · rfl
theorem duties_recv_self : ∀ r, (rd (F := F) m ρ).duties (recvCell c c) r = ∅ := fun r => by
  dsimp only [rd]
  split
  · show (if 3 ≤ 10 + c.val ∧ 10 + c.val ≤ 9 then ({0} : Finset (Fin 8)) else if 10 ≤ 10 + c.val ∧ 10 + c.val ≠ 10 + c.val then {0} else ∅) = ∅
    rw [if_neg (fun h' => by omega), if_neg (fun h' => h'.2 rfl)]
  · rfl

theorem amount_bar (d : Fin 8) : (rd (F := F) m ρ).amount (barCell c) 0 d = 1 := rfl
theorem amount_send (k : Fin 7) (d : Fin 8) : (rd (F := F) m ρ).amount (sendCell c k) 0 d = N := rfl
theorem amount_recv (j : Fin 8) (d : Fin 8) : (rd (F := F) m ρ).amount (recvCell c j) 0 d = N := rfl

theorem expect_bar : (rd (F := F) m ρ).expect (barCell c) 0 = 7 := by
  unfold Schedule.expect Schedule.amountOf
  rw [duties_bar, Finset.sum_congr rfl fun d _ => amount_bar m ρ c d, Finset.sum_const, Finset.card_erase_of_mem (Finset.mem_univ _),
    Finset.card_univ, Fintype.card_fin, smul_eq_mul]
theorem expect_send (k : Fin 7) : (rd (F := F) m ρ).expect (sendCell c k) 0 = N := by
  unfold Schedule.expect Schedule.amountOf; rw [duties_send, Finset.sum_singleton, amount_send]
theorem expect_recv (j : Fin 8) (h : j ≠ c) : (rd (F := F) m ρ).expect (recvCell c j) 0 = N := by
  unfold Schedule.expect Schedule.amountOf; rw [duties_recv m ρ c j h, Finset.sum_singleton, amount_recv]

theorem payload_bar (d : Fin 8) : (rd (F := F) m ρ).payload (barCell c) 0 d = iprop(∃ f, rowPts d c fullShare f) := rfl
theorem payload_send (k : Fin 7) (d : Fin 8) : (rd (F := F) m ρ).payload (sendCell c k) 0 d = rowPts c c (ssh k.val) (tbl m ρ) := by
  have hk := k.isLt
  show (if 2 + (k.val + 1) ≤ 9 then rowPts c c (ssh (2 + (k.val + 1) - 3)) (tbl m ρ)
    else rowPts c ⟨(2 + (k.val + 1) - 10) % 8, Nat.mod_lt _ (by decide)⟩ fullShare (tbl m ρ)) = _
  rw [if_pos (by omega), show 2 + (k.val + 1) - 3 = k.val by omega]
theorem payload_recv (j : Fin 8) (d : Fin 8) : (rd (F := F) m ρ).payload (recvCell c j) 0 d = rowPts c j fullShare (tbl m ρ) := by
  have hj := j.isLt
  show (if 10 + j.val ≤ 9 then rowPts c c (ssh (10 + j.val - 3)) (tbl m ρ)
    else rowPts c ⟨(10 + j.val - 10) % 8, Nat.mod_lt _ (by decide)⟩ fullShare (tbl m ρ)) = _
  rw [if_neg (by omega), show (⟨(10 + j.val - 10) % 8, Nat.mod_lt _ (by decide)⟩ : Fin 8) = j from Fin.ext (by show (10 + j.val - 10) % 8 = j.val; omega)]

/-- The rest of the barrier cell's round, no duty taken: the seven peers' rows c. -/
theorem rest_bar : bigSep ((rd (F := F) m ρ).duties (barCell c) 0 \ ∅) (fun d => (rd (F := F) m ρ).payload (barCell c) 0 d)
    = bigSep Finset.univ fun k : Fin 7 => iprop(∃ f, rowPts (peer c k) c fullShare f) := by
  rw [Finset.sdiff_empty, duties_bar, show Finset.univ.erase c = Finset.univ.map ⟨peer c, peer_inj c⟩ from by revert c; decide, BI.bigSep_map]
  exact bigSep_congr fun k _ => payload_bar m ρ c (peer c k)
theorem rest_send (k : Fin 7) : bigSep ((rd (F := F) m ρ).duties (sendCell c k) 0 \ ∅) (fun d => (rd (F := F) m ρ).payload (sendCell c k) 0 d)
    = rowPts c c (ssh k.val) (tbl m ρ) := by
  rw [Finset.sdiff_empty, duties_send, bigSep_singleton, payload_send]
theorem rest_recv (j : Fin 8) (h : j ≠ c) : bigSep ((rd (F := F) m ρ).duties (recvCell c j) 0 \ ∅) (fun d => (rd (F := F) m ρ).payload (recvCell c j) 0 d)
    = rowPts c j fullShare (tbl m ρ) := by
  rw [Finset.sdiff_empty, duties_recv m ρ c j h, bigSep_singleton, payload_recv]

end Sched

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- A positive entry of what is owed is at one of the cells the two sums name. -/
theorem owedOf_pos {c : Dev nD} {S₁ S₂ : Finset (Fin 7)} {g : GSem nD τ sig} {u : Unit} (h : 0 < owedOf c S₁ S₂ g u) :
    (∃ k ∈ S₁, g = recvCell (peer c k) c) ∨ (∃ k ∈ S₂, g = barCell (peer c k)) := by
  unfold owedOf at h
  rcases Pipeline.add_pos_cases h with h | h
  · obtain ⟨k, hk, hp⟩ := Pipeline.sum_pos_exists h
    rw [tallyAt_apply] at hp
    by_cases hg : g = recvCell (peer c k) c ∧ u = ()
    · exact .inl ⟨k, hk, hg.1⟩
    · rw [if_neg hg] at hp; exact absurd hp (Nat.lt_irrefl 0)
  · obtain ⟨k, hk, hp⟩ := Pipeline.sum_pos_exists h
    rw [tallyAt_apply] at hp
    by_cases hg : g = barCell (peer c k) ∧ u = ()
    · exact .inr ⟨k, hk, hg.1⟩
    · rw [if_neg hg] at hp; exact absurd hp (Nat.lt_irrefl 0)

theorem lv_recv (c j : Dev nD) (u : Unit) : lv (recvCell c j) u = 2 := by
  dsimp only [lv]; exact if_pos (by show 10 ≤ 10 + j.val; omega)
theorem lv_bar (c : Dev nD) (u : Unit) : lv (barCell c) u = 1 := rfl

/-- A wait on a staging semaphore (DMA semaphores 0 and 1, level 0), owing everything or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases owedOf_pos hg with ⟨k, _, rfl⟩ | ⟨k, _, rfl⟩ <;> exact Finset.mem_singleton_self _)
      (fun p hp => by rw [Finset.mem_singleton.mp hp]; dsimp only [lv]; rw [if_neg (by omega)])
      (fun g u hg => by
        rcases owedOf_pos hg with ⟨k, _, rfl⟩ | ⟨k, _, rfl⟩
        · rw [lv_recv]; decide
        · rw [lv_bar]; decide)
  · rw [MayWait_zero]; iintro -; iempintro

/-- At its barrier wait (level 1) a device owes its peers' receive cells only (level 2). -/
theorem mayWait_bar (c : Dev nD) :
    (levAts L lv : sProp 𝕄) ⊢ MayWait (c : Thread nD τ) (.reg barS) () (owedOf c Finset.univ ∅) :=
  MayOwe.of_cut (L := L) (lev := lv) 1 (fun p hp => by rw [Finset.mem_singleton.mp hp, L_tc]; exact Finset.mem_singleton_self _)
    (fun g u hg => by
      rcases owedOf_pos hg with ⟨k, _, rfl⟩ | ⟨k, hk, _⟩
      · exact Finset.mem_singleton_self _
      · exact absurd hk (Finset.notMem_empty k))
    (fun p hp => by rw [Finset.mem_singleton.mp hp]; exact le_of_eq (lv_bar c ()))
    (fun g u hg => by
      rcases owedOf_pos hg with ⟨k, _, rfl⟩ | ⟨k, hk, _⟩
      · rw [lv_recv]; decide
      · exact absurd hk (Finset.notMem_empty k))

/-! ## What is still owed after a payment -/

theorem owed_peel_bar (c : Dev nD) (S₁ S₂ : Finset (Fin 7)) (k : Fin 7) (hk : k ∈ S₂) :
    owedOf c S₁ S₂ = owedOf c S₁ (S₂.erase k) + tallyAt (barCell (peer c k)) () 1 := by
  unfold owedOf
  rw [← Finset.sum_erase_add S₂ _ hk, add_assoc]
theorem owed_peel_recv (c : Dev nD) (S₁ S₂ : Finset (Fin 7)) (k : Fin 7) (hk : k ∈ S₁) :
    owedOf c S₁ S₂ = owedOf c (S₁.erase k) S₂ + tallyAt (recvCell (peer c k) c) () N := by
  unfold owedOf
  rw [← Finset.sum_erase_add S₁ _ hk, add_right_comm]
theorem owedOf_empty (c : Dev nD) : owedOf c ∅ ∅ = 0 := by
  unfold owedOf; rw [Finset.sum_empty, Finset.sum_empty, add_zero]

end Cert.KernelIdeal.AG

end
-- ==== Proof.Mem.lean ====
/-
  The table as eight rows, a row as shares; what a row holds after the store and after a landing.
-/
import proofs.«900913_g7700000000000914_dist_max_ax0_shard0_i_m1536_n768_v7x_i8_bf16_1_alg».proof.Proof.Proto
import Idealize.ShloMosaic.Lib.Pipeline.Value

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rows -/

/-- The zero offsets of a whole-buffer access. -/
theorem off00_eq : (![0, 0] : Fin 2 → Nat) = fun _ => 0 := funext fun a => by fin_cases a <;> rfl

/-- An element of the table lies in row r exactly when its first coordinate is r. -/
theorem mem_row (r : Fin 8) (i : S8x768.Idx) : i ∈ (rowM r).view.set ↔ (i 0).val = r.val := by
  have h : (rowM r).view.set = (rowRect r).set := View.set_slice_whole cc0_scratch0 (rowRect r)
  rw [h, Rect.mem_set_unit]
  constructor
  · intro h; have h0 := h 0
    simp only [Matrix.cons_val_zero] at h0
    have : S1x768.size 0 = 1 := rfl
    omega
  · intro h a
    fin_cases a
    · have : S1x768.size 0 = 1 := rfl
      simp only [Matrix.cons_val_zero, Fin.zero_eta]
      omega
    · have h1 : (i 1).val < 768 := (i 1).isLt
      refine ⟨Nat.zero_le _, ?_⟩
      show (i 1).val < 0 + 768
      omega

/-- The whole table is its eight rows. -/
theorem gPts_rows (c : Dev nD) (f : Buf (Elt F) ((c : Thread nD τ).loc cc0_scratch0)) :
    gPts (F := F) c f = bigSep Finset.univ fun r : Fin 8 => rowPts c r fullShare f := by
  unfold gPts rowPts
  have hU : (Finset.univ : Finset (Idx ((c : Thread nD τ).loc cc0_scratch0)))
      = Finset.univ.biUnion (fun r : Fin 8 => (rowM r).view.set) := by
    ext i
    simp only [Finset.mem_univ, Finset.mem_biUnion, true_and, true_iff]
    exact ⟨⟨(i 0).val, (i 0).isLt⟩, (mem_row _ i).mpr rfl⟩
  rw [hU, pointsTo_biUnion]
  intro t _ t' _ hne
  rw [Finset.disjoint_left]; intro i hi hi'
  exact hne (Fin.ext (((mem_row t i).mp hi).symm.trans ((mem_row t' i).mp hi')))

/-- Contents off a row do not matter to the row. -/
theorem rowPts_congr (c : Dev nD) (r : Fin 8) (q : PosShare TreeShare) (f g : Buf (Elt F) ((c : Thread nD τ).loc cc0_scratch0))
    (h : ∀ i ∈ (rowM r).view.set, f i = g i) : rowPts (F := F) c r q f = rowPts c r q g := by
  unfold rowPts; exact pointsTo_congr h

/-- A row at share rsh n is its share ssh n and the rest rsh (n + 1). -/
theorem rowPts_share (c : Dev nD) (r : Fin 8) (n : ℕ) (f : Buf (Elt F) ((c : Thread nD τ).loc cc0_scratch0)) :
    (rowPts (F := F) c r (rsh n) f) ⊣⊢ iprop(rowPts c r (ssh n) f ∗ rowPts c r (rsh (n + 1)) f) := by
  unfold rowPts
  exact pointsTo_share (PosShare.mem_left_op_right (rsh n))

/-- A row's credit does not depend on the row. -/
theorem dmaCredit_row (r : Fin 8) : (rowM r).view.dmaCredit = N := rfl
theorem amount_row (r : Fin 8) (q : DmaSem sig) : (rowM r).view.amount (.dma q) = N := rfl

/-! ## What a row holds -/

/-- The elements a load or a store through the row's rectangle touches are the row's. -/
theorem load_row_sub (r : Fin 8) : gM.view.setOn (rowRect r).toLoadRect.set ⊆ (rowM r).view.set := by
  have h : (rowM r).view.set = (rowRect r).set.map gM.view.emb := View.set_slice _ _
  rw [h]; exact Finset.Subset.refl _
theorem store_row_sub (r : Fin 8) : (gM.access (rowRect r)).setOn Finset.univ ⊆ (rowM r).view.set := Finset.Subset.refl _

/-- After the store of a device's row of column maxima into row c, row c holds the gathered table's row c. -/
theorem store_row_eq (c : Dev nD) (f : Buf (Elt F) ((c : Thread nD τ).loc cc0_scratch0)) :
    ∀ i ∈ (rowM c).view.set, (gM.access (rowRect c)).write (Elt F) f (Tbl.rowOf (xstg m ρ c)) Finset.univ i = tbl m ρ i := by
  intro i hi
  obtain ⟨y, rfl⟩ := View.exists_emb_of_mem_set (rowM c).view hi
  show (rowM c).view.write (Elt F) f (Tbl.rowOf (xstg m ρ c)) Finset.univ ((rowM c).view.emb y) = _
  rw [View.write_emb_of_mem _ _ (Finset.mem_univ y)]
  have hc : (⟨((rowM c).view.emb y 0).val, ((rowM c).view.emb y 0).isLt⟩ : Dev nD) = c := by
    apply Fin.ext
    show c.val + 1 * (y 0).val = c.val
    have h0 : (y 0).val < 1 := (y 0).isLt
    omega
  have hy : ValueIdx.ix2 (0 : Fin 1) ((rowM c).view.emb y 1) = y := by
    funext a
    match a with
    | ⟨0, _⟩ => apply Fin.ext; show (0 : ℕ) = (y 0).val; have h0 : (y 0).val < 1 := (y 0).isLt; omega
    | ⟨1, _⟩ => apply Fin.ext; show 0 + 1 * (y 1).val = (y 1).val; omega
  show _ = Tbl.rowOf (xstg m ρ ⟨((rowM c).view.emb y 0).val, ((rowM c).view.emb y 0).isLt⟩) (ValueIdx.ix2 (0 : Fin 1) ((rowM c).view.emb y 1))
  rw [hc]
  exact (cast_eq _ _).trans (congrArg (Tbl.rowOf (xstg m ρ c)) hy.symm)

/-- A row landing on another device's table: the destination's row rewritten with the source's row is the source on that row. -/
theorem land_row_eq (r : Fin 8) (fd fs : (cc0_scratch0 : Ref sig .tc).ty.Contents (Elt F)) :
    ∀ i ∈ (rowM r).view.set, (rowM r).view.write (Elt F) fd ((rowM r).view.read (Elt F) fs) Finset.univ i = fs i := by
  intro i hi
  rw [View.write_read_eq_piecewise, View.setOn_univ, Finset.piecewise_eq_of_mem _ _ _ hi]

/-- What the loads read: the staged block whole, and the table whole. -/
theorem read_x (f : (cc0_stg0_0 : Ref sig .tc).ty.Contents (Elt F)) :
    xM.view.readAt (Elt F) (Rect.unit (s := S1536x768) ![0, 0] S1536x768.size inb_S1536x768_S1536x768_0_0).toLoadRect f = f := Memref.readAt_unit_zero (Elt F) cc0_stg0_0 off00_eq _ f
theorem read_g (f : (cc0_scratch0 : Ref sig .tc).ty.Contents (Elt F)) :
    gM.view.readAt (Elt F) (Rect.unit (s := S8x768) ![0, 0] S8x768.size inb_S8x768_S8x768_0_0).toLoadRect f = f := Memref.readAt_unit_zero (Elt F) cc0_scratch0 off00_eq _ f
theorem write_out (f w : (cc0_stg1_0 : Ref sig .tc).ty.Contents (Elt F)) :
    (oM.access (Rect.unit (s := S1x768) ![0, 0] S1x768.size inb_S1x768_S1x768_0_0)).write (Elt F) f w Finset.univ = w := Memref.write_access_unit_zero_univ (Elt F) cc0_stg1_0 off00_eq _ f w

end Cert.KernelIdeal.AG

end
-- ==== Proof.Steps.lean ====
/-
  The protocol's steps at one offset of the ring: the signal, the barrier wait, the send, the two kinds of DMA wait, and the closing of a cell, each the rounds discipline's rule at our cells.
-/
import proofs.«900913_g7700000000000914_dist_max_ax0_shard0_i_m1536_n768_v7x_i8_bf16_1_alg».proof.Proof.Sched
import proofs.«900913_g7700000000000914_dist_max_ax0_shard0_i_m1536_n768_v7x_i8_bf16_1_alg».proof.Proof.Mem

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (c : Dev nD) (k : Fin 7)

/-- The signal to the barrier cell of the device k + 1 places after: its duty c, handing over row (that device) of
    c's table. -/
theorem wp_sig (n : Dev nD) (hn : n = peer c k) (S₁ S₂ : Finset (Fin 7)) (hk : k ∈ S₂) {κ : ℕ} {W : Waits sig Unit}
    {α : Type} {Q : α → sProp 𝕄} {kont : PUnit → Prog (TpuEff nD τ sig (Elt F) Λ₀ .tc) α} {amt : ℕ} (hamt : amt = 1) :
    iprop(cellInv ER (rd m ρ) κ (barCell (peer c k)) ∗ owes (c : Thread nD τ) (owedOf c S₁ S₂) W
        ∗ dutyTok ER (barCell (peer c k)) 0 c ∗ (∃ f, rowPts c (peer c k) fullShare f) ∗ reached ER (barCell (peer c k)) 0)
      ⊢ iprop((owes (c : Thread nD τ) (owedOf c S₁ (S₂.erase k)) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((n, Proc.tc) : Thread nD τ) barS amt) kont) Q) := by
  subst hn hamt
  rw [← payload_bar m ρ (peer c k) c]
  exact Rounds.wp_signal 𝒱₀ ER (rd m ρ) (c : Thread nD τ) none (dst := (peer c k : Thread nD τ)) (κ := κ) (d := c)
    (by rw [duties_bar]; exact Finset.mem_erase.mpr ⟨(peer_ne c k).symm, Finset.mem_univ _⟩)
    (amount_bar m ρ (peer c k) c) () (owedOf c S₁ (S₂.erase k)) (owed_peel_bar c S₁ S₂ k hk)

/-- The wait for seven on the device's own barrier cell, owing its peers' receive credit: the seven peers' rows c come with it. -/
theorem wp_bar_wait {κ : ℕ} {W : Waits sig Unit}
    {α : Type} {Q : α → sProp 𝕄} {kont : PUnit → Prog (TpuEff nD τ sig (Elt F) Λ₀ .tc) α} {amt : ℕ} (hamt : amt = 7) :
    iprop(cellInv ER (rd m ρ) κ (barCell c) ∗ cred (tallyAt (barCell c) () 7) ∗ owes (c : Thread nD τ) (owedOf c Finset.univ ∅) W
        ∗ levAts L lv ∗ atPos ER (barCell c) 0 ∅ 0)
      ⊢ iprop(((owes (c : Thread nD τ) (owedOf c Finset.univ ∅) (insert (SemLoc.reg barS, ()) W)
              ∗ atPos ER (barCell c) 1 ∅ 0
              ∗ bigSep Finset.univ fun k : Fin 7 => iprop(∃ f, rowPts (peer c k) c fullShare f))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS amt) kont) Q) := by
  subst hamt
  iintro ⟨HI, Hc, HO, Hlev, Hat⟩ Hk
  iapply (Rounds.wp_wait_rest_token 𝒱₀ ER (rd m ρ) (c : Thread nD τ) none (κ := κ)
      (wpE_semWait_eq 𝒱₀ (c : Thread nD τ) none Set.univ) (Set.mem_univ _) () (O := owedOf c Finset.univ ∅) (W := W) (R := 0) (m := 0) (T := ∅)
      (by rw [expect_bar])) $$ [HI Hc HO Hlev Hat]
  · isplitl [HI]; · iexact HI
    isplitl [Hc]; · iexact Hc
    isplitl [HO]; · iexact HO
    isplitl [Hlev]; · iapply (mayWait_bar c); iexact Hlev
    iexact Hat
  iintro ⟨HO, Hat, -, Hpay⟩
  iapply Hk
  isplitl [HO]; · iexact HO
  isplitl [Hat]; · iexact Hat
  iapply (Entails.of_eq (rest_bar m ρ c)); iexact Hpay

/-- The transfer of the device's row c into row c of the table of the device k + 1 places after, reading the share
    ssh k of the source. -/
theorem wp_send_row (n : Dev nD) (hn : n = peer c k)
    (src : Memref sig .tc .vmem S1x768 .f32) (hs : src = rowM c)
    (dst : Memref sig (Dev.tc n : Thread nD τ).2.kind .vmem S1x768 .f32) (hd : dst = rowM c)
    (sS sR : DmaSem sig) (hsS : sS = sendSem ⟨k.val + 1, by have := k.isLt; omega⟩) (hsR : sR = recvSem c)
    {hsc : dst.view.ref.isScScratch = false} {hsrc : src.view.WordExact} {hdst : dst.view.WordExact}
    {hsem : DmaTarget.Typed .vmem (.dma sR) (.remote (Dev.tc n : Thread nD τ) dst (.dma sS) hsc)}
    (S₁ : Finset (Fin 7)) (hk : k ∈ S₁) {κ₁ κ₂ : ℕ} {W : Waits sig Unit}
    {α : Type} {Q : α → sProp 𝕄} {kont : PUnit → Prog (TpuEff nD τ sig (Elt F) Λ₀ .tc) α}
    (fn : Buf (Elt F) ((peer c k : Thread nD τ).loc cc0_scratch0)) :
    iprop(cellInv ER (rd m ρ) κ₁ (sendCell c k) ∗ cellInv ER (rd m ρ) κ₂ (recvCell (peer c k) c)
        ∗ rowPts c c (ssh k.val) (tbl m ρ) ∗ rowPts (peer c k) c fullShare fn
        ∗ owes (c : Thread nD τ) (owedOf c S₁ ∅) W
        ∗ dutyTok ER (sendCell c k) 0 0 ∗ reached ER (sendCell c k) 0
        ∗ dutyTok ER (recvCell (peer c k) c) 0 0 ∗ reached ER (recvCell (peer c k) c) 0)
      ⊢ iprop(((cred (tallyAt (sendCell c k) () N) ∗ owes (c : Thread nD τ) (owedOf c (S₁.erase k) ∅) W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kont) Q) := by
  subst hn hs hd hsS hsR
  unfold rowPts
  exact Rounds.wp_send_pointsTo 𝒱₀ ER (rd m ρ) (c : Thread nD τ) none (c' := (peer c k : Thread nD τ)) (src := rowM c) (dst := rowM c)
    (q := ssh k.val) (fs := tbl m ρ) (fd := fn) (κ₁ := κ₁) (κ₂ := κ₂) (r₁ := 0) (r₂ := 0) (d₁ := 0) (d₂ := 0)
    (by rw [duties_send]; exact Finset.mem_singleton_self _)
    (by rw [duties_recv m ρ (peer c k) c (peer_ne c k).symm]; exact Finset.mem_singleton_self _)
    () () N (amount_row c _) (amount_send m ρ c k 0) (amount_recv m ρ (peer c k) c 0)
    (owedOf c (S₁.erase k) ∅) (owed_peel_recv c S₁ ∅ k hk) (W := W)
    (by rw [payload_send]; exact BI.Entails.refl _)
    (by rw [payload_recv]; exact Entails.of_eq (rowPts_congr (peer c k) c fullShare _ _ (land_row_eq c fn (tbl m ρ))))

/-- The wait on the receive cell of the row of the device k + 1 places after, owing nothing: that row of the table,
    holding the gathered row. -/
theorem wp_recv_wait (sR : DmaSem sig) (hsR : sR = recvSem (peer c k))
    (src dst : Memref sig .tc .vmem S1x768 .f32) (hd : dst = rowM (peer c k))
    {hsrc : src.view.WordExact} {hdst : dst.view.WordExact} {κ : ℕ} {W : Waits sig Unit}
    {α : Type} {Q : α → sProp 𝕄} {kont : PUnit → Prog (TpuEff nD τ sig (Elt F) Λ₀ .tc) α} :
    iprop(cellInv ER (rd m ρ) κ (recvCell c (peer c k)) ∗ cred (tallyAt (recvCell c (peer c k)) () N) ∗ owes (c : Thread nD τ) 0 W
        ∗ atPos ER (recvCell c (peer c k)) 0 ∅ 0)
      ⊢ iprop(((owes (c : Thread nD τ) 0 (insert (SemLoc.dma (recvSem (peer c k)), ()) W)
              ∗ atPos ER (recvCell c (peer c k)) 1 ∅ 0 ∗ rowPts c (peer c k) fullShare (tbl m ρ))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sR src dst hsrc hdst) kont) Q) := by
  subst hsR hd
  iintro ⟨HI, Hc, HO, Hat⟩ Hk
  iapply (Rounds.wp_wait_rest_token 𝒱₀ ER (rd m ρ) (c : Thread nD τ) none (κ := κ)
      (wpE_waitDma2_eq 𝒱₀ (c : Thread nD τ) none Set.univ) (Set.mem_univ _) () (O := 0) (W := W) (R := 0) (m := 0) (T := ∅)
      (by rw [Nat.zero_add, dmaCredit_row (peer c k), expect_recv m ρ c (peer c k) (peer_ne c k)])) $$ [HI Hc HO Hat]
  · isplitl [HI]; · iexact HI
    isplitl [Hc]; · rw [dmaCredit_row (peer c k)]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m ρ c (peer c k) (peer_ne c k))); iexact Hpay

/-- The wait on the send cell of offset k + 1, owing nothing: the share of the device's own row back. -/
theorem wp_send_wait (sS : DmaSem sig) (hsS : sS = sendSem ⟨k.val + 1, by have := k.isLt; omega⟩)
    (src dst : Memref sig .tc .vmem S1x768 .f32) (hd : dst = rowM c)
    {hsrc : src.view.WordExact} {hdst : dst.view.WordExact} {κ : ℕ} {W : Waits sig Unit}
    {α : Type} {Q : α → sProp 𝕄} {kont : PUnit → Prog (TpuEff nD τ sig (Elt F) Λ₀ .tc) α} :
    iprop(cellInv ER (rd m ρ) κ (sendCell c k) ∗ cred (tallyAt (sendCell c k) () N) ∗ owes (c : Thread nD τ) 0 W
        ∗ atPos ER (sendCell c k) 0 ∅ 0)
      ⊢ iprop(((owes (c : Thread nD τ) 0 (insert (SemLoc.dma (sendSem ⟨k.val + 1, by have := k.isLt; omega⟩), ()) W)
              ∗ atPos ER (sendCell c k) 1 ∅ 0 ∗ rowPts c c (ssh k.val) (tbl m ρ))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sS src dst hsrc hdst) kont) Q) := by
  subst hsS hd
  iintro ⟨HI, Hc, HO, Hat⟩ Hk
  iapply (Rounds.wp_wait_rest_token 𝒱₀ ER (rd m ρ) (c : Thread nD τ) none (κ := κ)
      (wpE_waitDma2_eq 𝒱₀ (c : Thread nD τ) none Set.univ) (Set.mem_univ _) () (O := 0) (W := W) (R := 0) (m := 0) (T := ∅)
      (by rw [Nat.zero_add, dmaCredit_row c, expect_send m ρ c k])) $$ [HI Hc HO Hat]
  · isplitl [HI]; · iexact HI
    isplitl [Hc]; · rw [dmaCredit_row c]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m ρ c k)); iexact Hpay

end Steps

/-! ## Closing the cells -/

/-- A cell with no duty from round R on, its owner at (R, ∅, 0): its counter is zero and the core's again. -/
theorem close_cell (g : GSem nD τ sig) (R : ℕ) (hR : ∀ r, R ≤ r → (rd (F := F) m ρ).duties g r = ∅) {κ : ℕ} :
    iprop(cellInv ER (rd m ρ) κ g ∗ atPos ER g R ∅ 0) ⊢ iprop(|={Set.univ}=> semVal g 0) := by
  exact Rounds.cell_close ER (rd m ρ) (Set.mem_univ κ) (fun h => h) hR

end Cert.KernelIdeal.AG

end
-- ==== Proof.Closed.lean ====
/-
  The printed device and offset chains in closed form over the ring of eight; the printed semaphore and table-row expressions as the protocol's names.
-/
import proofs.«900913_g7700000000000914_dist_max_ax0_shard0_i_m1536_n768_v7x_i8_bf16_1_alg».proof.Proof.Proto

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices the signals and the transfers address -/

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 1 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 4 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 6 := by revert c; decide +kernel

/-! ## The table rows the body addresses -/

/-- The row the first store writes (and the load before it reads): the device's own. -/
theorem rect_off1 (c : Dev nD) : Rect.unit (s := S8x768) (k0_off1 c) S1x768.size (k0_off1_inb c) = rowRect c :=
  Rect.unit_congr (Gen.k0_off1_eq c) _ _
/-- The source and destination of the sends, and the views of the send waits: the device's own row. -/
theorem slice_off3 (c : Dev nD) : gM.slice (Rect.unit (s := S8x768) (k0_off3 c) S1x768.size (k0_off3_inb c)) (fun _ => rfl) = rowM c :=
  Memref.slice_unit_congr _ (Gen.k0_off3_eq c) _ _ _ fun _ => rfl
/-- The row the k-th receive wait addresses: that of the device k + 1 places after. -/
theorem k0_off5_eq (c : Dev nD) (k : Fin 7) : k0_off5 c (BitVec.ofNat 32 (1 + k.val)) = rowOff (peer c k) := by
  revert c k; decide +kernel
/-- The views of the receive waits: the row of the device k + 1 places after. -/
theorem slice_off5 (c : Dev nD) (k : Fin 7) :
    gM.slice (Rect.unit (s := S8x768) (k0_off5 c (BitVec.ofNat 32 (1 + k.val))) S1x768.size (k0_off5_inb c k)) (fun _ => rfl) = rowM (peer c k) :=
  Memref.slice_unit_congr _ (k0_off5_eq c k) _ _ _ fun _ => rfl

/-! ## The semaphores the body names -/

/-- Send semaphore i, as the body slices it out of its array at the literal i. -/
theorem sendSem_eq (i : Fin 8) (h : ∀ a, (![i.val] : Fin 1 → Nat) a + S1.size a ≤ S8.size a) :
    ((cc0_scratch1.slice (Rect.unit (s := S8) ![i.val] S1.size h)).squeeze S_ squeezes_S1_S_).sem = sendSem i := by
  revert i; decide +kernel
/-- The receive semaphore a send credits on its target: the sender's position. -/
theorem recvSem_off2 (c : Dev nD) :
    ((cc0_scratch2.slice (Rect.unit (s := S8) (k0_off2 c) S1.size (k0_off2_inb c))).squeeze S_ squeezes_S1_S_).sem = recvSem c := by
  revert c; decide +kernel
/-- The receive semaphore of the k-th receive wait: the position of the device k + 1 places after. -/
theorem recvSem_off4 (c : Dev nD) (k : Fin 7) :
    ((cc0_scratch2.slice (Rect.unit (s := S8) (k0_off4 c (BitVec.ofNat 32 (1 + k.val))) S1.size (k0_off4_inb c k))).squeeze S_ squeezes_S1_S_).sem
      = recvSem (peer c k) := by
  revert c k; decide +kernel

/-! ## A device's cells, regrouped -/

/-- The send cell the kernel never uses: send semaphore 0. -/
abbrev send0Cell (c : Dev nD) : GSem nD τ sig := ((c : Thread nD τ), .dma (sendSem 0))

/-- Where send cell k and receive cell j stand among a device's seventeen cells, -/
def sIdx (k : Fin 7) : Fin 17 := ⟨k.val + 2, by have := k.isLt; omega⟩
def rIdx (j : Fin 8) : Fin 17 := ⟨j.val + 9, by have := j.isLt; omega⟩
/-- and among its sixteen own semaphores. -/
def sIdx' (k : Fin 7) : Fin 16 := ⟨k.val + 1, by have := k.isLt; omega⟩
def rIdx' (j : Fin 8) : Fin 16 := ⟨j.val + 8, by have := j.isLt; omega⟩

theorem sendCell_kcell (c : Dev nD) (k : Fin 7) : sendCell c k = kcell (c, sIdx k) := by revert c k; decide +kernel
theorem recvCell_kcell (c : Dev nD) (j : Fin 8) : recvCell c j = kcell (c, rIdx j) := by revert c j; decide +kernel
theorem send0Cell_kcell (c : Dev nD) : send0Cell c = kcell (c, 1) := by revert c; decide +kernel
theorem sendCell_osem (c : Dev nD) (k : Fin 7) : sendCell c k = ((c : Thread nD τ), osem (sIdx' k)) := by
  revert c k; decide +kernel
theorem recvCell_osem (c : Dev nD) (j : Fin 8) : recvCell c j = ((c : Thread nD τ), osem (rIdx' j)) := by
  revert c j; decide +kernel
theorem send0Cell_osem (c : Dev nD) : send0Cell c = ((c : Thread nD τ), osem 0) := by revert c; decide +kernel

/-- A device's seventeen cells: its barrier cell, the two own cells it never uses, and per offset its send cell and
    the receive cell of the peer's row. -/
theorem bigSep_cells {M : Type} [URA M] (c : Dev nD) (Φ : GSem nD τ sig → sProp M) :
    (bigSep Finset.univ fun i : Fin 17 => Φ (kcell (c, i)))
      = iprop(Φ (barCell c) ∗ Φ (send0Cell c) ∗ Φ (recvCell c c) ∗ bigSep Finset.univ fun k : Fin 7 => iprop(Φ (sendCell c k) ∗ Φ (recvCell c (peer c k)))) := by
  have hsep : ∀ P Q : sProp M, iprop(P ∗ Q) = BI.sep P Q := fun _ _ => rfl
  rw [bigSep_univ_eq_bigSepL (I := Fin 7) [0, 1, 2, 3, 4, 5, 6] (by decide) (by decide),
    bigSep_univ_eq_bigSepL (I := Fin 17)
      [0, 1, rIdx c, sIdx 0, rIdx (peer c 0), sIdx 1, rIdx (peer c 1), sIdx 2, rIdx (peer c 2), sIdx 3, rIdx (peer c 3),
       sIdx 4, rIdx (peer c 4), sIdx 5, rIdx (peer c 5), sIdx 6, rIdx (peer c 6)]
      (by revert c; decide) (by revert c; decide),
    show barCell c = kcell (c, 0) from rfl]
  simp only [bigSepL_cons_cons, bigSepL_singleton, sendCell_kcell, recvCell_kcell, send0Cell_kcell, hsep]
  ac_rfl

/-- A device's sixteen own semaphores, likewise. -/
theorem bigSep_own {M : Type} [URA M] (c : Dev nD) (Φ : GSem nD τ sig → sProp M) :
    (bigSep Finset.univ fun i : Fin 16 => Φ ((c : Thread nD τ), osem i))
      = iprop(Φ (send0Cell c) ∗ Φ (recvCell c c) ∗ bigSep Finset.univ fun k : Fin 7 => iprop(Φ (sendCell c k) ∗ Φ (recvCell c (peer c k)))) := by
  have hsep : ∀ P Q : sProp M, iprop(P ∗ Q) = BI.sep P Q := fun _ _ => rfl
  rw [bigSep_univ_eq_bigSepL (I := Fin 7) [0, 1, 2, 3, 4, 5, 6] (by decide) (by decide),
    bigSep_univ_eq_bigSepL (I := Fin 16)
      [0, rIdx' c, sIdx' 0, rIdx' (peer c 0), sIdx' 1, rIdx' (peer c 1), sIdx' 2, rIdx' (peer c 2), sIdx' 3,
       rIdx' (peer c 3), sIdx' 4, rIdx' (peer c 4), sIdx' 5, rIdx' (peer c 5), sIdx' 6, rIdx' (peer c 6)]
      (by revert c; decide) (by revert c; decide)]
  simp only [bigSepL_cons_cons, bigSepL_singleton, sendCell_osem, recvCell_osem, send0Cell_osem, hsep]
  ac_rfl

/-- Seven things in a row. -/
theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The eight rows of a table: the device's own and its seven peers'. -/
theorem bigSep_rows {M : Type} [URA M] (c : Dev nD) (Φ : Fin 8 → sProp M) :
    bigSep Finset.univ Φ = iprop(Φ c ∗ bigSep Finset.univ fun k : Fin 7 => Φ (peer c k)) := by
  rw [bigSep_fin7, bigSep_univ_eq_bigSepL [c, peer c 0, peer c 1, peer c 2, peer c 3, peer c 4, peer c 5, peer c 6]
    (by revert c; decide) (by revert c; decide)]
  rfl

/-- The kcell names of a device's cells. -/
theorem barCell_eq (c : Dev nD) : barCell c = kcell (c, 0) := rfl
theorem sendCell_eq (c : Dev nD) (k : Fin 7) : sendCell c k = kcell (c, ⟨k.val + 2, by have := k.isLt; omega⟩) := by
  revert c k; decide +kernel
theorem recvCell_eq (c : Dev nD) (j : Fin 8) : recvCell c j = kcell (c, ⟨j.val + 9, by have := j.isLt; omega⟩) := by
  revert c j; decide +kernel
theorem send0Cell_eq (c : Dev nD) : send0Cell c = kcell (c, 1) := by
  revert c; decide +kernel

end Cert.KernelIdeal.AG

end
-- ==== Proof.Body.lean ====
/-
  One device's body, stepped from the protocol's invariant: the body obligation of the pipeline's one point.
-/
import proofs.«900913_g7700000000000914_dist_max_ax0_shard0_i_m1536_n768_v7x_i8_bf16_1_alg».proof.Proof.Steps
import proofs.«900913_g7700000000000914_dist_max_ax0_shard0_i_m1536_n768_v7x_i8_bf16_1_alg».proof.Proof.Closed

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (K : Dev nD × Fin 17 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The records, cell by cell -/

theorem inv_at (ck : Dev nD × Fin 17) : records m ρ K ⊢ cellInv ER (rd m ρ) (K ck) (kcell ck) :=
  sep_elim_left.trans (bigSep_elim (Finset.mem_univ ck))
theorem reached_at (ck : Dev nD × Fin 17) : records m ρ K ⊢ reached ER (kcell ck) 0 :=
  sep_elim_right.trans (bigSep_elim (Finset.mem_univ ck))

theorem inv_send (c : Dev nD) (k : Fin 7) :
    records m ρ K ⊢ cellInv ER (rd m ρ) (K (c, sIdx k)) (sendCell c k) := by
  rw [sendCell_kcell c k]; exact inv_at m ρ K _
theorem inv_recv (c : Dev nD) (j : Fin 8) :
    records m ρ K ⊢ cellInv ER (rd m ρ) (K (c, rIdx j)) (recvCell c j) := by
  rw [recvCell_kcell c j]; exact inv_at m ρ K _
theorem inv_send0 (c : Dev nD) : records m ρ K ⊢ cellInv ER (rd m ρ) (K (c, 1)) (send0Cell c) := by
  rw [send0Cell_kcell c]; exact inv_at m ρ K _
theorem reached_send (c : Dev nD) (k : Fin 7) : records m ρ K ⊢ reached ER (sendCell c k) 0 := by
  rw [sendCell_kcell c k]; exact reached_at m ρ K _
theorem reached_recv (c : Dev nD) (j : Fin 8) : records m ρ K ⊢ reached ER (recvCell c j) 0 := by
  rw [recvCell_kcell c j]; exact reached_at m ρ K _

/-! ## The steps, from the records -/

theorem wp_sig' (c : Dev nD) (k : Fin 7) (n : Dev nD) (hn : n = peer c k) (S₁ S₂ : Finset (Fin 7)) (hk : k ∈ S₂) {W : Waits sig Unit}
    {α : Type} {Q : α → sProp 𝕄} {kont : PUnit → Prog (TpuEff nD τ sig (Elt F) Λ₀ .tc) α} {amt : ℕ} (hamt : amt = 1)
    (f : Buf (Elt F) ((c : Thread nD τ).loc cc0_scratch0)) :
    iprop(records m ρ K ∗ owes (c : Thread nD τ) (owedOf c S₁ S₂) W ∗ dutyTok ER (barCell (peer c k)) 0 c ∗ rowPts c (peer c k) fullShare f)
      ⊢ iprop((owes (c : Thread nD τ) (owedOf c S₁ (S₂.erase k)) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((n, Proc.tc) : Thread nD τ) barS amt) kont) Q) := by
  iintro ⟨#Hrec, HO, Ht, Hr⟩
  iapply (wp_sig m ρ c k n hn S₁ S₂ hk (κ := K (peer c k, 0)) hamt)
  isplitr; · iapply (inv_at m ρ K (peer c k, 0)); iexact Hrec
  isplitl [HO]; · iexact HO
  isplitl [Ht]; · iexact Ht
  isplitl [Hr]; · iexists f; iexact Hr
  iapply (reached_at m ρ K (peer c k, 0)); iexact Hrec

theorem wp_bar' (c : Dev nD) {W : Waits sig Unit}
    {α : Type} {Q : α → sProp 𝕄} {kont : PUnit → Prog (TpuEff nD τ sig (Elt F) Λ₀ .tc) α} {amt : ℕ} (hamt : amt = 7) :
    iprop(records m ρ K ∗ cred (tallyAt (barCell c) () 7) ∗ owes (c : Thread nD τ) (owedOf c Finset.univ ∅) W
        ∗ levAts L lv ∗ atPos ER (barCell c) 0 ∅ 0)
      ⊢ iprop(((owes (c : Thread nD τ) (owedOf c Finset.univ ∅) (insert (SemLoc.reg barS, ()) W)
              ∗ atPos ER (barCell c) 1 ∅ 0
              ∗ bigSep Finset.univ fun k : Fin 7 => iprop(∃ f, rowPts (peer c k) c fullShare f))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS amt) kont) Q) := by
  iintro ⟨#Hrec, Hc, HO, Hlev, Ha⟩
  iapply (wp_bar_wait m ρ c (κ := K (c, 0)) hamt)
  isplitr; · iapply (inv_at m ρ K (c, 0)); iexact Hrec
  isplitl [Hc]; · iexact Hc
  isplitl [HO]; · iexact HO
  isplitl [Hlev]; · iexact Hlev
  iexact Ha

theorem wp_send' (c : Dev nD) (k : Fin 7) (n : Dev nD) (hn : n = peer c k)
    (src : Memref sig .tc .vmem S1x768 .f32) (hs : src = rowM c)
    (dst : Memref sig (Dev.tc n : Thread nD τ).2.kind .vmem S1x768 .f32) (hd : dst = rowM c)
    (sS sR : DmaSem sig) (hsS : sS = sendSem ⟨k.val + 1, by have := k.isLt; omega⟩) (hsR : sR = recvSem c)
    {hsc : dst.view.ref.isScScratch = false} {hsrc : src.view.WordExact} {hdst : dst.view.WordExact}
    {hsem : DmaTarget.Typed .vmem (.dma sR) (.remote (Dev.tc n : Thread nD τ) dst (.dma sS) hsc)}
    (S₁ : Finset (Fin 7)) (hk : k ∈ S₁) {W : Waits sig Unit}
    {α : Type} {Q : α → sProp 𝕄} {kont : PUnit → Prog (TpuEff nD τ sig (Elt F) Λ₀ .tc) α}
    (fn : Buf (Elt F) ((peer c k : Thread nD τ).loc cc0_scratch0)) :
    iprop(records m ρ K ∗ rowPts c c (ssh k.val) (tbl m ρ) ∗ rowPts (peer c k) c fullShare fn
        ∗ owes (c : Thread nD τ) (owedOf c S₁ ∅) W
        ∗ dutyTok ER (sendCell c k) 0 0 ∗ dutyTok ER (recvCell (peer c k) c) 0 0)
      ⊢ iprop(((cred (tallyAt (sendCell c k) () N) ∗ owes (c : Thread nD τ) (owedOf c (S₁.erase k) ∅) W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kont) Q) := by
  iintro ⟨#Hrec, Hs, Hn, HO, HtS, HtR⟩
  iapply (wp_send_row m ρ c k n hn src hs dst hd sS sR hsS hsR S₁ hk (κ₁ := K (c, sIdx k))
    (κ₂ := K (peer c k, rIdx c)) fn)
  isplitr; · iapply (inv_send m ρ K c k); iexact Hrec
  isplitr; · iapply (inv_recv m ρ K (peer c k) c); iexact Hrec
  isplitl [Hs]; · iexact Hs
  isplitl [Hn]; · iexact Hn
  isplitl [HO]; · iexact HO
  isplitl [HtS]; · iexact HtS
  isplitr; · iapply (reached_send m ρ K c k); iexact Hrec
  isplitl [HtR]; · iexact HtR
  iapply (reached_recv m ρ K (peer c k) c); iexact Hrec

theorem wp_recvw' (c : Dev nD) (k : Fin 7) (sR : DmaSem sig) (hsR : sR = recvSem (peer c k))
    (src dst : Memref sig .tc .vmem S1x768 .f32) (hd : dst = rowM (peer c k))
    {hsrc : src.view.WordExact} {hdst : dst.view.WordExact} {W : Waits sig Unit}
    {α : Type} {Q : α → sProp 𝕄} {kont : PUnit → Prog (TpuEff nD τ sig (Elt F) Λ₀ .tc) α} :
    iprop(records m ρ K ∗ cred (tallyAt (recvCell c (peer c k)) () N) ∗ owes (c : Thread nD τ) 0 W
        ∗ atPos ER (recvCell c (peer c k)) 0 ∅ 0)
      ⊢ iprop(((owes (c : Thread nD τ) 0 (insert (SemLoc.dma (recvSem (peer c k)), ()) W)
              ∗ atPos ER (recvCell c (peer c k)) 1 ∅ 0 ∗ rowPts c (peer c k) fullShare (tbl m ρ))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sR src dst hsrc hdst) kont) Q) := by
  iintro ⟨#Hrec, Hc, HO, Ha⟩
  iapply (wp_recv_wait m ρ c k sR hsR src dst hd (κ := K (c, rIdx (peer c k))))
  isplitr; · iapply (inv_recv m ρ K c (peer c k)); iexact Hrec
  isplitl [Hc]; · iexact Hc
  isplitl [HO]; · iexact HO
  iexact Ha

theorem wp_sendw' (c : Dev nD) (k : Fin 7) (sS : DmaSem sig) (hsS : sS = sendSem ⟨k.val + 1, by have := k.isLt; omega⟩)
    (src dst : Memref sig .tc .vmem S1x768 .f32) (hd : dst = rowM c)
    {hsrc : src.view.WordExact} {hdst : dst.view.WordExact} {W : Waits sig Unit}
    {α : Type} {Q : α → sProp 𝕄} {kont : PUnit → Prog (TpuEff nD τ sig (Elt F) Λ₀ .tc) α} :
    iprop(records m ρ K ∗ cred (tallyAt (sendCell c k) () N) ∗ owes (c : Thread nD τ) 0 W
        ∗ atPos ER (sendCell c k) 0 ∅ 0)
      ⊢ iprop(((owes (c : Thread nD τ) 0 (insert (SemLoc.dma (sendSem ⟨k.val + 1, by have := k.isLt; omega⟩), ()) W)
              ∗ atPos ER (sendCell c k) 1 ∅ 0 ∗ rowPts c c (ssh k.val) (tbl m ρ))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sS src dst hsrc hdst) kont) Q) := by
  iintro ⟨#Hrec, Hc, HO, Ha⟩
  iapply (wp_send_wait m ρ c k sS hsS src dst hd (κ := K (c, sIdx k)))
  isplitr; · iapply (inv_send m ρ K c k); iexact Hrec
  isplitl [Hc]; · iexact Hc
  isplitl [HO]; · iexact HO
  iexact Ha

theorem close_send (c : Dev nD) (k : Fin 7) :
    iprop(records m ρ K ∗ atPos ER (sendCell c k) 1 ∅ 0) ⊢ iprop(|={Set.univ}=> semVal (sendCell c k) 0) := by
  iintro ⟨#Hrec, Ha⟩
  iapply (close_cell m ρ (sendCell c k) 1 (duties_later m ρ _) (κ := K (c, sIdx k)))
  isplitr; · iapply (inv_send m ρ K c k); iexact Hrec
  iexact Ha
theorem close_recv (c : Dev nD) (j : Fin 8) (R : ℕ) (hR : ∀ r, R ≤ r → (rd (F := F) m ρ).duties (recvCell c j) r = ∅) :
    iprop(records m ρ K ∗ atPos ER (recvCell c j) R ∅ 0) ⊢ iprop(|={Set.univ}=> semVal (recvCell c j) 0) := by
  iintro ⟨#Hrec, Ha⟩
  iapply (close_cell m ρ (recvCell c j) R hR (κ := K (c, rIdx j)))
  isplitr; · iapply (inv_recv m ρ K c j); iexact Hrec
  iexact Ha
theorem close_send0 (c : Dev nD) :
    iprop(records m ρ K ∗ atPos ER (send0Cell c) 0 ∅ 0) ⊢ iprop(|={Set.univ}=> semVal (send0Cell c) 0) := by
  iintro ⟨#Hrec, Ha⟩
  iapply (close_cell m ρ (send0Cell c) 0 (fun r _ => duties_send0 m ρ c r) (κ := K (c, 1)))
  isplitr; · iapply (inv_send0 m ρ K c); iexact Hrec
  iexact Ha

/-! ## The accesses of the own row, at the printed rectangle -/

omit [FloatOps F] in
theorem load_own_sub (c : Dev nD) (off : Fin 2 → Nat) (hoff : off = rowOff c) (p : ∀ a, off a + S1x768.size a ≤ S8x768.size a) :
    gM.view.setOn (Rect.unit (s := S8x768) off S1x768.size p).toLoadRect.set ⊆ (rowM c).view.set := by
  subst hoff; exact load_row_sub c
omit [FloatOps F] in
theorem store_own_sub (c : Dev nD) (off : Fin 2 → Nat) (hoff : off = rowOff c) (p : ∀ a, off a + S1x768.size a ≤ S8x768.size a) :
    (gM.access (Rect.unit (s := S8x768) off S1x768.size p)).setOn Finset.univ ⊆ (rowM c).view.set := by
  subst hoff; exact store_row_sub c
theorem store_own_eq (c : Dev nD) (off : Fin 2 → Nat) (hoff : off = rowOff c) (p : ∀ a, off a + S1x768.size a ≤ S8x768.size a)
    (f : Buf (Elt F) ((c : Thread nD τ).loc cc0_scratch0)) :
    ∀ i ∈ (rowM c).view.set, (gM.access (Rect.unit (s := S8x768) off S1x768.size p)).write (Elt F) f (Tbl.rowOf (xstg m ρ c)) Finset.univ i = tbl m ρ i := by
  subst hoff; exact store_row_eq m ρ c f

/-- A row at the n-th rest share is its n-th send share and the next rest share. -/
theorem row_share (c : Dev nD) (r : Fin 8) (n n' : ℕ) (h : n' = n + 1) (f : Buf (Elt F) ((c : Thread nD τ).loc cc0_scratch0)) :
    (rowPts (F := F) c r (rsh n) f) ⊣⊢ iprop(rowPts c r (ssh n) f ∗ rowPts c r (rsh n') f) := by
  subst h; exact rowPts_share c r n f
theorem row_full (c : Dev nD) (r : Fin 8) (f : Buf (Elt F) ((c : Thread nD τ).loc cc0_scratch0)) :
    (rowPts (F := F) c r fullShare f) = rowPts c r (rsh 0) f := rfl

/-- Owing nothing, whatever waits were recorded: what the point hands on. -/
theorem owes_done (c : Dev nD) (W' : Waits sig Unit) :
    (owes (c : Thread nD τ) 0 W' : sProp 𝕄) ⊢ (dats m ρ 0 c).owesAt () t₀.succ := by
  unfold Dat.owesAt Pipeline.owesWithin
  rw [show (dats m ρ 0 c).owed t₀.succ = 0 from rfl]
  iintro H
  iexists W'
  isplitr; · ipureintro; exact fun _ _ => Or.inl trivial
  iexact H

/-! ## The body -/

def bodyPre (c : Dev nD) : sProp 𝕄 :=
  iprop((ghost m ρ K c ∗ cred (tallyAt (barCell c) () 7)
      ∗ (bigSep Finset.univ fun k : Fin 7 => cred (tallyAt (recvCell c (peer c k)) () N)) ∗ levAts L lv ∗ ∃ f, gPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ))

set_option maxHeartbeats 6400000 in
set_option maxRecDepth 65536 in
/-- The body from bodyPre, one rule per effect in program order, to bodyPost: the seven signals, the own row computed
    and stored, the barrier wait, the seven sends, the seven landings, the seven sends read, the cells closed, the
    table reduced. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  unfold bodyPre ghost linear
  iintro ⟨⟨⟨⟨#Hrec, Hat, Htok⟩, HcB, HcR, #Hlev, ⟨%f0, Hg⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  -- the positions, the tokens and the credit, offset by offset
  ihave Hat' := (Entails.of_eq (bigSep_cells c (fun g => (atPos ER g 0 ∅ 0 : sProp 𝕄)))) $$ Hat
  icases Hat' with ⟨HaB, Ha0, HaC, Hats⟩
  ihave Hats' := (Entails.of_eq (bigSep_fin7 (fun k : Fin 7 => iprop((atPos ER (sendCell c k) 0 ∅ 0 : sProp 𝕄) ∗ atPos ER (recvCell c (peer c k)) 0 ∅ 0)))) $$ Hats
  icases Hats' with ⟨⟨HaS0, HaR0⟩, ⟨HaS1, HaR1⟩, ⟨HaS2, HaR2⟩, ⟨HaS3, HaR3⟩, ⟨HaS4, HaR4⟩, ⟨HaS5, HaR5⟩, ⟨HaS6, HaR6⟩⟩
  ihave Htok' := (Entails.of_eq (bigSep_fin7 (fun k : Fin 7 => (payTok c k : sProp 𝕄)))) $$ Htok
  unfold payTok
  icases Htok' with ⟨⟨HtB0, HtR0, HtS0⟩, ⟨HtB1, HtR1, HtS1⟩, ⟨HtB2, HtR2, HtS2⟩, ⟨HtB3, HtR3, HtS3⟩, ⟨HtB4, HtR4, HtS4⟩, ⟨HtB5, HtR5, HtS5⟩, ⟨HtB6, HtR6, HtS6⟩⟩
  ihave HcR' := (Entails.of_eq (bigSep_fin7 (fun k : Fin 7 => (cred (tallyAt (recvCell c (peer c k)) () N) : sProp 𝕄)))) $$ HcR
  icases HcR' with ⟨HcR0, HcR1, HcR2, HcR3, HcR4, HcR5, HcR6⟩
  -- the table, row by row: the own row and the seven rows the peers will write
  ihave Hrows := (Entails.of_eq (gPts_rows (F := F) c f0)) $$ Hg
  ihave Hrows' := (Entails.of_eq (bigSep_rows c (fun r : Fin 8 => (rowPts c r fullShare f0 : sProp 𝕄)))) $$ Hrows
  icases Hrows' with ⟨Hrc, Hrp⟩
  ihave Hrp' := (Entails.of_eq (bigSep_fin7 (fun k : Fin 7 => (rowPts c (peer c k) fullShare f0 : sProp 𝕄)))) $$ Hrp
  icases Hrp' with ⟨Hr0, Hr1, Hr2, Hr3, Hr4, Hr5, Hr6⟩
  -- the signal to the device 1 place after: row (that device) of this device's table goes with it
  iapply (wp_sig' m ρ K c 0 _ (dev1_eq c) Finset.univ (Finset.univ : Finset (Fin 7)) (by decide) (by decide) f0) $$ [HO HtB0 Hr0]
  · isplitr; · iexact Hrec
    isplitl [HO]; · iexact HO
    isplitl [HtB0]; · iexact HtB0
    iexact Hr0
  iintro HO
  -- the signal to the device 2 places after: row (that device) of this device's table goes with it
  iapply (wp_sig' m ρ K c 1 _ (dev2_eq c) Finset.univ ((Finset.univ : Finset (Fin 7)).erase 0) (by decide) (by decide) f0) $$ [HO HtB1 Hr1]
  · isplitr; · iexact Hrec
    isplitl [HO]; · iexact HO
    isplitl [HtB1]; · iexact HtB1
    iexact Hr1
  iintro HO
  -- the signal to the device 3 places after: row (that device) of this device's table goes with it
  iapply (wp_sig' m ρ K c 2 _ (dev3_eq c) Finset.univ (((Finset.univ : Finset (Fin 7)).erase 0).erase 1) (by decide) (by decide) f0) $$ [HO HtB2 Hr2]
  · isplitr; · iexact Hrec
    isplitl [HO]; · iexact HO
    isplitl [HtB2]; · iexact HtB2
    iexact Hr2
  iintro HO
  -- the signal to the device 4 places after: row (that device) of this device's table goes with it
  iapply (wp_sig' m ρ K c 3 _ (dev4_eq c) Finset.univ ((((Finset.univ : Finset (Fin 7)).erase 0).erase 1).erase 2) (by decide) (by decide) f0) $$ [HO HtB3 Hr3]
  · isplitr; · iexact Hrec
    isplitl [HO]; · iexact HO
    isplitl [HtB3]; · iexact HtB3
    iexact Hr3
  iintro HO
  -- the signal to the device 5 places after: row (that device) of this device's table goes with it
  iapply (wp_sig' m ρ K c 4 _ (dev5_eq c) Finset.univ (((((Finset.univ : Finset (Fin 7)).erase 0).erase 1).erase 2).erase 3) (by decide) (by decide) f0) $$ [HO HtB4 Hr4]
  · isplitr; · iexact Hrec
    isplitl [HO]; · iexact HO
    isplitl [HtB4]; · iexact HtB4
    iexact Hr4
  iintro HO
  -- the signal to the device 6 places after: row (that device) of this device's table goes with it
  iapply (wp_sig' m ρ K c 5 _ (dev6_eq c) Finset.univ ((((((Finset.univ : Finset (Fin 7)).erase 0).erase 1).erase 2).erase 3).erase 4) (by decide) (by decide) f0) $$ [HO HtB5 Hr5]
  · isplitr; · iexact Hrec
    isplitl [HO]; · iexact HO
    isplitl [HtB5]; · iexact HtB5
    iexact Hr5
  iintro HO
  -- the signal to the device 7 places after: row (that device) of this device's table goes with it
  iapply (wp_sig' m ρ K c 6 _ (dev7_eq c) Finset.univ (((((((Finset.univ : Finset (Fin 7)).erase 0).erase 1).erase 2).erase 3).erase 4).erase 5) (by decide) (by decide) f0) $$ [HO HtB6 Hr6]
  · isplitr; · iexact Hrec
    isplitl [HO]; · iexact HO
    isplitl [HtB6]; · iexact HtB6
    iexact Hr6
  iintro HO
  rw [show ((((((((Finset.univ : Finset (Fin 7)).erase 0).erase 1).erase 2).erase 3).erase 4).erase 5).erase 6) = (∅ : Finset (Fin 7)) from by decide]
  -- the block, and the own row of column maxima stored
  iapply (wp_load 𝒱₀ (c : Thread nD τ) none Set.univ (m := xM) (Finset.subset_univ _)) $$ Hx; iintro Hx
  rw [read_x]
  ihave Hrw := (Entails.of_eq (show (rowPts c c fullShare f0 : sProp 𝕄) = (gM.view.loc (c : Thread nD τ) ↦[(rowM c).view.set]{fullShare} f0) from rfl)) $$ Hrc
  iapply (wp_load 𝒱₀ (c : Thread nD τ) none Set.univ (m := gM) (load_own_sub c _ (k0_off1_eq c) _)) $$ Hrw; iintro Hrw
  iapply (wp_store 𝒱₀ (c : Thread nD τ) none Set.univ (m := gM) (r := Rect.unit (s := S8x768) (k0_off1 c) S1x768.size (k0_off1_inb c)) (Mk := Finset.univ) (S := (rowM c).view.set) (f := f0) (store_own_sub c _ (k0_off1_eq c) _)) $$ Hrw; iintro Hrw
  ihave Hrf := (Entails.of_eq (rowPts_congr (F := F) c c fullShare ((gM.access (Rect.unit (s := S8x768) (k0_off1 c) S1x768.size (k0_off1_inb c))).write (Elt F) f0 (Tbl.rowOf (xstg m ρ c)) Finset.univ) (tbl m ρ) (store_own_eq m ρ c _ (k0_off1_eq c) _ f0))) $$ [Hrw]
  · unfold rowPts; iexact Hrw
  -- the wait for the seven peers: their rows c come with it
  iapply (wp_bar' m ρ K c (by decide)) $$ [HcB HO HaB]
  · isplitr; · iexact Hrec
    isplitl [HcB]; · iexact HcB
    isplitl [HO]; · iexact HO
    isplitr; · iexact Hlev
    iexact HaB
  iintro ⟨HO, HaB, Hpay⟩
  ihave Hpay' := (Entails.of_eq (bigSep_fin7 (fun k : Fin 7 => iprop(∃ f, (rowPts (peer c k) c fullShare f : sProp 𝕄))))) $$ Hpay
  icases Hpay' with ⟨⟨%fn0, Hn0⟩, ⟨%fn1, Hn1⟩, ⟨%fn2, Hn2⟩, ⟨%fn3, Hn3⟩, ⟨%fn4, Hn4⟩, ⟨%fn5, Hn5⟩, ⟨%fn6, Hn6⟩⟩
  -- the own row in seven shares and a rest
  ihave Hrem := (Entails.of_eq (row_full (F := F) c c (tbl m ρ))) $$ Hrf
  ihave Hsp0 := (row_share (F := F) c c 0 1 rfl (tbl m ρ)).1 $$ Hrem
  icases Hsp0 with ⟨Hs0, Hrm1⟩
  ihave Hsp1 := (row_share (F := F) c c 1 2 rfl (tbl m ρ)).1 $$ Hrm1
  icases Hsp1 with ⟨Hs1, Hrm2⟩
  ihave Hsp2 := (row_share (F := F) c c 2 3 rfl (tbl m ρ)).1 $$ Hrm2
  icases Hsp2 with ⟨Hs2, Hrm3⟩
  ihave Hsp3 := (row_share (F := F) c c 3 4 rfl (tbl m ρ)).1 $$ Hrm3
  icases Hsp3 with ⟨Hs3, Hrm4⟩
  ihave Hsp4 := (row_share (F := F) c c 4 5 rfl (tbl m ρ)).1 $$ Hrm4
  icases Hsp4 with ⟨Hs4, Hrm5⟩
  ihave Hsp5 := (row_share (F := F) c c 5 6 rfl (tbl m ρ)).1 $$ Hrm5
  icases Hsp5 with ⟨Hs5, Hrm6⟩
  ihave Hsp6 := (row_share (F := F) c c 6 7 rfl (tbl m ρ)).1 $$ Hrm6
  icases Hsp6 with ⟨Hs6, Hrm7⟩
  -- the transfer to the device 1 place after, reading share 0 of the own row
  iapply (wp_send' m ρ K c 0 _ (dev8_eq c) _ (slice_off3 c) _ (slice_off3 c) _ _ (sendSem_eq 1 _) (recvSem_off2 c) (Finset.univ : Finset (Fin 7)) (by decide) fn0) $$ [Hs0 Hn0 HO HtS0 HtR0]
  · isplitr; · iexact Hrec
    isplitl [Hs0]; · iexact Hs0
    isplitl [Hn0]; · iexact Hn0
    isplitl [HO]; · iexact HO
    isplitl [HtS0]; · iexact HtS0
    iexact HtR0
  iintro ⟨HcS0, HO⟩
  -- the transfer to the device 2 places after, reading share 1 of the own row
  iapply (wp_send' m ρ K c 1 _ (dev9_eq c) _ (slice_off3 c) _ (slice_off3 c) _ _ (sendSem_eq 2 _) (recvSem_off2 c) ((Finset.univ : Finset (Fin 7)).erase 0) (by decide) fn1) $$ [Hs1 Hn1 HO HtS1 HtR1]
  · isplitr; · iexact Hrec
    isplitl [Hs1]; · iexact Hs1
    isplitl [Hn1]; · iexact Hn1
    isplitl [HO]; · iexact HO
    isplitl [HtS1]; · iexact HtS1
    iexact HtR1
  iintro ⟨HcS1, HO⟩
  -- the transfer to the device 3 places after, reading share 2 of the own row
  iapply (wp_send' m ρ K c 2 _ (dev10_eq c) _ (slice_off3 c) _ (slice_off3 c) _ _ (sendSem_eq 3 _) (recvSem_off2 c) (((Finset.univ : Finset (Fin 7)).erase 0).erase 1) (by decide) fn2) $$ [Hs2 Hn2 HO HtS2 HtR2]
  · isplitr; · iexact Hrec
    isplitl [Hs2]; · iexact Hs2
    isplitl [Hn2]; · iexact Hn2
    isplitl [HO]; · iexact HO
    isplitl [HtS2]; · iexact HtS2
    iexact HtR2
  iintro ⟨HcS2, HO⟩
  -- the transfer to the device 4 places after, reading share 3 of the own row
  iapply (wp_send' m ρ K c 3 _ (dev11_eq c) _ (slice_off3 c) _ (slice_off3 c) _ _ (sendSem_eq 4 _) (recvSem_off2 c) ((((Finset.univ : Finset (Fin 7)).erase 0).erase 1).erase 2) (by decide) fn3) $$ [Hs3 Hn3 HO HtS3 HtR3]
  · isplitr; · iexact Hrec
    isplitl [Hs3]; · iexact Hs3
    isplitl [Hn3]; · iexact Hn3
    isplitl [HO]; · iexact HO
    isplitl [HtS3]; · iexact HtS3
    iexact HtR3
  iintro ⟨HcS3, HO⟩
  -- the transfer to the device 5 places after, reading share 4 of the own row
  iapply (wp_send' m ρ K c 4 _ (dev12_eq c) _ (slice_off3 c) _ (slice_off3 c) _ _ (sendSem_eq 5 _) (recvSem_off2 c) (((((Finset.univ : Finset (Fin 7)).erase 0).erase 1).erase 2).erase 3) (by decide) fn4) $$ [Hs4 Hn4 HO HtS4 HtR4]
  · isplitr; · iexact Hrec
    isplitl [Hs4]; · iexact Hs4
    isplitl [Hn4]; · iexact Hn4
    isplitl [HO]; · iexact HO
    isplitl [HtS4]; · iexact HtS4
    iexact HtR4
  iintro ⟨HcS4, HO⟩
  -- the transfer to the device 6 places after, reading share 5 of the own row
  iapply (wp_send' m ρ K c 5 _ (dev13_eq c) _ (slice_off3 c) _ (slice_off3 c) _ _ (sendSem_eq 6 _) (recvSem_off2 c) ((((((Finset.univ : Finset (Fin 7)).erase 0).erase 1).erase 2).erase 3).erase 4) (by decide) fn5) $$ [Hs5 Hn5 HO HtS5 HtR5]
  · isplitr; · iexact Hrec
    isplitl [Hs5]; · iexact Hs5
    isplitl [Hn5]; · iexact Hn5
    isplitl [HO]; · iexact HO
    isplitl [HtS5]; · iexact HtS5
    iexact HtR5
  iintro ⟨HcS5, HO⟩
  -- the transfer to the device 7 places after, reading share 6 of the own row
  iapply (wp_send' m ρ K c 6 _ (dev14_eq c) _ (slice_off3 c) _ (slice_off3 c) _ _ (sendSem_eq 7 _) (recvSem_off2 c) (((((((Finset.univ : Finset (Fin 7)).erase 0).erase 1).erase 2).erase 3).erase 4).erase 5) (by decide) fn6) $$ [Hs6 Hn6 HO HtS6 HtR6]
  · isplitr; · iexact Hrec
    isplitl [Hs6]; · iexact Hs6
    isplitl [Hn6]; · iexact Hn6
    isplitl [HO]; · iexact HO
    isplitl [HtS6]; · iexact HtS6
    iexact HtR6
  iintro ⟨HcS6, HO⟩
  rw [show ((((((((Finset.univ : Finset (Fin 7)).erase 0).erase 1).erase 2).erase 3).erase 4).erase 5).erase 6) = (∅ : Finset (Fin 7)) from by decide, owedOf_empty]
  -- the landing of the row of the device 1 place after
  iapply (wp_recvw' m ρ K c 0 _ (recvSem_off4 c 0) _ _ (slice_off5 c 0)) $$ [HcR0 HO HaR0]
  · isplitr; · iexact Hrec
    isplitl [HcR0]; · iexact HcR0
    isplitl [HO]; · iexact HO
    iexact HaR0
  iintro ⟨HO, HaR0, Hl0⟩
  -- the landing of the row of the device 2 places after
  iapply (wp_recvw' m ρ K c 1 _ (recvSem_off4 c 1) _ _ (slice_off5 c 1)) $$ [HcR1 HO HaR1]
  · isplitr; · iexact Hrec
    isplitl [HcR1]; · iexact HcR1
    isplitl [HO]; · iexact HO
    iexact HaR1
  iintro ⟨HO, HaR1, Hl1⟩
  -- the landing of the row of the device 3 places after
  iapply (wp_recvw' m ρ K c 2 _ (recvSem_off4 c 2) _ _ (slice_off5 c 2)) $$ [HcR2 HO HaR2]
  · isplitr; · iexact Hrec
    isplitl [HcR2]; · iexact HcR2
    isplitl [HO]; · iexact HO
    iexact HaR2
  iintro ⟨HO, HaR2, Hl2⟩
  -- the landing of the row of the device 4 places after
  iapply (wp_recvw' m ρ K c 3 _ (recvSem_off4 c 3) _ _ (slice_off5 c 3)) $$ [HcR3 HO HaR3]
  · isplitr; · iexact Hrec
    isplitl [HcR3]; · iexact HcR3
    isplitl [HO]; · iexact HO
    iexact HaR3
  iintro ⟨HO, HaR3, Hl3⟩
  -- the landing of the row of the device 5 places after
  iapply (wp_recvw' m ρ K c 4 _ (recvSem_off4 c 4) _ _ (slice_off5 c 4)) $$ [HcR4 HO HaR4]
  · isplitr; · iexact Hrec
    isplitl [HcR4]; · iexact HcR4
    isplitl [HO]; · iexact HO
    iexact HaR4
  iintro ⟨HO, HaR4, Hl4⟩
  -- the landing of the row of the device 6 places after
  iapply (wp_recvw' m ρ K c 5 _ (recvSem_off4 c 5) _ _ (slice_off5 c 5)) $$ [HcR5 HO HaR5]
  · isplitr; · iexact Hrec
    isplitl [HcR5]; · iexact HcR5
    isplitl [HO]; · iexact HO
    iexact HaR5
  iintro ⟨HO, HaR5, Hl5⟩
  -- the landing of the row of the device 7 places after
  iapply (wp_recvw' m ρ K c 6 _ (recvSem_off4 c 6) _ _ (slice_off5 c 6)) $$ [HcR6 HO HaR6]
  · isplitr; · iexact Hrec
    isplitl [HcR6]; · iexact HcR6
    isplitl [HO]; · iexact HO
    iexact HaR6
  iintro ⟨HO, HaR6, Hl6⟩
  -- the send of offset 1 has read its source: its share of the own row comes back
  iapply (wp_sendw' m ρ K c 0 _ (sendSem_eq 1 _) _ _ (slice_off3 c)) $$ [HcS0 HO HaS0]
  · isplitr; · iexact Hrec
    isplitl [HcS0]; · iexact HcS0
    isplitl [HO]; · iexact HO
    iexact HaS0
  iintro ⟨HO, HaS0, Hs0⟩
  -- the send of offset 2 has read its source: its share of the own row comes back
  iapply (wp_sendw' m ρ K c 1 _ (sendSem_eq 2 _) _ _ (slice_off3 c)) $$ [HcS1 HO HaS1]
  · isplitr; · iexact Hrec
    isplitl [HcS1]; · iexact HcS1
    isplitl [HO]; · iexact HO
    iexact HaS1
  iintro ⟨HO, HaS1, Hs1⟩
  -- the send of offset 3 has read its source: its share of the own row comes back
  iapply (wp_sendw' m ρ K c 2 _ (sendSem_eq 3 _) _ _ (slice_off3 c)) $$ [HcS2 HO HaS2]
  · isplitr; · iexact Hrec
    isplitl [HcS2]; · iexact HcS2
    isplitl [HO]; · iexact HO
    iexact HaS2
  iintro ⟨HO, HaS2, Hs2⟩
  -- the send of offset 4 has read its source: its share of the own row comes back
  iapply (wp_sendw' m ρ K c 3 _ (sendSem_eq 4 _) _ _ (slice_off3 c)) $$ [HcS3 HO HaS3]
  · isplitr; · iexact Hrec
    isplitl [HcS3]; · iexact HcS3
    isplitl [HO]; · iexact HO
    iexact HaS3
  iintro ⟨HO, HaS3, Hs3⟩
  -- the send of offset 5 has read its source: its share of the own row comes back
  iapply (wp_sendw' m ρ K c 4 _ (sendSem_eq 5 _) _ _ (slice_off3 c)) $$ [HcS4 HO HaS4]
  · isplitr; · iexact Hrec
    isplitl [HcS4]; · iexact HcS4
    isplitl [HO]; · iexact HO
    iexact HaS4
  iintro ⟨HO, HaS4, Hs4⟩
  -- the send of offset 6 has read its source: its share of the own row comes back
  iapply (wp_sendw' m ρ K c 5 _ (sendSem_eq 6 _) _ _ (slice_off3 c)) $$ [HcS5 HO HaS5]
  · isplitr; · iexact Hrec
    isplitl [HcS5]; · iexact HcS5
    isplitl [HO]; · iexact HO
    iexact HaS5
  iintro ⟨HO, HaS5, Hs5⟩
  -- the send of offset 7 has read its source: its share of the own row comes back
  iapply (wp_sendw' m ρ K c 6 _ (sendSem_eq 7 _) _ _ (slice_off3 c)) $$ [HcS6 HO HaS6]
  · isplitr; · iexact Hrec
    isplitl [HcS6]; · iexact HcS6
    isplitl [HO]; · iexact HO
    iexact HaS6
  iintro ⟨HO, HaS6, Hs6⟩
  -- the own row whole again, the table whole again
  ihave Hj6 := (row_share (F := F) c c 6 7 rfl (tbl m ρ)).2 $$ [Hs6 Hrm7]
  · isplitl [Hs6]; · iexact Hs6
    iexact Hrm7
  ihave Hj5 := (row_share (F := F) c c 5 6 rfl (tbl m ρ)).2 $$ [Hs5 Hj6]
  · isplitl [Hs5]; · iexact Hs5
    iexact Hj6
  ihave Hj4 := (row_share (F := F) c c 4 5 rfl (tbl m ρ)).2 $$ [Hs4 Hj5]
  · isplitl [Hs4]; · iexact Hs4
    iexact Hj5
  ihave Hj3 := (row_share (F := F) c c 3 4 rfl (tbl m ρ)).2 $$ [Hs3 Hj4]
  · isplitl [Hs3]; · iexact Hs3
    iexact Hj4
  ihave Hj2 := (row_share (F := F) c c 2 3 rfl (tbl m ρ)).2 $$ [Hs2 Hj3]
  · isplitl [Hs2]; · iexact Hs2
    iexact Hj3
  ihave Hj1 := (row_share (F := F) c c 1 2 rfl (tbl m ρ)).2 $$ [Hs1 Hj2]
  · isplitl [Hs1]; · iexact Hs1
    iexact Hj2
  ihave Hj0 := (row_share (F := F) c c 0 1 rfl (tbl m ρ)).2 $$ [Hs0 Hj1]
  · isplitl [Hs0]; · iexact Hs0
    iexact Hj1
  ihave Hjf := (Entails.of_eq (row_full (F := F) c c (tbl m ρ)).symm) $$ Hj0
  ihave Hrp := (Entails.of_eq (bigSep_fin7 (fun k : Fin 7 => (rowPts c (peer c k) fullShare (tbl m ρ) : sProp 𝕄))).symm) $$ [Hl0 Hl1 Hl2 Hl3 Hl4 Hl5 Hl6]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    iexact Hl6
  ihave Hrows := (Entails.of_eq (bigSep_rows c (fun r : Fin 8 => (rowPts c r fullShare (tbl m ρ) : sProp 𝕄))).symm) $$ [Hjf Hrp]
  · isplitl [Hjf]; · iexact Hjf
    iexact Hrp
  ihave Hg := (Entails.of_eq (gPts_rows (F := F) c (tbl m ρ)).symm) $$ Hrows
  -- the sixteen own cells close: their counters at zero are the core's again
  imod (close_send m ρ K c 0) $$ [HaS0] with HzS0
  · isplitr; · iexact Hrec
    iexact HaS0
  imod (close_recv m ρ K c (peer c 0) 1 (duties_later m ρ _)) $$ [HaR0] with HzR0
  · isplitr; · iexact Hrec
    iexact HaR0
  imod (close_send m ρ K c 1) $$ [HaS1] with HzS1
  · isplitr; · iexact Hrec
    iexact HaS1
  imod (close_recv m ρ K c (peer c 1) 1 (duties_later m ρ _)) $$ [HaR1] with HzR1
  · isplitr; · iexact Hrec
    iexact HaR1
  imod (close_send m ρ K c 2) $$ [HaS2] with HzS2
  · isplitr; · iexact Hrec
    iexact HaS2
  imod (close_recv m ρ K c (peer c 2) 1 (duties_later m ρ _)) $$ [HaR2] with HzR2
  · isplitr; · iexact Hrec
    iexact HaR2
  imod (close_send m ρ K c 3) $$ [HaS3] with HzS3
  · isplitr; · iexact Hrec
    iexact HaS3
  imod (close_recv m ρ K c (peer c 3) 1 (duties_later m ρ _)) $$ [HaR3] with HzR3
  · isplitr; · iexact Hrec
    iexact HaR3
  imod (close_send m ρ K c 4) $$ [HaS4] with HzS4
  · isplitr; · iexact Hrec
    iexact HaS4
  imod (close_recv m ρ K c (peer c 4) 1 (duties_later m ρ _)) $$ [HaR4] with HzR4
  · isplitr; · iexact Hrec
    iexact HaR4
  imod (close_send m ρ K c 5) $$ [HaS5] with HzS5
  · isplitr; · iexact Hrec
    iexact HaS5
  imod (close_recv m ρ K c (peer c 5) 1 (duties_later m ρ _)) $$ [HaR5] with HzR5
  · isplitr; · iexact Hrec
    iexact HaR5
  imod (close_send m ρ K c 6) $$ [HaS6] with HzS6
  · isplitr; · iexact Hrec
    iexact HaS6
  imod (close_recv m ρ K c (peer c 6) 1 (duties_later m ρ _)) $$ [HaR6] with HzR6
  · isplitr; · iexact Hrec
    iexact HaR6
  imod (close_send0 m ρ K c) $$ [Ha0] with Hz0
  · isplitr; · iexact Hrec
    iexact Ha0
  imod (close_recv m ρ K c c 0 (fun r _ => duties_recv_self m ρ c r)) $$ [HaC] with HzC
  · isplitr; · iexact Hrec
    iexact HaC
  -- the table reduced, the result stored
  unfold gPts
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Hout; iintro Hout
  iapply (wp_store 𝒱₀ (c : Thread nD τ) none Set.univ (m := oM) (r := Rect.unit (s := S1x768) ![0, 0] S1x768.size inb_S1x768_S1x768_0_0) (Mk := Finset.univ) (Finset.subset_univ _)) $$ Hout; iintro Hout
  rw [write_out, wp_ret]; imodintro
  iapply Hk
  unfold bodyPost Φ₁ gPts Pipeline.ownSems0
  isplitl [Hg Hz0 HzC HzS0 HzR0 HzS1 HzR1 HzS2 HzR2 HzS3 HzR3 HzS4 HzR4 HzS5 HzR5 HzS6 HzR6]
  · isplitl [Hg]; · iexact Hg
    iapply (Entails.of_eq (bigSep_own c (fun g => (semVal g 0 : sProp 𝕄))).symm)
    isplitl [Hz0]; · iexact Hz0
    isplitl [HzC]; · iexact HzC
    iapply (Entails.of_eq (bigSep_fin7 (fun k : Fin 7 => iprop((semVal (sendCell c k) 0 : sProp 𝕄) ∗ semVal (recvCell c (peer c k)) 0))).symm)
    isplitl [HzS0 HzR0]; · (isplitl [HzS0] <;> iassumption)
    isplitl [HzS1 HzR1]; · (isplitl [HzS1] <;> iassumption)
    isplitl [HzS2 HzR2]; · (isplitl [HzS2] <;> iassumption)
    isplitl [HzS3 HzR3]; · (isplitl [HzS3] <;> iassumption)
    isplitl [HzS4 HzR4]; · (isplitl [HzS4] <;> iassumption)
    isplitl [HzS5 HzR5]; · (isplitl [HzS5] <;> iassumption)
    isplitl [HzS6] <;> iassumption
  isplitl [HO]
  · iapply (owes_done m ρ c _); iexact HO
  isplitl [Hx]
  · iexists _; isplitr; · (ipureintro; rfl)
    iexact Hx
  iexists _; isplitr; · (ipureintro; rfl)
  iexact Hout

set_option maxRecDepth 65536 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on core c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.KernelIdeal.AG

end
-- ==== Proof.Launch.lean ====
/-
  The launch: the protocol's ghost state funded and dealt to the eight devices, the launch credit, and the run of the whole program with every array named after it.
-/
import proofs.«900913_g7700000000000914_dist_max_ax0_shard0_i_m1536_n768_v7x_i8_bf16_1_alg».proof.Proof.Body

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-! ### The protocol's cells and the duty tokens minted -/

/-- A semaphore's number: the barrier 0, DMA semaphore q the number q + 1. -/
def semCode : SemLoc sig → ℕ
  | .reg _ => 0
  | .dma q => q.val + 1

theorem csem_injective : Function.Injective (csem : Fin 17 → SemLoc sig) := by
  have key : ∀ i j : Fin 17, semCode (csem i) = semCode (csem j) → i = j := by decide
  exact fun i j h => key i j (congrArg semCode h)

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def protoCells : Finset (GSem nD τ sig) := Finset.univ.map ⟨kcell, kcell_injective⟩

/-- The duty tokens of a device's own cells as minted: (device, offset k, which cell) — its barrier cell's duty named by
    the device k + 1 places before it, the duty of its send cell of offset k + 1, the duty of its receive cell of that
    device's row. -/
abbrev tokOf (x : Dev nD × Fin 7 × Fin 3) : GSem nD τ sig × ℕ × Fin 8 := match x.2.2 with
  | 0 => (barCell x.1, 0, rpeer x.1 x.2.1)
  | 1 => (sendCell x.1 x.2.1, 0, 0)
  | 2 => (recvCell x.1 (rpeer x.1 x.2.1), 0, 0)

/-- A token's device, semaphore number and duty as numbers. -/
def tokCode (x : GSem nD τ sig × ℕ × Fin 8) : ℕ × ℕ × ℕ := (x.1.1.1.val, semCode x.1.2, x.2.2.val)

theorem tokOf_injective : Function.Injective (tokOf : Dev nD × Fin 7 × Fin 3 → GSem nD τ sig × ℕ × Fin 8) := by
  have key : ∀ (c : Dev nD) (a b : Fin 7 × Fin 3), tokCode (tokOf (c, a)) = tokCode (tokOf (c, b)) → a = b := by decide
  rintro ⟨c, a⟩ ⟨c', b⟩ h
  have h1 : c = c' := by
    have := congrArg (fun x : GSem nD τ sig × ℕ × Fin 8 => x.1.1.1) h
    obtain ⟨k, j⟩ := a; obtain ⟨k', j'⟩ := b
    fin_cases j <;> fin_cases j' <;> exact this
  subst h1
  rw [key c a b (congrArg tokCode h)]
def protoToks : Finset (GSem nD τ sig × ℕ × Fin 8) := Finset.univ.map ⟨tokOf, tokOf_injective⟩

def u₀ : UU :=
  (initOf (Pipeline.cells cfgs cellOf_inj) (Pipeline.launchToks cfgs cellOf_inj), initOf protoCells protoToks)

/-- The duty tokens of device c's own cells. -/
def toks (c : Dev nD) : sProp 𝕄 :=
  bigSep Finset.univ fun k : Fin 7 =>
    iprop(dutyTok ER (barCell c) 0 (rpeer c k) ∗ dutyTok ER (sendCell c k) 0 0 ∗ dutyTok ER (recvCell c (rpeer c k)) 0 0)

/-- What the launch element deals device c. -/
def G (c : Dev nD) : sProp 𝕄 :=
  iprop((bigSep Finset.univ fun i : Fin 17 => roundState ER (rd m ρ) (kcell (c, i)) 0)
    ∗ (bigSep Finset.univ fun i : Fin 17 => iprop(atPos ER (kcell (c, i)) 0 ∅ 0 ∗ reached ER (kcell (c, i)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

/-- A conjunction over Fin (n + 1): the summand at 0, then the rest. -/
theorem bigSep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]; rfl

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun i : Fin 17 => Φ (kcell (c, i)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    refine bigSep_congr fun c _ => ?_
    unfold toks; rw [bigSep_univ_prod]
    exact bigSep_congr fun k _ => by rw [bigSep_fin3]; rfl
  iintro HX
  imod (Rounds.fund ER (rd m ρ) protoCells protoToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The cells' invariants allocated -/

theorem csem_succ (i : Fin 16) : csem i.succ = osem i := by
  have h : ¬ (i.succ.val = 0) := by rw [Fin.val_succ]; exact Nat.succ_ne_zero _
  exact (dif_neg h).trans (congrArg SemLoc.dma (Fin.ext (by show 1 + i.succ.val = 2 + i.val; rw [Fin.val_succ]; omega)))

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 17 => semVal (kcell (c, i)) 0 : sProp 𝕄) := by
  rw [unscopedSems0_eq, bigSep_fin_succ]
  unfold Pipeline.ownSems0
  iintro ⟨HS, HB⟩
  isplitl [HB]; · iexact HB
  iapply (Entails.of_eq (bigSep_congr (s := Finset.univ) fun (i : Fin 16) _ =>
    show (semVal ((c : Thread nD τ), osem i) 0 : sProp 𝕄) = semVal (kcell (c, i.succ)) 0 by rw [← csem_succ i]))
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (rd m ρ) κ (kcell (c, i))))
          ∗ (bigSep Finset.univ fun i : Fin 17 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 17 => semVal (kcell (c, i)) 0) ∗ bigSep Finset.univ fun i : Fin 17 => roundState ER (rd m ρ) (kcell (c, i)) 0)
      ⊢ (|={Set.univ}=> bigSep Finset.univ fun i => iprop(∃ κ : ℕ, cellInv ER (rd m ρ) κ (kcell (c, i))) : sProp 𝕄) from by
        rw [← bigSep_sep']
        exact (bigSep_mono fun i _ => (Rounds.body_intro ER (rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt to their payers -/

/-- The devices shifted k + 1 places up. -/
def shiftDev (k : Fin 7) : Dev nD ≃ Dev nD := ⟨fun c => peer c k, fun c => rpeer c k, fun c => rpeer_peer c k, fun c => peer_rpeer c k⟩
/-- (device, offset) pairs, the device shifted by its offset. -/
def shift : Dev nD × Fin 7 ≃ Dev nD × Fin 7 :=
  ⟨fun x => (peer x.1 x.2, x.2), fun x => (rpeer x.1 x.2, x.2), fun x => Prod.ext (rpeer_peer x.1 x.2) rfl, fun x => Prod.ext (peer_rpeer x.1 x.2) rfl⟩

theorem ghost_intro (K : Dev nD × Fin 17 → ℕ) (c : Dev nD) : iprop(records m ρ K ∗ linear c) ⊢ G' m ρ c := by
  unfold G' ghost
  iintro H
  iexists K
  iexact H

/-- A barrier token goes to the device its duty names, a receive token to the device whose row it is. -/
theorem toks_around : (bigSep Finset.univ fun c : Dev nD => (toks c : sProp 𝕄)) ⊢ bigSep Finset.univ fun c : Dev nD => bigSep Finset.univ fun k : Fin 7 => payTok c k := by
  have hB : (bigSep Finset.univ fun x : Dev nD × Fin 7 => (dutyTok ER (barCell x.1) 0 (rpeer x.1 x.2) : sProp 𝕄))
      = bigSep Finset.univ fun x : Dev nD × Fin 7 => dutyTok ER (barCell (peer x.1 x.2)) 0 x.1 := by
    rw [bigSep_univ_equiv shift]
    exact bigSep_congr fun x _ => by
      show dutyTok ER (barCell (peer x.1 x.2)) 0 (rpeer (peer x.1 x.2) x.2) = _
      rw [rpeer_peer]
  have hR : (bigSep Finset.univ fun x : Dev nD × Fin 7 => (dutyTok ER (recvCell x.1 (rpeer x.1 x.2)) 0 0 : sProp 𝕄))
      = bigSep Finset.univ fun x : Dev nD × Fin 7 => dutyTok ER (recvCell (peer x.1 x.2) x.1) 0 0 := by
    rw [bigSep_univ_equiv shift]
    exact bigSep_congr fun x _ => by
      show dutyTok ER (recvCell (peer x.1 x.2) (rpeer (peer x.1 x.2) x.2)) 0 0 = _
      rw [rpeer_peer]
  have h1 := bigSep_univ_prod (fun x : Dev nD × Fin 7 =>
    (iprop(dutyTok ER (barCell x.1) 0 (rpeer x.1 x.2) ∗ dutyTok ER (sendCell x.1 x.2) 0 0 ∗ dutyTok ER (recvCell x.1 (rpeer x.1 x.2)) 0 0) : sProp 𝕄))
  have h2 := bigSep_univ_prod (fun x : Dev nD × Fin 7 =>
    (iprop(dutyTok ER (barCell (peer x.1 x.2)) 0 x.1 ∗ dutyTok ER (recvCell (peer x.1 x.2) x.1) 0 0 ∗ dutyTok ER (sendCell x.1 x.2) 0 0) : sProp 𝕄))
  have key : (bigSep Finset.univ fun x : Dev nD × Fin 7 =>
        (iprop(dutyTok ER (barCell x.1) 0 (rpeer x.1 x.2) ∗ dutyTok ER (sendCell x.1 x.2) 0 0 ∗ dutyTok ER (recvCell x.1 (rpeer x.1 x.2)) 0 0) : sProp 𝕄))
      ⊢ bigSep Finset.univ fun x : Dev nD × Fin 7 =>
        (iprop(dutyTok ER (barCell (peer x.1 x.2)) 0 x.1 ∗ dutyTok ER (recvCell (peer x.1 x.2) x.1) 0 0 ∗ dutyTok ER (sendCell x.1 x.2) 0 0) : sProp 𝕄) := by
    rw [bigSep_sep', bigSep_sep', bigSep_sep', bigSep_sep', hB, hR]
    iintro ⟨H1, H2, H3⟩
    isplitl [H1]; · iexact H1
    isplitl [H3]; · iexact H3
    iexact H2
  unfold toks payTok
  exact (Entails.of_eq h1.symm).trans (key.trans (Entails.of_eq h2))

theorem regroup :
    (bigSep Finset.univ fun c : Dev nD => iprop((bigSep Finset.univ fun i => iprop(∃ κ : ℕ, cellInv ER (rd m ρ) κ (kcell (c, i))))
          ∗ (bigSep Finset.univ fun i : Fin 17 => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (rd m ρ) κ (kcell ck))),
    bigSep_congr (s := Finset.univ) (fun (c : Dev nD) _ => bigSep_sep' Finset.univ (fun i : Fin 17 => (atPos ER (kcell (c, i)) 0 ∅ 0 : sProp 𝕄)) (fun i => reached ER (kcell (c, i)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun i : Fin 17 => (atPos ER (kcell (c, i)) 0 ∅ 0 : sProp 𝕄))
        (fun c : Dev nD => bigSep Finset.univ fun k : Fin 7 => payTok c k)).symm).trans
      (bigSep_mono fun c _ => show _ ⊢ linear c from Entails.of_eq (by unfold linear; rfl)))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What a device's waits are credited with: its barrier's seven units and a row's credit on each of its seven receive cells. -/
def creditOf (c : Dev nD) : CellTallies nD τ sig Unit :=
  tallyAt (barCell c) () 7 + ∑ k : Fin 7, tallyAt (recvCell c (peer c k)) () N

theorem tallyAt_nsmul (g : GSem nD τ sig) (n k : ℕ) : n • (tallyAt g () k : CellTallies nD τ sig Unit) = tallyAt g () (n * k) := by
  induction n with
  | zero => rw [zero_smul, Nat.zero_mul, tallyAt_zero]
  | succ n ih => rw [succ_nsmul, ih, tallyAt_add, Nat.succ_mul]

/-- The device k + 1 places before c is the one 7 - k places after it. -/
theorem rpeer_eq_peer_rev (c : Dev nD) (k : Fin 7) : rpeer c k = peer c k.rev := by revert c k; decide

/-- The barrier units owed, summed over the devices: seven on every device's barrier cell. -/
theorem owed_bar_sum : (∑ d : Dev nD, ∑ k : Fin 7, (tallyAt (barCell (peer d k)) () 1 : CellTallies nD τ sig Unit)) = ∑ c : Dev nD, tallyAt (barCell c) () 7 := by
  rw [Finset.sum_comm]
  have h (k : Fin 7) : (∑ d : Dev nD, (tallyAt (barCell (peer d k)) () 1 : CellTallies nD τ sig Unit)) = ∑ c : Dev nD, tallyAt (barCell c) () 1 :=
    Equiv.sum_comp (shiftDev k) fun c => (tallyAt (barCell c) () 1 : CellTallies nD τ sig Unit)
  rw [Finset.sum_congr rfl fun k _ => h k, Finset.sum_comm]
  refine Finset.sum_congr rfl fun c _ => ?_
  rw [Finset.sum_const, Finset.card_univ, Fintype.card_fin, tallyAt_nsmul]

/-- The rows' credits owed, summed over the devices: a row's credit on every receive cell of another device's row. -/
theorem owed_recv_sum : (∑ d : Dev nD, ∑ k : Fin 7, (tallyAt (recvCell (peer d k) d) () N : CellTallies nD τ sig Unit))
    = ∑ c : Dev nD, ∑ k : Fin 7, tallyAt (recvCell c (peer c k)) () N := by
  rw [Finset.sum_comm]
  have h (k : Fin 7) : (∑ d : Dev nD, (tallyAt (recvCell (peer d k) d) () N : CellTallies nD τ sig Unit)) = ∑ c : Dev nD, tallyAt (recvCell c (rpeer c k)) () N :=
    (Finset.sum_congr rfl fun d _ => by
        show (tallyAt (recvCell (peer d k) d) () N : CellTallies nD τ sig Unit) = tallyAt (recvCell (peer d k) (rpeer (peer d k) k)) () N
        rw [rpeer_peer]).trans
      ((shiftDev k).sum_comp fun c => (tallyAt (recvCell c (rpeer c k)) () N : CellTallies nD τ sig Unit))
  rw [Finset.sum_congr rfl fun k _ => h k, Finset.sum_comm]
  refine Finset.sum_congr rfl fun c _ => ?_
  rw [Finset.sum_congr rfl fun k _ => by rw [rpeer_eq_peer_rev]]
  exact Equiv.sum_comp Fin.revPerm fun k => (tallyAt (recvCell c (peer c k)) () N : CellTallies nD τ sig Unit)

/-- What the devices owe, summed, is what their waits are credited with, summed. -/
theorem owed_sum : (∑ d : Dev nD, O₀ d) = ∑ c : Dev nD, creditOf c := by
  unfold O₀ owedOf creditOf
  rw [Finset.sum_add_distrib, Finset.sum_add_distrib, owed_bar_sum, owed_recv_sum, add_comm]

/-- A device's credit is on its own cells. -/
theorem creditOf_own (d : Dev nD) (g : GSem nD τ sig) (h : creditOf d g ≠ 0) : g.1 = (d : Thread nD τ) := by
  by_contra hne
  refine h ?_
  unfold creditOf
  rw [Pi.add_apply, Finset.sum_apply, tallyAt_ne_cell (fun e => hne (congrArg Prod.fst e)),
    Finset.sum_eq_zero (fun k _ => tallyAt_ne_cell (fun e => hne (congrArg Prod.fst e)) _ _), add_zero]

theorem creds (c : Dev nD) :
    (Pipeline.launchCred O₀ c : sProp 𝕄) ⊢ iprop(cred (tallyAt (barCell c) () 7) ∗ bigSep Finset.univ fun k : Fin 7 => cred (tallyAt (recvCell c (peer c k)) () N)) := by
  rw [Pipeline.launchCred_of_sum O₀ creditOf owed_sum creditOf_own c]
  unfold creditOf
  exact (cred_add _ _).1.trans (sep_mono_right (Entails.of_eq (Pipeline.cred_finsetSum Finset.univ _)))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ gPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ gPts
  iintro ⟨Hr, Hz⟩
  isplitr; · iempintro
  isplitl [Hz]; · iexact Hz
  iexists (tbl m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the column maxima of the gathered table. -/
theorem finalA_out (c : Dev nD) : finalA m ρ c (1 : Fin 2) = outAt m ρ := by
  have h := (dats (F := F) m ρ 0 c).arrAt_succ (1 : Fin 2) t0_0
  rw [flush0_1, if_pos rfl] at h
  exact h.trans (Memref.write_access_unit_zero_univ (Elt F) main_v1
    (off := fun a => (cfg0.win (1 : Fin 2)).index t0_0 a * (cfg0.win (1 : Fin 2)).size a) (funext fun a => Nat.zero_mul _) _ _ _)

end Cert.KernelIdeal.AG

end
-- ==== Proof.Value.lean ====
/-
  The reference's column maxima of the whole array are the column maxima of the eight devices' rows of column maxima.

  At the extended reals a maximum reduction from minus infinity over one axis is the fold of `max` from the bottom element
  over that axis's coordinates. At column l the kernel's result is then the maximum over the eight blocks c of the maximum
  over the 1536 rows r of block c at (r, l), which is the whole array at (1536 c + r, l); the reference is the maximum
  over the 12288 rows p of the whole array at (p, l). Both are the least upper bound of the same values.
-/
import proofs.«900913_g7700000000000914_dist_max_ax0_shard0_i_m1536_n768_v7x_i8_bf16_1_alg».proof.Proof.Table
import proofs.«900913_g7700000000000914_dist_max_ax0_shard0_i_m1536_n768_v7x_i8_bf16_1_alg».proof.Proof.Gen.ReferenceIdeal.Read
import Idealize.ShloMosaic.Lib.Layout
import Idealize.ShloMosaic.Lib.ValueLayout
import Idealize.ShloMosaic.PureOps.Ideal.Laws

noncomputable section

namespace Cert.KernelIdeal.Tbl

open Idealize.ShloMosaic Cert.KernelIdeal Cert.KernelIdeal.Gen
open Idealize.ShloMosaic.ValueIdx (ix1 ix2 eq_ix2 shapeCast_a_1a_apply)

/-! ## The maximum of the blocks' maxima -/

/-- A family `g` over `k * n` places, read block by block through `f c r = g (c * n + r)`: the maximum (from the
    bottom element) over the blocks of each block's maximum is the maximum over all places. Both are the least upper
    bound of the same values. -/
theorem fold_max_blocks {k n m : Nat} (f : Fin k → Fin n → EReal) (g : Fin m → EReal) (hm : m = k * n)
    (hfg : ∀ (c : Fin k) (r : Fin n) (h : c.val * n + r.val < m), f c r = g ⟨c.val * n + r.val, h⟩) :
    (Finset.univ : Finset (Fin k)).fold max ⊥ (fun c => (Finset.univ : Finset (Fin n)).fold max ⊥ (f c))
      = (Finset.univ : Finset (Fin m)).fold max ⊥ g := by
  apply le_antisymm
  · refine (Finset.fold_max_le _).2 ⟨bot_le, fun c _ => (Finset.fold_max_le _).2 ⟨bot_le, fun r _ => ?_⟩⟩
    have h : c.val * n + r.val < m := by
      rw [hm]
      calc c.val * n + r.val < c.val * n + n := Nat.add_lt_add_left r.isLt _
        _ = (c.val + 1) * n := (Nat.succ_mul _ _).symm
        _ ≤ k * n := Nat.mul_le_mul_right _ c.isLt
    rw [hfg c r h]
    exact (Finset.le_fold_max _).2 (Or.inr ⟨_, Finset.mem_univ _, le_rfl⟩)
  · refine (Finset.fold_max_le _).2 ⟨bot_le, fun p _ => ?_⟩
    have hn : 0 < n := by
      rcases Nat.eq_zero_or_pos n with h0 | h0
      · have hlt : p.val < k * n := lt_of_lt_of_eq p.isLt hm
        rw [h0, Nat.mul_zero] at hlt; exact absurd hlt (Nat.not_lt_zero _)
      · exact h0
    have hc : p.val / n < k := by
      apply Nat.div_lt_of_lt_mul; rw [Nat.mul_comm]; exact lt_of_lt_of_eq p.isLt hm
    have hr : p.val % n < n := Nat.mod_lt _ hn
    have hp : (p.val / n) * n + p.val % n = p.val := by rw [Nat.mul_comm]; exact Nat.div_add_mod _ _
    have e : g p = f ⟨p.val / n, hc⟩ ⟨p.val % n, hr⟩ := by
      rw [hfg ⟨p.val / n, hc⟩ ⟨p.val % n, hr⟩ (by show (p.val / n) * n + p.val % n < m; rw [hp]; exact p.isLt)]
      exact congrArg g (Fin.ext hp.symm)
    rw [e]
    exact (Finset.le_fold_max _).2 (Or.inr ⟨⟨p.val / n, hc⟩, Finset.mem_univ _,
      (Finset.le_fold_max _).2 (Or.inr ⟨⟨p.val % n, hr⟩, Finset.mem_univ _, le_rfl⟩)⟩)

/-! ## A maximum reduction over the rows, read at a column -/

/-- The word 0xFF800000 is minus infinity, the bottom element of the extended reals. -/
theorem ofBits_neg_inf : FloatOps.ofBits (F := Ideal) .f32 0xFF800000#32 = (⊥ : EReal) := by
  simp [Ideal.ofBits, Ideal.ieee]

/-- Over column l, the index with row coordinate r inserted is (r, l). -/
theorem lift_rows {n : Nat} (h : (⟨2, ![n, 768]⟩ : Shape).Reduces [0] S768) (l : Fin 768) (r : Fin n) :
    h.lift (ix1 l) r = ix2 r l := by
  funext a
  match a with
  | ⟨0, _⟩ => exact Fin.ext rfl
  | ⟨1, _⟩ => exact Fin.ext rfl

/-- A maximum reduction over the rows of a two-axis array, from minus infinity, at column l: the maximum over the rows r
    of the array at (r, l). -/
theorem colmax_apply {n : Nat} (x : FVec Ideal ⟨2, ![n, 768]⟩ .f32) (h : (⟨2, ![n, 768]⟩ : Shape).Reduces [0] S768)
    (hφ : FKind.Formats .f32) (hacc : (0xFF800000#32 : BitVec 32) = 0xFF800000#32) (l : Fin 768) :
    multiReduction (F := Ideal) .maximumf [0] S768 x 0xFF800000#32 h hφ hacc (ix1 l)
      = (Finset.univ : Finset (Fin n)).fold max ⊥ (fun r => x (ix2 r l)) := by
  refine (Ideal.multiReduction_maximumf_single x 0xFF800000#32 h hφ hacc (ix1 l)).trans ?_
  rw [ofBits_neg_inf]
  exact congrArg (fun f => Finset.fold max (⊥ : EReal) f Finset.univ) (funext fun r => congrArg x (lift_rows h l r))

/-! ## The kernel's side -/

/-- The row of a block at column l: the maximum over the block's rows. -/
theorem rowOf_apply (x : Vec Ideal S1536x768 .f32) (u : Fin 1) (l : Fin 768) :
    rowOf (F := Ideal) x (ix2 u l)
      = (Finset.univ : Finset (Fin 1536)).fold max ⊥ (fun r => x (ix2 r l)) := by
  unfold rowOf k0_pay3 k0_pay2
  simp only [shapeCast_self]
  rw [shapeCast_a_1a_apply]
  exact colmax_apply (n := 1536) x _ _ _ l

/-- The result at column l: the maximum over the eight blocks of each block's maximum over its rows. -/
theorem result_apply (xs : Dev nD → Vec Ideal S1536x768 .f32) (u : Fin 1) (l : Fin 768) :
    result (F := Ideal) xs (ix2 u l)
      = (Finset.univ : Finset (Fin 8)).fold max ⊥
          (fun c => (Finset.univ : Finset (Fin 1536)).fold max ⊥ (fun r => xs c (ix2 r l))) := by
  unfold result k0_pay1
  rw [shapeCast_a_1a_apply]
  refine (colmax_apply (n := 8) (table xs) _ _ _ l).trans ?_
  refine congrArg (fun f => Finset.fold max (⊥ : EReal) f Finset.univ) (funext fun c => ?_)
  exact rowOf_apply (xs c) 0 l

/-! ## The reference's side -/

/-- The whole array reduces over its rows to one row. -/
theorem reduces_whole : (⟨2, ![12288, 768]⟩ : Shape).Reduces [0] S768 := by decide

/-- The reference at column l: the maximum over all the rows of the whole array. -/
theorem reference_apply (X : (⟨Cert.ReferenceIdeal.S12288x768, .f32⟩ : BufTy).Contents (Elt Ideal)) (u : Fin 1)
    (l : Fin 768) :
    Cert.ReferenceIdeal.Read.val_main_v1 (F := Ideal) X (ix2 u l)
      = (Finset.univ : Finset (Fin 12288)).fold max ⊥ (fun p => X (ix2 p l)) := by
  rw [Cert.ReferenceIdeal.Read.val_main_v1_apply]
  have hj : Cert.ReferenceIdeal.Read.idx_main_v1 (ix2 u l) = ix1 l := by
    funext a
    match a with
    | ⟨0, _⟩ => rfl
  rw [hj]
  unfold Cert.ReferenceIdeal.Read.val_main_v0
  refine (Host.reduce_eq_fold_single (s := ⟨2, ![12288, 768]⟩) (t := S768) (α := EReal)
    (FloatOps.maximumf (F := Ideal) (φ := .f32)) X _ _ reduces_whole _ (ix1 l)).trans ?_
  rw [Cert.ReferenceIdeal.Read.val_main_cst_apply, ofBits_neg_inf]
  exact congrArg (fun f => Finset.fold max (⊥ : EReal) f Finset.univ)
    (funext fun r => congrArg X (lift_rows reduces_whole l r))

/-! ## The two sides meet -/

/-- Block c's place (r, l) is the whole array's place (1536 c + r, l). -/
theorem block_rows_apply (X : (⟨Cert.ReferenceIdeal.S12288x768, .f32⟩ : BufTy).Contents (Elt Ideal)) (c : Fin 8)
    (r : Fin 1536) (l : Fin 768) (h : c.val * 1536 + r.val < 12288) :
    (Layout.block ⟨2, ![1536, 768]⟩ ⟨2, ![12288, 768]⟩ 0 8 c X) (ix2 r l) = X (ix2 ⟨c.val * 1536 + r.val, h⟩ l) := by
  rw [Layout.block_apply]
  refine congrArg X ?_
  funext a
  match a with
  | ⟨0, _⟩ => exact Fin.ext rfl
  | ⟨1, _⟩ => exact Fin.ext rfl

/-- At the extended reals: the column maxima of the table gathered from the eight row blocks of the whole array
    are the column maxima of the whole array, which is what the reference computes. -/
theorem result_eq_reference (X : (⟨Cert.ReferenceIdeal.S12288x768, .f32⟩ : BufTy).Contents (Elt Ideal)) :
    result (F := Ideal) (fun c => Layout.block ⟨2, ![1536, 768]⟩ ⟨2, ![12288, 768]⟩ 0 8 c X)
      = Cert.ReferenceIdeal.Read.val_main_v1 (F := Ideal) X := by
  funext i
  obtain ⟨u, l, rfl⟩ : ∃ (u : Fin 1) (l : Fin 768), i = ix2 u l := ⟨i 0, i 1, eq_ix2 i⟩
  rw [result_apply, reference_apply]
  exact fold_max_blocks (k := 8) (n := 1536) (m := 12288)
    (fun c r => (Layout.block ⟨2, ![1536, 768]⟩ ⟨2, ![12288, 768]⟩ 0 8 c X) (ix2 r l)) (fun p => X (ix2 p l)) rfl
    (fun c r h => block_rows_apply X c r l h)

end Cert.KernelIdeal.Tbl

end
-- ==== Proof.Claims.lean ====
/-
  The claims about the idealized kernel and the reference, assembled: the frames from the runs with the values dropped,
  and the algebraic claim from the kernel's run, the reference's run, and the equality of their results at the
  extended reals.
-/
import proofs.«900913_g7700000000000914_dist_max_ax0_shard0_i_m1536_n768_v7x_i8_bf16_1_alg».proof.Proof.Launch
import proofs.«900913_g7700000000000914_dist_max_ax0_shard0_i_m1536_n768_v7x_i8_bf16_1_alg».proof.Proof.Value
import proofs.«900913_g7700000000000914_dist_max_ax0_shard0_i_m1536_n768_v7x_i8_bf16_1_alg».proof.Proof.Gen.Pre_finite_inputs_Kernel
import proofs.«900913_g7700000000000914_dist_max_ax0_shard0_i_m1536_n768_v7x_i8_bf16_1_alg».proof.Proof.Gen.Pre_finite_inputs_ReferenceIdeal
import proofs.«900913_g7700000000000914_dist_max_ax0_shard0_i_m1536_n768_v7x_i8_bf16_1_alg».proof.Defs

noncomputable section

open Idealize.ShloMosaic Idealize.ShloMosaic.TcCoe Idealize.SL.Sem

/-! ## What a device stages is its argument block -/

namespace Cert.KernelIdeal.AG

open Cert.KernelIdeal Cert.KernelIdeal.Gen

variable {F : FTy → Type} [FloatOps F]
variable (m : (ℓ : Loc nD τ sig) → Buf (Elt F) ℓ) (ρ : Dev nD → PrngReg)

/-- The window is the whole argument array, so the block read back through it is the array. -/
theorem xstg_eq (d : Dev nD) : xstg m ρ d = m ((d : Thread nD τ).loc main_arg0) :=
  Memref.read_access_unit_zero (Elt F) main_arg0
    (off := fun a => win0_0.index (0 : Fin 1) a * win0_0.size a) (funext fun a => Nat.zero_mul _) _ _

end Cert.KernelIdeal.AG

/-! ## The claims -/

namespace Cert.Proof.Claims

open Cert.KernelIdeal Cert.KernelIdeal.Gen Cert.KernelIdeal.AG

/-- The idealized kernel runs and leaves every device's argument block as it was. -/
theorem frame_pi : Cert.frame_KernelIdeal := fun m ρ _ =>
  (θ_run Cert.KernelIdeal.defs _ _).mono (fun _ h c => (h c (0 : Fin 2)).trans (finalA_x m ρ c))
    (run_main (F := Ideal) m ρ)

/-- The reference runs and leaves its argument array as it was. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the extended reals, from device blocks that are the row blocks of the reference's whole array: every device's
    result ends at the column maxima of the table gathered from the eight blocks' rows of column maxima, the reference's
    at the column maxima of the whole array, and these are one row; the arguments of both end unchanged. -/
theorem algebraic : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨?_, (h c (0 : Fin 2)).trans (finalA_x m ρ c)⟩)
      (run_main (F := Ideal) m ρ)
    refine ((h c (1 : Fin 2)).trans (finalA_out m ρ c)).trans ?_
    have hx : (fun d : Dev nD => xstg m ρ d)
        = fun d => Layout.block ⟨2, ![1536, 768]⟩ ⟨2, ![12288, 768]⟩ 0 8 d
            (m' (((0 : Dev Cert.ReferenceIdeal.nD).tc : Thread Cert.ReferenceIdeal.nD Cert.ReferenceIdeal.τ).loc Cert.ReferenceIdeal.main_arg0)) :=
      funext fun d => (xstg_eq m ρ d).trans (hagree d)
    unfold outAt
    rw [hx]
    exact Tbl.result_eq_reference _
  · exact (θ_run Cert.ReferenceIdeal.defs _ _).mono
      (fun _ h => ⟨(h 0).1.trans (Cert.ReferenceIdeal.Read.val_main_v1_eq _), (h 0).2⟩)
      (Cert.ReferenceIdeal.Value.run (F := Ideal) m' ρ')

end Cert.Proof.Claims

end
-- ==== Proof.Bits.Table.lean ====
/-
  The values of the all-gather-then-maximum kernel, as pure functions of the devices' blocks.

  Every device reduces its own 1536 x 768 block to ONE row of column maxima, the eight rows are gathered into an
  8 x 768 table that ends the same on every device (row r is device r's row), and each device's result is the row of
  column maxima of that table.
-/
import proofs.«900913_g7700000000000914_dist_max_ax0_shard0_i_m1536_n768_v7x_i8_bf16_1_alg».proof.Proof.Gen.Kernel.Skeleton
import Idealize.ShloMosaic.Lib.ValueIdx

noncomputable section

namespace Cert.Kernel.Tbl

open Idealize.ShloMosaic Cert.Kernel Cert.Kernel.Gen

variable {F : FTy → Type} [FloatOps F]

/-- The row a device contributes: the column maxima of its block (the stored value of the first vector store). -/
def rowOf (x : Vec F S1536x768 .f32) : FVec F S1x768 .f32 := k0_pay3 (k0_pay2 x)

/-- The gathered table: row r holds device r's row. -/
def table (xs : Dev nD → Vec F S1536x768 .f32) : Vec F S8x768 .f32 :=
  fun i => rowOf (xs ⟨(i 0).val, (i 0).isLt⟩) (ValueIdx.ix2 (0 : Fin 1) (i 1))

/-- Every device's result: the column maxima of the gathered table. -/
def result (xs : Dev nD → Vec F S1536x768 .f32) : FVec F S1x768 .f32 := k0_pay1 (table xs)

end Cert.Kernel.Tbl

end
-- ==== Proof.Bits.Proto.lean ====
/-
  The all-gather-then-maximum kernel on eight devices: the protocol's vocabulary.

  Device c computes the row of column maxima of its block into row c of its 8 x 768 table, tells each of the other seven
  devices (one unit on their barrier semaphore) that its table exists, waits for the seven units from them, copies its
  row c into row c of each of the others' tables (send semaphore k for the device k places after it, the receiver's
  receive semaphore c), waits for the seven rows landing in its own table (receive semaphore j for row j) and for its
  seven sends, and reduces the table.

  Cells, under the rounds discipline with duty names Fin 8: a device's barrier cell has seven duties of one unit at
  round 0, named by the payer, each handing the waiter the payer's table row that the waiter will write; a send cell
  (offsets 1..7) one duty handing back the share of the device's own row the copy read; a receive cell (rows other than
  the device's own) one duty handing the device that row of its table holding the sender's row.
-/
import proofs.«900913_g7700000000000914_dist_max_ax0_shard0_i_m1536_n768_v7x_i8_bf16_1_alg».proof.Proof.Bits.Table
import proofs.«900913_g7700000000000914_dist_max_ax0_shard0_i_m1536_n768_v7x_i8_bf16_1_alg».proof.Proof.Gen.Kernel.Launch
import proofs.«900913_g7700000000000914_dist_max_ax0_shard0_i_m1536_n768_v7x_i8_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties Unit) and the protocol's (duties Fin 8) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of eight -/

/-- The device k + 1 places after c. -/
def peer (c : Dev nD) (k : Fin 7) : Dev nD := ⟨(c.val + k.val + 1) % 8, Nat.mod_lt _ (by decide)⟩
/-- The device k + 1 places before c. -/
def rpeer (c : Dev nD) (k : Fin 7) : Dev nD := ⟨(c.val + 7 - k.val) % 8, Nat.mod_lt _ (by decide)⟩

theorem rpeer_peer (c : Dev nD) (k : Fin 7) : rpeer (peer c k) k = c := by revert c k; decide
theorem peer_rpeer (c : Dev nD) (k : Fin 7) : peer (rpeer c k) k = c := by revert c k; decide
theorem peer_ne (c : Dev nD) (k : Fin 7) : peer c k ≠ c := by revert c k; decide
theorem peer_inj (c : Dev nD) : Function.Injective (peer c) := by revert c; decide

/-! ## The memrefs and cells -/

abbrev xM : Memref sig .tc .vmem S1536x768 .f32 := Memref.whole cc0_stg0_0
abbrev oM : Memref sig .tc .vmem S1x768 .f32 := Memref.whole cc0_stg1_0
abbrev gM : Memref sig .tc .vmem S8x768 .f32 := Memref.whole cc0_scratch0

/-- Row r of the table. -/
abbrev rowOff (r : Fin 8) : Fin 2 → Nat := ![r.val, 0]
theorem rowOff_inb (r : Fin 8) : ∀ a, rowOff r a + S1x768.size a ≤ S8x768.size a := by revert r; decide
abbrev rowRect (r : Fin 8) : Rect S8x768 := Rect.unit (s := S8x768) (rowOff r) S1x768.size (rowOff_inb r)
abbrev rowM (r : Fin 8) : Memref sig .tc .vmem S1x768 .f32 := gM.slice (rowRect r) (fun _ => rfl)

/-- The runtime's barrier semaphore of collective id 0 (unscoped); the send and receive DMA semaphores (scoped scratch):
    send semaphore i is DMA semaphore 2 + i, receive semaphore j is DMA semaphore 10 + j. -/
abbrev barS : Sem sig := (SemArray.scalar (sig.barrier 0 rfl) : Sems sig S_).sem
abbrev sendSem (i : Fin 8) : DmaSem sig := ⟨2 + i.val, by have := i.isLt; show 2 + i.val < 18; omega⟩
abbrev recvSem (j : Fin 8) : DmaSem sig := ⟨10 + j.val, by have := j.isLt; show 10 + j.val < 18; omega⟩

abbrev barCell (c : Dev nD) : GSem nD τ sig := ((c : Thread nD τ), .reg barS)
/-- The send cell of offset k + 1. -/
abbrev sendCell (c : Dev nD) (k : Fin 7) : GSem nD τ sig := ((c : Thread nD τ), .dma (sendSem ⟨k.val + 1, by have := k.isLt; omega⟩))
/-- The receive cell of row j. -/
abbrev recvCell (c : Dev nD) (j : Fin 8) : GSem nD τ sig := ((c : Thread nD τ), .dma (recvSem j))

/-- The kernel's OWN (scoped) semaphores, as the launch theorem indexes them: DMA semaphores 2 .. 17; -/
abbrev osem : Fin 16 → SemLoc sig := fun i => .dma ⟨2 + i.val, by have := i.isLt; show 2 + i.val < 18; omega⟩
/-- all seventeen of the protocol's, as this proof indexes them: the barrier, then DMA semaphores 2 .. 17. -/
abbrev csem : Fin 17 → SemLoc sig := fun i => if h : i.val = 0 then .reg barS else .dma ⟨1 + i.val, by have := i.isLt; show 1 + i.val < 18; omega⟩
abbrev kcell (ck : Dev nD × Fin 17) : GSem nD τ sig := ((ck.1 : Thread nD τ), csem ck.2)

/-- The units of one row's transfer. -/
abbrev N : ℕ := (rowM 0).view.dmaCredit

/-! ## Contents -/

/-- What device c stages: its block of the argument. -/
def xstg (c : Dev nD) : (cc0_stg0_0 : Ref sig .tc).ty.Contents (Elt F) :=
  (win0_0.blk (0 : Fin 1)).view.read (Elt F) ((s₀ m ρ).mem ((c : Thread nD τ).loc main_arg0))

/-- The gathered table, the same on every device: row r is device r's row of column maxima. -/
def tbl : (cc0_scratch0 : Ref sig .tc).ty.Contents (Elt F) := Tbl.table (fun d => xstg m ρ d)

/-- Every device's result. -/
def outAt : (cc0_stg1_0 : Ref sig .tc).ty.Contents (Elt F) := Tbl.result (fun d => xstg m ρ d)

/-- The shares of a device's own row under its seven sends: the left half, the left half of the right half, … -/
def rsh : ℕ → PosShare TreeShare
  | 0 => fullShare
  | n + 1 => (rsh n).right
def ssh (k : ℕ) : PosShare TreeShare := (rsh k).left

/-- Device c's table row r, at share q and contents f. -/
def rowPts (c : Dev nD) (r : Fin 8) (q : PosShare TreeShare) (f : Buf (Elt F) ((c : Thread nD τ).loc cc0_scratch0)) : sProp 𝕄 :=
  ((c : Thread nD τ).loc cc0_scratch0) ↦[(rowM r).view.set]{q} f
/-- Device c's whole table. -/
def gPts (c : Dev nD) (f : Buf (Elt F) ((c : Thread nD τ).loc cc0_scratch0)) : sProp 𝕄 :=
  ((c : Thread nD τ).loc cc0_scratch0) ↦{fullShare} f

instance rowPts_storable (c : Dev nD) (r : Fin 8) (q) (f) : BI.Storable (upEmb : UEmb _ 𝕄) (rowPts (F := F) c r q f) := by unfold rowPts; infer_instance
instance gPts_storable (c : Dev nD) (f) : BI.Storable (upEmb : UEmb _ 𝕄) (gPts (F := F) c f) := by unfold gPts; infer_instance

/-! ## The schedule -/

/-- One round, round 0. A barrier cell: the seven duties named by the other devices, one unit each, duty d handing
    over row (the waiter) of device d's table. A send cell (DMA semaphores 3 .. 9): one duty 0 of a row's credit handing
    back the share of the device's own row. A receive cell (DMA semaphore 10 + j, j not the device): one duty 0 of a
    row's credit handing over row j of the device's table holding the gathered row. -/
def rd : Rounds.Schedule (GSem nD τ sig) (Fin 8) 𝕄 where
  duties g r :=
    if r = 0 ∧ g.1.2 = .tc then
      match g.2 with
      | .reg _ => Finset.univ.erase g.1.1
      | .dma q => if 3 ≤ q.val ∧ q.val ≤ 9 then {0} else if 10 ≤ q.val ∧ q.val ≠ 10 + g.1.1.val then {0} else ∅
    else ∅
  unitless _ := False
  amount g _ _ := match g.2 with
    | .reg _ => 1
    | .dma _ => N
  payload g _ d := match g.2 with
    | .reg _ => iprop(∃ f, rowPts d g.1.1 fullShare f)
    | .dma q => if q.val ≤ 9 then rowPts g.1.1 g.1.1 (ssh (q.val - 3)) (tbl m ρ)
                else rowPts g.1.1 ⟨(q.val - 10) % 8, Nat.mod_lt _ (by decide)⟩ fullShare (tbl m ρ)
  amount_pos g _ _ _ := by
    rcases g with ⟨t, sm⟩
    cases sm with
    | reg _ => exact Nat.one_pos
    | dma _ => exact View.dmaCredit_pos _ (by decide)

instance rd_payload_storable (g : GSem nD τ sig) (r : ℕ) (d : Fin 8) :
    BI.Storable (upEmb : UEmb _ 𝕄) ((rd (F := F) m ρ).payload g r d) := by
  rcases g with ⟨t, sm⟩
  cases sm with
  | reg _ => show BI.Storable upEmb iprop(∃ f, rowPts d t.1 fullShare f); infer_instance
  | dma q =>
    show BI.Storable upEmb (if q.val ≤ 9 then rowPts t.1 t.1 (ssh (q.val - 3)) (tbl m ρ)
                else rowPts t.1 ⟨(q.val - 10) % 8, Nat.mod_lt _ (by decide)⟩ fullShare (tbl m ρ))
    split <;> infer_instance

/-! ## What each core owes at launch; the levels -/

/-- What device c owes the devices k + 1 places after it, for k in S₁ the row's credit on their receive cell c, for k in
    S₂ one unit on their barrier cell. -/
def owedOf (c : Dev nD) (S₁ S₂ : Finset (Fin 7)) : CellTallies nD τ sig Unit :=
  (∑ k ∈ S₁, tallyAt (recvCell (peer c k) c) () N) + ∑ k ∈ S₂, tallyAt (barCell (peer c k)) () 1
def O₀ (c : Dev nD) : CellTallies nD τ sig Unit := owedOf c Finset.univ Finset.univ

def L (g : GSem nD τ sig) : Finset Unit := if g.1.2 = .tc then {()} else ∅
/-- barrier cells at 1, receive cells at 2, everything else (staging, send) at 0. -/
def lv (g : GSem nD τ sig) (_ : Unit) : ℕ := match g.2 with
  | .reg _ => 1
  | .dma q => if 10 ≤ q.val then 2 else 0

/-! ## The pipeline's proof data -/

/-- The protocol's persistent records under the names K the launch allocated the cells at: every cell's invariant, and
    that every cell has reached round 0. -/
def records (K : Dev nD × Fin 17 → ℕ) : sProp 𝕄 :=
  iprop((bigSep Finset.univ fun ck : Dev nD × Fin 17 => cellInv ER (rd m ρ) (K ck) (kcell ck))
    ∗ bigSep Finset.univ fun ck : Dev nD × Fin 17 => reached ER (kcell ck) 0)

instance records_persistent (K : Dev nD × Fin 17 → ℕ) : BI.Persistent (records m ρ K) := by unfold records; infer_instance

/-- The tokens of the duties device c pays, per offset: the peer's barrier duty c, the peer's receive duty, its own
    send duty. -/
def payTok (c : Dev nD) (k : Fin 7) : sProp 𝕄 :=
  iprop(dutyTok ER (barCell (peer c k)) 0 c ∗ dutyTok ER (recvCell (peer c k) c) 0 0 ∗ dutyTok ER (sendCell c k) 0 0)

/-- What stays with device c: its positions at round 0 of its seventeen cells, and the tokens of the duties it pays. -/
def linear (c : Dev nD) : sProp 𝕄 :=
  iprop((bigSep Finset.univ fun i : Fin 17 => atPos ER (kcell (c, i)) 0 ∅ 0) ∗ bigSep Finset.univ fun k : Fin 7 => payTok c k)

def ghost (K : Dev nD × Fin 17 → ℕ) (c : Dev nD) : sProp 𝕄 := iprop(records m ρ K ∗ linear c)

/-- What device c's body starts from: that at some names, its credit tokens (its barrier's seven units, the credit of
    its seven receive cells) and the level facts. -/
def start (c : Dev nD) : sProp 𝕄 :=
  iprop((∃ K, ghost m ρ K c) ∗ cred (tallyAt (barCell c) () 7)
    ∗ (bigSep Finset.univ fun k : Fin 7 => cred (tallyAt (recvCell c (peer c k)) () N)) ∗ levAts L lv)

def Φ₀ (c : Dev nD) : sProp 𝕄 := iprop(start m ρ c ∗ ∃ f, gPts c f)
/-- After the point: the table gathered, the sixteen OWN cells at zero, closed (the barrier cell is the runtime's). -/
def Φ₁ (c : Dev nD) : sProp 𝕄 := iprop(gPts c (tbl m ρ) ∗ Pipeline.ownSems0 osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.Kernel.AG

end
-- ==== Proof.Bits.Sched.lean ====
/-
  The schedule's tables, cell by cell; the levels; what a device still owes after each of its payments.
-/
import proofs.«900913_g7700000000000914_dist_max_ax0_shard0_i_m1536_n768_v7x_i8_bf16_1_alg».proof.Proof.Bits.Proto

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables -/

section Sched
variable (c : Dev nD)

theorem duties_bar : (rd (F := F) m ρ).duties (barCell c) 0 = Finset.univ.erase c := by
  dsimp only [rd]; exact if_pos ⟨rfl, rfl⟩
theorem duties_send (k : Fin 7) : (rd (F := F) m ρ).duties (sendCell c k) 0 = {0} := by
  have hk := k.isLt
  dsimp only [rd]; rw [if_pos ⟨rfl, rfl⟩]
  exact if_pos ⟨by show 3 ≤ 2 + (k.val + 1); omega, by show 2 + (k.val + 1) ≤ 9; omega⟩
theorem duties_recv (j : Fin 8) (h : j ≠ c) : (rd (F := F) m ρ).duties (recvCell c j) 0 = {0} := by
  have hj := j.isLt
  have hne : j.val ≠ c.val := fun e => h (Fin.ext e)
  dsimp only [rd]; rw [if_pos ⟨rfl, rfl⟩]
  show (if 3 ≤ 10 + j.val ∧ 10 + j.val ≤ 9 then ({0} : Finset (Fin 8)) else if 10 ≤ 10 + j.val ∧ 10 + j.val ≠ 10 + c.val then {0} else ∅) = {0}
  rw [if_neg (fun h' => by omega), if_pos ⟨by omega, by omega⟩]
theorem duties_later (g : GSem nD τ sig) : ∀ r, 1 ≤ r → (rd (F := F) m ρ).duties g r = ∅ :=
  fun r hr => by dsimp only [rd]; exact if_neg fun h => by omega
/-- The two own semaphores the kernel never uses have no duty at all: send semaphore 0 and receive semaphore c. -/
theorem duties_send0 : ∀ r, (rd (F := F) m ρ).duties ((c : Thread nD τ), .dma (sendSem 0)) r = ∅ := fun r => by
  dsimp only [rd]
  split
  · show (if 3 ≤ 2 + 0 ∧ 2 + 0 ≤ 9 then ({0} : Finset (Fin 8)) else if 10 ≤ 2 + 0 ∧ 2 + 0 ≠ 10 + c.val then {0} else ∅) = ∅
    rw [if_neg (fun h' => by omega), if_neg (fun h' => by omega)]
  · rfl
theorem duties_recv_self : ∀ r, (rd (F := F) m ρ).duties (recvCell c c) r = ∅ := fun r => by
  dsimp only [rd]
  split
  · show (if 3 ≤ 10 + c.val ∧ 10 + c.val ≤ 9 then ({0} : Finset (Fin 8)) else if 10 ≤ 10 + c.val ∧ 10 + c.val ≠ 10 + c.val then {0} else ∅) = ∅
    rw [if_neg (fun h' => by omega), if_neg (fun h' => h'.2 rfl)]
  · rfl

theorem amount_bar (d : Fin 8) : (rd (F := F) m ρ).amount (barCell c) 0 d = 1 := rfl
theorem amount_send (k : Fin 7) (d : Fin 8) : (rd (F := F) m ρ).amount (sendCell c k) 0 d = N := rfl
theorem amount_recv (j : Fin 8) (d : Fin 8) : (rd (F := F) m ρ).amount (recvCell c j) 0 d = N := rfl

theorem expect_bar : (rd (F := F) m ρ).expect (barCell c) 0 = 7 := by
  unfold Schedule.expect Schedule.amountOf
  rw [duties_bar, Finset.sum_congr rfl fun d _ => amount_bar m ρ c d, Finset.sum_const, Finset.card_erase_of_mem (Finset.mem_univ _),
    Finset.card_univ, Fintype.card_fin, smul_eq_mul]
theorem expect_send (k : Fin 7) : (rd (F := F) m ρ).expect (sendCell c k) 0 = N := by
  unfold Schedule.expect Schedule.amountOf; rw [duties_send, Finset.sum_singleton, amount_send]
theorem expect_recv (j : Fin 8) (h : j ≠ c) : (rd (F := F) m ρ).expect (recvCell c j) 0 = N := by
  unfold Schedule.expect Schedule.amountOf; rw [duties_recv m ρ c j h, Finset.sum_singleton, amount_recv]

theorem payload_bar (d : Fin 8) : (rd (F := F) m ρ).payload (barCell c) 0 d = iprop(∃ f, rowPts d c fullShare f) := rfl
theorem payload_send (k : Fin 7) (d : Fin 8) : (rd (F := F) m ρ).payload (sendCell c k) 0 d = rowPts c c (ssh k.val) (tbl m ρ) := by
  have hk := k.isLt
  show (if 2 + (k.val + 1) ≤ 9 then rowPts c c (ssh (2 + (k.val + 1) - 3)) (tbl m ρ)
    else rowPts c ⟨(2 + (k.val + 1) - 10) % 8, Nat.mod_lt _ (by decide)⟩ fullShare (tbl m ρ)) = _
  rw [if_pos (by omega), show 2 + (k.val + 1) - 3 = k.val by omega]
theorem payload_recv (j : Fin 8) (d : Fin 8) : (rd (F := F) m ρ).payload (recvCell c j) 0 d = rowPts c j fullShare (tbl m ρ) := by
  have hj := j.isLt
  show (if 10 + j.val ≤ 9 then rowPts c c (ssh (10 + j.val - 3)) (tbl m ρ)
    else rowPts c ⟨(10 + j.val - 10) % 8, Nat.mod_lt _ (by decide)⟩ fullShare (tbl m ρ)) = _
  rw [if_neg (by omega), show (⟨(10 + j.val - 10) % 8, Nat.mod_lt _ (by decide)⟩ : Fin 8) = j from Fin.ext (by show (10 + j.val - 10) % 8 = j.val; omega)]

/-- The rest of the barrier cell's round, no duty taken: the seven peers' rows c. -/
theorem rest_bar : bigSep ((rd (F := F) m ρ).duties (barCell c) 0 \ ∅) (fun d => (rd (F := F) m ρ).payload (barCell c) 0 d)
    = bigSep Finset.univ fun k : Fin 7 => iprop(∃ f, rowPts (peer c k) c fullShare f) := by
  rw [Finset.sdiff_empty, duties_bar, show Finset.univ.erase c = Finset.univ.map ⟨peer c, peer_inj c⟩ from by revert c; decide, BI.bigSep_map]
  exact bigSep_congr fun k _ => payload_bar m ρ c (peer c k)
theorem rest_send (k : Fin 7) : bigSep ((rd (F := F) m ρ).duties (sendCell c k) 0 \ ∅) (fun d => (rd (F := F) m ρ).payload (sendCell c k) 0 d)
    = rowPts c c (ssh k.val) (tbl m ρ) := by
  rw [Finset.sdiff_empty, duties_send, bigSep_singleton, payload_send]
theorem rest_recv (j : Fin 8) (h : j ≠ c) : bigSep ((rd (F := F) m ρ).duties (recvCell c j) 0 \ ∅) (fun d => (rd (F := F) m ρ).payload (recvCell c j) 0 d)
    = rowPts c j fullShare (tbl m ρ) := by
  rw [Finset.sdiff_empty, duties_recv m ρ c j h, bigSep_singleton, payload_recv]

end Sched

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- A positive entry of what is owed is at one of the cells the two sums name. -/
theorem owedOf_pos {c : Dev nD} {S₁ S₂ : Finset (Fin 7)} {g : GSem nD τ sig} {u : Unit} (h : 0 < owedOf c S₁ S₂ g u) :
    (∃ k ∈ S₁, g = recvCell (peer c k) c) ∨ (∃ k ∈ S₂, g = barCell (peer c k)) := by
  unfold owedOf at h
  rcases Pipeline.add_pos_cases h with h | h
  · obtain ⟨k, hk, hp⟩ := Pipeline.sum_pos_exists h
    rw [tallyAt_apply] at hp
    by_cases hg : g = recvCell (peer c k) c ∧ u = ()
    · exact .inl ⟨k, hk, hg.1⟩
    · rw [if_neg hg] at hp; exact absurd hp (Nat.lt_irrefl 0)
  · obtain ⟨k, hk, hp⟩ := Pipeline.sum_pos_exists h
    rw [tallyAt_apply] at hp
    by_cases hg : g = barCell (peer c k) ∧ u = ()
    · exact .inr ⟨k, hk, hg.1⟩
    · rw [if_neg hg] at hp; exact absurd hp (Nat.lt_irrefl 0)

theorem lv_recv (c j : Dev nD) (u : Unit) : lv (recvCell c j) u = 2 := by
  dsimp only [lv]; exact if_pos (by show 10 ≤ 10 + j.val; omega)
theorem lv_bar (c : Dev nD) (u : Unit) : lv (barCell c) u = 1 := rfl

/-- A wait on a staging semaphore (DMA semaphores 0 and 1, level 0), owing everything or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases owedOf_pos hg with ⟨k, _, rfl⟩ | ⟨k, _, rfl⟩ <;> exact Finset.mem_singleton_self _)
      (fun p hp => by rw [Finset.mem_singleton.mp hp]; dsimp only [lv]; rw [if_neg (by omega)])
      (fun g u hg => by
        rcases owedOf_pos hg with ⟨k, _, rfl⟩ | ⟨k, _, rfl⟩
        · rw [lv_recv]; decide
        · rw [lv_bar]; decide)
  · rw [MayWait_zero]; iintro -; iempintro

/-- At its barrier wait (level 1) a device owes its peers' receive cells only (level 2). -/
theorem mayWait_bar (c : Dev nD) :
    (levAts L lv : sProp 𝕄) ⊢ MayWait (c : Thread nD τ) (.reg barS) () (owedOf c Finset.univ ∅) :=
  MayOwe.of_cut (L := L) (lev := lv) 1 (fun p hp => by rw [Finset.mem_singleton.mp hp, L_tc]; exact Finset.mem_singleton_self _)
    (fun g u hg => by
      rcases owedOf_pos hg with ⟨k, _, rfl⟩ | ⟨k, hk, _⟩
      · exact Finset.mem_singleton_self _
      · exact absurd hk (Finset.notMem_empty k))
    (fun p hp => by rw [Finset.mem_singleton.mp hp]; exact le_of_eq (lv_bar c ()))
    (fun g u hg => by
      rcases owedOf_pos hg with ⟨k, _, rfl⟩ | ⟨k, hk, _⟩
      · rw [lv_recv]; decide
      · exact absurd hk (Finset.notMem_empty k))

/-! ## What is still owed after a payment -/

theorem owed_peel_bar (c : Dev nD) (S₁ S₂ : Finset (Fin 7)) (k : Fin 7) (hk : k ∈ S₂) :
    owedOf c S₁ S₂ = owedOf c S₁ (S₂.erase k) + tallyAt (barCell (peer c k)) () 1 := by
  unfold owedOf
  rw [← Finset.sum_erase_add S₂ _ hk, add_assoc]
theorem owed_peel_recv (c : Dev nD) (S₁ S₂ : Finset (Fin 7)) (k : Fin 7) (hk : k ∈ S₁) :
    owedOf c S₁ S₂ = owedOf c (S₁.erase k) S₂ + tallyAt (recvCell (peer c k) c) () N := by
  unfold owedOf
  rw [← Finset.sum_erase_add S₁ _ hk, add_right_comm]
theorem owedOf_empty (c : Dev nD) : owedOf c ∅ ∅ = 0 := by
  unfold owedOf; rw [Finset.sum_empty, Finset.sum_empty, add_zero]

end Cert.Kernel.AG

end
-- ==== Proof.Bits.Mem.lean ====
/-
  The table as eight rows, a row as shares; what a row holds after the store and after a landing.
-/
import proofs.«900913_g7700000000000914_dist_max_ax0_shard0_i_m1536_n768_v7x_i8_bf16_1_alg».proof.Proof.Bits.Proto
import Idealize.ShloMosaic.Lib.Pipeline.Value

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rows -/

/-- The zero offsets of a whole-buffer access. -/
theorem off00_eq : (![0, 0] : Fin 2 → Nat) = fun _ => 0 := funext fun a => by fin_cases a <;> rfl

/-- An element of the table lies in row r exactly when its first coordinate is r. -/
theorem mem_row (r : Fin 8) (i : S8x768.Idx) : i ∈ (rowM r).view.set ↔ (i 0).val = r.val := by
  have h : (rowM r).view.set = (rowRect r).set := View.set_slice_whole cc0_scratch0 (rowRect r)
  rw [h, Rect.mem_set_unit]
  constructor
  · intro h; have h0 := h 0
    simp only [Matrix.cons_val_zero] at h0
    have : S1x768.size 0 = 1 := rfl
    omega
  · intro h a
    fin_cases a
    · have : S1x768.size 0 = 1 := rfl
      simp only [Matrix.cons_val_zero, Fin.zero_eta]
      omega
    · have h1 : (i 1).val < 768 := (i 1).isLt
      refine ⟨Nat.zero_le _, ?_⟩
      show (i 1).val < 0 + 768
      omega

/-- The whole table is its eight rows. -/
theorem gPts_rows (c : Dev nD) (f : Buf (Elt F) ((c : Thread nD τ).loc cc0_scratch0)) :
    gPts (F := F) c f = bigSep Finset.univ fun r : Fin 8 => rowPts c r fullShare f := by
  unfold gPts rowPts
  have hU : (Finset.univ : Finset (Idx ((c : Thread nD τ).loc cc0_scratch0)))
      = Finset.univ.biUnion (fun r : Fin 8 => (rowM r).view.set) := by
    ext i
    simp only [Finset.mem_univ, Finset.mem_biUnion, true_and, true_iff]
    exact ⟨⟨(i 0).val, (i 0).isLt⟩, (mem_row _ i).mpr rfl⟩
  rw [hU, pointsTo_biUnion]
  intro t _ t' _ hne
  rw [Finset.disjoint_left]; intro i hi hi'
  exact hne (Fin.ext (((mem_row t i).mp hi).symm.trans ((mem_row t' i).mp hi')))

/-- Contents off a row do not matter to the row. -/
theorem rowPts_congr (c : Dev nD) (r : Fin 8) (q : PosShare TreeShare) (f g : Buf (Elt F) ((c : Thread nD τ).loc cc0_scratch0))
    (h : ∀ i ∈ (rowM r).view.set, f i = g i) : rowPts (F := F) c r q f = rowPts c r q g := by
  unfold rowPts; exact pointsTo_congr h

/-- A row at share rsh n is its share ssh n and the rest rsh (n + 1). -/
theorem rowPts_share (c : Dev nD) (r : Fin 8) (n : ℕ) (f : Buf (Elt F) ((c : Thread nD τ).loc cc0_scratch0)) :
    (rowPts (F := F) c r (rsh n) f) ⊣⊢ iprop(rowPts c r (ssh n) f ∗ rowPts c r (rsh (n + 1)) f) := by
  unfold rowPts
  exact pointsTo_share (PosShare.mem_left_op_right (rsh n))

/-- A row's credit does not depend on the row. -/
theorem dmaCredit_row (r : Fin 8) : (rowM r).view.dmaCredit = N := rfl
theorem amount_row (r : Fin 8) (q : DmaSem sig) : (rowM r).view.amount (.dma q) = N := rfl

/-! ## What a row holds -/

/-- The elements a load or a store through the row's rectangle touches are the row's. -/
theorem load_row_sub (r : Fin 8) : gM.view.setOn (rowRect r).toLoadRect.set ⊆ (rowM r).view.set := by
  have h : (rowM r).view.set = (rowRect r).set.map gM.view.emb := View.set_slice _ _
  rw [h]; exact Finset.Subset.refl _
theorem store_row_sub (r : Fin 8) : (gM.access (rowRect r)).setOn Finset.univ ⊆ (rowM r).view.set := Finset.Subset.refl _

/-- After the store of a device's row of column maxima into row c, row c holds the gathered table's row c. -/
theorem store_row_eq (c : Dev nD) (f : Buf (Elt F) ((c : Thread nD τ).loc cc0_scratch0)) :
    ∀ i ∈ (rowM c).view.set, (gM.access (rowRect c)).write (Elt F) f (Tbl.rowOf (xstg m ρ c)) Finset.univ i = tbl m ρ i := by
  intro i hi
  obtain ⟨y, rfl⟩ := View.exists_emb_of_mem_set (rowM c).view hi
  show (rowM c).view.write (Elt F) f (Tbl.rowOf (xstg m ρ c)) Finset.univ ((rowM c).view.emb y) = _
  rw [View.write_emb_of_mem _ _ (Finset.mem_univ y)]
  have hc : (⟨((rowM c).view.emb y 0).val, ((rowM c).view.emb y 0).isLt⟩ : Dev nD) = c := by
    apply Fin.ext
    show c.val + 1 * (y 0).val = c.val
    have h0 : (y 0).val < 1 := (y 0).isLt
    omega
  have hy : ValueIdx.ix2 (0 : Fin 1) ((rowM c).view.emb y 1) = y := by
    funext a
    match a with
    | ⟨0, _⟩ => apply Fin.ext; show (0 : ℕ) = (y 0).val; have h0 : (y 0).val < 1 := (y 0).isLt; omega
    | ⟨1, _⟩ => apply Fin.ext; show 0 + 1 * (y 1).val = (y 1).val; omega
  show _ = Tbl.rowOf (xstg m ρ ⟨((rowM c).view.emb y 0).val, ((rowM c).view.emb y 0).isLt⟩) (ValueIdx.ix2 (0 : Fin 1) ((rowM c).view.emb y 1))
  rw [hc]
  exact (cast_eq _ _).trans (congrArg (Tbl.rowOf (xstg m ρ c)) hy.symm)

/-- A row landing on another device's table: the destination's row rewritten with the source's row is the source on that row. -/
theorem land_row_eq (r : Fin 8) (fd fs : (cc0_scratch0 : Ref sig .tc).ty.Contents (Elt F)) :
    ∀ i ∈ (rowM r).view.set, (rowM r).view.write (Elt F) fd ((rowM r).view.read (Elt F) fs) Finset.univ i = fs i := by
  intro i hi
  rw [View.write_read_eq_piecewise, View.setOn_univ, Finset.piecewise_eq_of_mem _ _ _ hi]

/-- What the loads read: the staged block whole, and the table whole. -/
theorem read_x (f : (cc0_stg0_0 : Ref sig .tc).ty.Contents (Elt F)) :
    xM.view.readAt (Elt F) (Rect.unit (s := S1536x768) ![0, 0] S1536x768.size inb_S1536x768_S1536x768_0_0).toLoadRect f = f := Memref.readAt_unit_zero (Elt F) cc0_stg0_0 off00_eq _ f
theorem read_g (f : (cc0_scratch0 : Ref sig .tc).ty.Contents (Elt F)) :
    gM.view.readAt (Elt F) (Rect.unit (s := S8x768) ![0, 0] S8x768.size inb_S8x768_S8x768_0_0).toLoadRect f = f := Memref.readAt_unit_zero (Elt F) cc0_scratch0 off00_eq _ f
theorem write_out (f w : (cc0_stg1_0 : Ref sig .tc).ty.Contents (Elt F)) :
    (oM.access (Rect.unit (s := S1x768) ![0, 0] S1x768.size inb_S1x768_S1x768_0_0)).write (Elt F) f w Finset.univ = w := Memref.write_access_unit_zero_univ (Elt F) cc0_stg1_0 off00_eq _ f w

end Cert.Kernel.AG

end
-- ==== Proof.Bits.Steps.lean ====
/-
  The protocol's steps at one offset of the ring: the signal, the barrier wait, the send, the two kinds of DMA wait, and the closing of a cell, each the rounds discipline's rule at our cells.
-/
import proofs.«900913_g7700000000000914_dist_max_ax0_shard0_i_m1536_n768_v7x_i8_bf16_1_alg».proof.Proof.Bits.Sched
import proofs.«900913_g7700000000000914_dist_max_ax0_shard0_i_m1536_n768_v7x_i8_bf16_1_alg».proof.Proof.Bits.Mem

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (c : Dev nD) (k : Fin 7)

/-- The signal to the barrier cell of the device k + 1 places after: its duty c, handing over row (that device) of
    c's table. -/
theorem wp_sig (n : Dev nD) (hn : n = peer c k) (S₁ S₂ : Finset (Fin 7)) (hk : k ∈ S₂) {κ : ℕ} {W : Waits sig Unit}
    {α : Type} {Q : α → sProp 𝕄} {kont : PUnit → Prog (TpuEff nD τ sig (Elt F) Λ₀ .tc) α} {amt : ℕ} (hamt : amt = 1) :
    iprop(cellInv ER (rd m ρ) κ (barCell (peer c k)) ∗ owes (c : Thread nD τ) (owedOf c S₁ S₂) W
        ∗ dutyTok ER (barCell (peer c k)) 0 c ∗ (∃ f, rowPts c (peer c k) fullShare f) ∗ reached ER (barCell (peer c k)) 0)
      ⊢ iprop((owes (c : Thread nD τ) (owedOf c S₁ (S₂.erase k)) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((n, Proc.tc) : Thread nD τ) barS amt) kont) Q) := by
  subst hn hamt
  rw [← payload_bar m ρ (peer c k) c]
  exact Rounds.wp_signal 𝒱₀ ER (rd m ρ) (c : Thread nD τ) none (dst := (peer c k : Thread nD τ)) (κ := κ) (d := c)
    (by rw [duties_bar]; exact Finset.mem_erase.mpr ⟨(peer_ne c k).symm, Finset.mem_univ _⟩)
    (amount_bar m ρ (peer c k) c) () (owedOf c S₁ (S₂.erase k)) (owed_peel_bar c S₁ S₂ k hk)

/-- The wait for seven on the device's own barrier cell, owing its peers' receive credit: the seven peers' rows c come with it. -/
theorem wp_bar_wait {κ : ℕ} {W : Waits sig Unit}
    {α : Type} {Q : α → sProp 𝕄} {kont : PUnit → Prog (TpuEff nD τ sig (Elt F) Λ₀ .tc) α} {amt : ℕ} (hamt : amt = 7) :
    iprop(cellInv ER (rd m ρ) κ (barCell c) ∗ cred (tallyAt (barCell c) () 7) ∗ owes (c : Thread nD τ) (owedOf c Finset.univ ∅) W
        ∗ levAts L lv ∗ atPos ER (barCell c) 0 ∅ 0)
      ⊢ iprop(((owes (c : Thread nD τ) (owedOf c Finset.univ ∅) (insert (SemLoc.reg barS, ()) W)
              ∗ atPos ER (barCell c) 1 ∅ 0
              ∗ bigSep Finset.univ fun k : Fin 7 => iprop(∃ f, rowPts (peer c k) c fullShare f))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS amt) kont) Q) := by
  subst hamt
  iintro ⟨HI, Hc, HO, Hlev, Hat⟩ Hk
  iapply (Rounds.wp_wait_rest_token 𝒱₀ ER (rd m ρ) (c : Thread nD τ) none (κ := κ)
      (wpE_semWait_eq 𝒱₀ (c : Thread nD τ) none Set.univ) (Set.mem_univ _) () (O := owedOf c Finset.univ ∅) (W := W) (R := 0) (m := 0) (T := ∅)
      (by rw [expect_bar])) $$ [HI Hc HO Hlev Hat]
  · isplitl [HI]; · iexact HI
    isplitl [Hc]; · iexact Hc
    isplitl [HO]; · iexact HO
    isplitl [Hlev]; · iapply (mayWait_bar c); iexact Hlev
    iexact Hat
  iintro ⟨HO, Hat, -, Hpay⟩
  iapply Hk
  isplitl [HO]; · iexact HO
  isplitl [Hat]; · iexact Hat
  iapply (Entails.of_eq (rest_bar m ρ c)); iexact Hpay

/-- The transfer of the device's row c into row c of the table of the device k + 1 places after, reading the share
    ssh k of the source. -/
theorem wp_send_row (n : Dev nD) (hn : n = peer c k)
    (src : Memref sig .tc .vmem S1x768 .f32) (hs : src = rowM c)
    (dst : Memref sig (Dev.tc n : Thread nD τ).2.kind .vmem S1x768 .f32) (hd : dst = rowM c)
    (sS sR : DmaSem sig) (hsS : sS = sendSem ⟨k.val + 1, by have := k.isLt; omega⟩) (hsR : sR = recvSem c)
    {hsc : dst.view.ref.isScScratch = false} {hsrc : src.view.WordExact} {hdst : dst.view.WordExact}
    {hsem : DmaTarget.Typed .vmem (.dma sR) (.remote (Dev.tc n : Thread nD τ) dst (.dma sS) hsc)}
    (S₁ : Finset (Fin 7)) (hk : k ∈ S₁) {κ₁ κ₂ : ℕ} {W : Waits sig Unit}
    {α : Type} {Q : α → sProp 𝕄} {kont : PUnit → Prog (TpuEff nD τ sig (Elt F) Λ₀ .tc) α}
    (fn : Buf (Elt F) ((peer c k : Thread nD τ).loc cc0_scratch0)) :
    iprop(cellInv ER (rd m ρ) κ₁ (sendCell c k) ∗ cellInv ER (rd m ρ) κ₂ (recvCell (peer c k) c)
        ∗ rowPts c c (ssh k.val) (tbl m ρ) ∗ rowPts (peer c k) c fullShare fn
        ∗ owes (c : Thread nD τ) (owedOf c S₁ ∅) W
        ∗ dutyTok ER (sendCell c k) 0 0 ∗ reached ER (sendCell c k) 0
        ∗ dutyTok ER (recvCell (peer c k) c) 0 0 ∗ reached ER (recvCell (peer c k) c) 0)
      ⊢ iprop(((cred (tallyAt (sendCell c k) () N) ∗ owes (c : Thread nD τ) (owedOf c (S₁.erase k) ∅) W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kont) Q) := by
  subst hn hs hd hsS hsR
  unfold rowPts
  exact Rounds.wp_send_pointsTo 𝒱₀ ER (rd m ρ) (c : Thread nD τ) none (c' := (peer c k : Thread nD τ)) (src := rowM c) (dst := rowM c)
    (q := ssh k.val) (fs := tbl m ρ) (fd := fn) (κ₁ := κ₁) (κ₂ := κ₂) (r₁ := 0) (r₂ := 0) (d₁ := 0) (d₂ := 0)
    (by rw [duties_send]; exact Finset.mem_singleton_self _)
    (by rw [duties_recv m ρ (peer c k) c (peer_ne c k).symm]; exact Finset.mem_singleton_self _)
    () () N (amount_row c _) (amount_send m ρ c k 0) (amount_recv m ρ (peer c k) c 0)
    (owedOf c (S₁.erase k) ∅) (owed_peel_recv c S₁ ∅ k hk) (W := W)
    (by rw [payload_send]; exact BI.Entails.refl _)
    (by rw [payload_recv]; exact Entails.of_eq (rowPts_congr (peer c k) c fullShare _ _ (land_row_eq c fn (tbl m ρ))))

/-- The wait on the receive cell of the row of the device k + 1 places after, owing nothing: that row of the table,
    holding the gathered row. -/
theorem wp_recv_wait (sR : DmaSem sig) (hsR : sR = recvSem (peer c k))
    (src dst : Memref sig .tc .vmem S1x768 .f32) (hd : dst = rowM (peer c k))
    {hsrc : src.view.WordExact} {hdst : dst.view.WordExact} {κ : ℕ} {W : Waits sig Unit}
    {α : Type} {Q : α → sProp 𝕄} {kont : PUnit → Prog (TpuEff nD τ sig (Elt F) Λ₀ .tc) α} :
    iprop(cellInv ER (rd m ρ) κ (recvCell c (peer c k)) ∗ cred (tallyAt (recvCell c (peer c k)) () N) ∗ owes (c : Thread nD τ) 0 W
        ∗ atPos ER (recvCell c (peer c k)) 0 ∅ 0)
      ⊢ iprop(((owes (c : Thread nD τ) 0 (insert (SemLoc.dma (recvSem (peer c k)), ()) W)
              ∗ atPos ER (recvCell c (peer c k)) 1 ∅ 0 ∗ rowPts c (peer c k) fullShare (tbl m ρ))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sR src dst hsrc hdst) kont) Q) := by
  subst hsR hd
  iintro ⟨HI, Hc, HO, Hat⟩ Hk
  iapply (Rounds.wp_wait_rest_token 𝒱₀ ER (rd m ρ) (c : Thread nD τ) none (κ := κ)
      (wpE_waitDma2_eq 𝒱₀ (c : Thread nD τ) none Set.univ) (Set.mem_univ _) () (O := 0) (W := W) (R := 0) (m := 0) (T := ∅)
      (by rw [Nat.zero_add, dmaCredit_row (peer c k), expect_recv m ρ c (peer c k) (peer_ne c k)])) $$ [HI Hc HO Hat]
  · isplitl [HI]; · iexact HI
    isplitl [Hc]; · rw [dmaCredit_row (peer c k)]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m ρ c (peer c k) (peer_ne c k))); iexact Hpay

/-- The wait on the send cell of offset k + 1, owing nothing: the share of the device's own row back. -/
theorem wp_send_wait (sS : DmaSem sig) (hsS : sS = sendSem ⟨k.val + 1, by have := k.isLt; omega⟩)
    (src dst : Memref sig .tc .vmem S1x768 .f32) (hd : dst = rowM c)
    {hsrc : src.view.WordExact} {hdst : dst.view.WordExact} {κ : ℕ} {W : Waits sig Unit}
    {α : Type} {Q : α → sProp 𝕄} {kont : PUnit → Prog (TpuEff nD τ sig (Elt F) Λ₀ .tc) α} :
    iprop(cellInv ER (rd m ρ) κ (sendCell c k) ∗ cred (tallyAt (sendCell c k) () N) ∗ owes (c : Thread nD τ) 0 W
        ∗ atPos ER (sendCell c k) 0 ∅ 0)
      ⊢ iprop(((owes (c : Thread nD τ) 0 (insert (SemLoc.dma (sendSem ⟨k.val + 1, by have := k.isLt; omega⟩), ()) W)
              ∗ atPos ER (sendCell c k) 1 ∅ 0 ∗ rowPts c c (ssh k.val) (tbl m ρ))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sS src dst hsrc hdst) kont) Q) := by
  subst hsS hd
  iintro ⟨HI, Hc, HO, Hat⟩ Hk
  iapply (Rounds.wp_wait_rest_token 𝒱₀ ER (rd m ρ) (c : Thread nD τ) none (κ := κ)
      (wpE_waitDma2_eq 𝒱₀ (c : Thread nD τ) none Set.univ) (Set.mem_univ _) () (O := 0) (W := W) (R := 0) (m := 0) (T := ∅)
      (by rw [Nat.zero_add, dmaCredit_row c, expect_send m ρ c k])) $$ [HI Hc HO Hat]
  · isplitl [HI]; · iexact HI
    isplitl [Hc]; · rw [dmaCredit_row c]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m ρ c k)); iexact Hpay

end Steps

/-! ## Closing the cells -/

/-- A cell with no duty from round R on, its owner at (R, ∅, 0): its counter is zero and the core's again. -/
theorem close_cell (g : GSem nD τ sig) (R : ℕ) (hR : ∀ r, R ≤ r → (rd (F := F) m ρ).duties g r = ∅) {κ : ℕ} :
    iprop(cellInv ER (rd m ρ) κ g ∗ atPos ER g R ∅ 0) ⊢ iprop(|={Set.univ}=> semVal g 0) := by
  exact Rounds.cell_close ER (rd m ρ) (Set.mem_univ κ) (fun h => h) hR

end Cert.Kernel.AG

end
-- ==== Proof.Bits.Closed.lean ====
/-
  The printed device and offset chains in closed form over the ring of eight; the printed semaphore and table-row expressions as the protocol's names.
-/
import proofs.«900913_g7700000000000914_dist_max_ax0_shard0_i_m1536_n768_v7x_i8_bf16_1_alg».proof.Proof.Bits.Proto

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices the signals and the transfers address -/

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 1 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 4 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 6 := by revert c; decide +kernel

/-! ## The table rows the body addresses -/

/-- The row the first store writes (and the load before it reads): the device's own. -/
theorem rect_off1 (c : Dev nD) : Rect.unit (s := S8x768) (k0_off1 c) S1x768.size (k0_off1_inb c) = rowRect c :=
  Rect.unit_congr (Gen.k0_off1_eq c) _ _
/-- The source and destination of the sends, and the views of the send waits: the device's own row. -/
theorem slice_off3 (c : Dev nD) : gM.slice (Rect.unit (s := S8x768) (k0_off3 c) S1x768.size (k0_off3_inb c)) (fun _ => rfl) = rowM c :=
  Memref.slice_unit_congr _ (Gen.k0_off3_eq c) _ _ _ fun _ => rfl
/-- The row the k-th receive wait addresses: that of the device k + 1 places after. -/
theorem k0_off5_eq (c : Dev nD) (k : Fin 7) : k0_off5 c (BitVec.ofNat 32 (1 + k.val)) = rowOff (peer c k) := by
  revert c k; decide +kernel
/-- The views of the receive waits: the row of the device k + 1 places after. -/
theorem slice_off5 (c : Dev nD) (k : Fin 7) :
    gM.slice (Rect.unit (s := S8x768) (k0_off5 c (BitVec.ofNat 32 (1 + k.val))) S1x768.size (k0_off5_inb c k)) (fun _ => rfl) = rowM (peer c k) :=
  Memref.slice_unit_congr _ (k0_off5_eq c k) _ _ _ fun _ => rfl

/-! ## The semaphores the body names -/

/-- Send semaphore i, as the body slices it out of its array at the literal i. -/
theorem sendSem_eq (i : Fin 8) (h : ∀ a, (![i.val] : Fin 1 → Nat) a + S1.size a ≤ S8.size a) :
    ((cc0_scratch1.slice (Rect.unit (s := S8) ![i.val] S1.size h)).squeeze S_ squeezes_S1_S_).sem = sendSem i := by
  revert i; decide +kernel
/-- The receive semaphore a send credits on its target: the sender's position. -/
theorem recvSem_off2 (c : Dev nD) :
    ((cc0_scratch2.slice (Rect.unit (s := S8) (k0_off2 c) S1.size (k0_off2_inb c))).squeeze S_ squeezes_S1_S_).sem = recvSem c := by
  revert c; decide +kernel
/-- The receive semaphore of the k-th receive wait: the position of the device k + 1 places after. -/
theorem recvSem_off4 (c : Dev nD) (k : Fin 7) :
    ((cc0_scratch2.slice (Rect.unit (s := S8) (k0_off4 c (BitVec.ofNat 32 (1 + k.val))) S1.size (k0_off4_inb c k))).squeeze S_ squeezes_S1_S_).sem
      = recvSem (peer c k) := by
  revert c k; decide +kernel

/-! ## A device's cells, regrouped -/

/-- The send cell the kernel never uses: send semaphore 0. -/
abbrev send0Cell (c : Dev nD) : GSem nD τ sig := ((c : Thread nD τ), .dma (sendSem 0))

/-- Where send cell k and receive cell j stand among a device's seventeen cells, -/
def sIdx (k : Fin 7) : Fin 17 := ⟨k.val + 2, by have := k.isLt; omega⟩
def rIdx (j : Fin 8) : Fin 17 := ⟨j.val + 9, by have := j.isLt; omega⟩
/-- and among its sixteen own semaphores. -/
def sIdx' (k : Fin 7) : Fin 16 := ⟨k.val + 1, by have := k.isLt; omega⟩
def rIdx' (j : Fin 8) : Fin 16 := ⟨j.val + 8, by have := j.isLt; omega⟩

theorem sendCell_kcell (c : Dev nD) (k : Fin 7) : sendCell c k = kcell (c, sIdx k) := by revert c k; decide +kernel
theorem recvCell_kcell (c : Dev nD) (j : Fin 8) : recvCell c j = kcell (c, rIdx j) := by revert c j; decide +kernel
theorem send0Cell_kcell (c : Dev nD) : send0Cell c = kcell (c, 1) := by revert c; decide +kernel
theorem sendCell_osem (c : Dev nD) (k : Fin 7) : sendCell c k = ((c : Thread nD τ), osem (sIdx' k)) := by
  revert c k; decide +kernel
theorem recvCell_osem (c : Dev nD) (j : Fin 8) : recvCell c j = ((c : Thread nD τ), osem (rIdx' j)) := by
  revert c j; decide +kernel
theorem send0Cell_osem (c : Dev nD) : send0Cell c = ((c : Thread nD τ), osem 0) := by revert c; decide +kernel

/-- A device's seventeen cells: its barrier cell, the two own cells it never uses, and per offset its send cell and
    the receive cell of the peer's row. -/
theorem bigSep_cells {M : Type} [URA M] (c : Dev nD) (Φ : GSem nD τ sig → sProp M) :
    (bigSep Finset.univ fun i : Fin 17 => Φ (kcell (c, i)))
      = iprop(Φ (barCell c) ∗ Φ (send0Cell c) ∗ Φ (recvCell c c) ∗ bigSep Finset.univ fun k : Fin 7 => iprop(Φ (sendCell c k) ∗ Φ (recvCell c (peer c k)))) := by
  have hsep : ∀ P Q : sProp M, iprop(P ∗ Q) = BI.sep P Q := fun _ _ => rfl
  rw [bigSep_univ_eq_bigSepL (I := Fin 7) [0, 1, 2, 3, 4, 5, 6] (by decide) (by decide),
    bigSep_univ_eq_bigSepL (I := Fin 17)
      [0, 1, rIdx c, sIdx 0, rIdx (peer c 0), sIdx 1, rIdx (peer c 1), sIdx 2, rIdx (peer c 2), sIdx 3, rIdx (peer c 3),
       sIdx 4, rIdx (peer c 4), sIdx 5, rIdx (peer c 5), sIdx 6, rIdx (peer c 6)]
      (by revert c; decide) (by revert c; decide),
    show barCell c = kcell (c, 0) from rfl]
  simp only [bigSepL_cons_cons, bigSepL_singleton, sendCell_kcell, recvCell_kcell, send0Cell_kcell, hsep]
  ac_rfl

/-- A device's sixteen own semaphores, likewise. -/
theorem bigSep_own {M : Type} [URA M] (c : Dev nD) (Φ : GSem nD τ sig → sProp M) :
    (bigSep Finset.univ fun i : Fin 16 => Φ ((c : Thread nD τ), osem i))
      = iprop(Φ (send0Cell c) ∗ Φ (recvCell c c) ∗ bigSep Finset.univ fun k : Fin 7 => iprop(Φ (sendCell c k) ∗ Φ (recvCell c (peer c k)))) := by
  have hsep : ∀ P Q : sProp M, iprop(P ∗ Q) = BI.sep P Q := fun _ _ => rfl
  rw [bigSep_univ_eq_bigSepL (I := Fin 7) [0, 1, 2, 3, 4, 5, 6] (by decide) (by decide),
    bigSep_univ_eq_bigSepL (I := Fin 16)
      [0, rIdx' c, sIdx' 0, rIdx' (peer c 0), sIdx' 1, rIdx' (peer c 1), sIdx' 2, rIdx' (peer c 2), sIdx' 3,
       rIdx' (peer c 3), sIdx' 4, rIdx' (peer c 4), sIdx' 5, rIdx' (peer c 5), sIdx' 6, rIdx' (peer c 6)]
      (by revert c; decide) (by revert c; decide)]
  simp only [bigSepL_cons_cons, bigSepL_singleton, sendCell_osem, recvCell_osem, send0Cell_osem, hsep]
  ac_rfl

/-- Seven things in a row. -/
theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The eight rows of a table: the device's own and its seven peers'. -/
theorem bigSep_rows {M : Type} [URA M] (c : Dev nD) (Φ : Fin 8 → sProp M) :
    bigSep Finset.univ Φ = iprop(Φ c ∗ bigSep Finset.univ fun k : Fin 7 => Φ (peer c k)) := by
  rw [bigSep_fin7, bigSep_univ_eq_bigSepL [c, peer c 0, peer c 1, peer c 2, peer c 3, peer c 4, peer c 5, peer c 6]
    (by revert c; decide) (by revert c; decide)]
  rfl

/-- The kcell names of a device's cells. -/
theorem barCell_eq (c : Dev nD) : barCell c = kcell (c, 0) := rfl
theorem sendCell_eq (c : Dev nD) (k : Fin 7) : sendCell c k = kcell (c, ⟨k.val + 2, by have := k.isLt; omega⟩) := by
  revert c k; decide +kernel
theorem recvCell_eq (c : Dev nD) (j : Fin 8) : recvCell c j = kcell (c, ⟨j.val + 9, by have := j.isLt; omega⟩) := by
  revert c j; decide +kernel
theorem send0Cell_eq (c : Dev nD) : send0Cell c = kcell (c, 1) := by
  revert c; decide +kernel

end Cert.Kernel.AG

end
-- ==== Proof.Bits.Body.lean ====
/-
  One device's body, stepped from the protocol's invariant: the body obligation of the pipeline's one point.
-/
import proofs.«900913_g7700000000000914_dist_max_ax0_shard0_i_m1536_n768_v7x_i8_bf16_1_alg».proof.Proof.Bits.Steps
import proofs.«900913_g7700000000000914_dist_max_ax0_shard0_i_m1536_n768_v7x_i8_bf16_1_alg».proof.Proof.Bits.Closed

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (K : Dev nD × Fin 17 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The records, cell by cell -/

theorem inv_at (ck : Dev nD × Fin 17) : records m ρ K ⊢ cellInv ER (rd m ρ) (K ck) (kcell ck) :=
  sep_elim_left.trans (bigSep_elim (Finset.mem_univ ck))
theorem reached_at (ck : Dev nD × Fin 17) : records m ρ K ⊢ reached ER (kcell ck) 0 :=
  sep_elim_right.trans (bigSep_elim (Finset.mem_univ ck))

theorem inv_send (c : Dev nD) (k : Fin 7) :
    records m ρ K ⊢ cellInv ER (rd m ρ) (K (c, sIdx k)) (sendCell c k) := by
  rw [sendCell_kcell c k]; exact inv_at m ρ K _
theorem inv_recv (c : Dev nD) (j : Fin 8) :
    records m ρ K ⊢ cellInv ER (rd m ρ) (K (c, rIdx j)) (recvCell c j) := by
  rw [recvCell_kcell c j]; exact inv_at m ρ K _
theorem inv_send0 (c : Dev nD) : records m ρ K ⊢ cellInv ER (rd m ρ) (K (c, 1)) (send0Cell c) := by
  rw [send0Cell_kcell c]; exact inv_at m ρ K _
theorem reached_send (c : Dev nD) (k : Fin 7) : records m ρ K ⊢ reached ER (sendCell c k) 0 := by
  rw [sendCell_kcell c k]; exact reached_at m ρ K _
theorem reached_recv (c : Dev nD) (j : Fin 8) : records m ρ K ⊢ reached ER (recvCell c j) 0 := by
  rw [recvCell_kcell c j]; exact reached_at m ρ K _

/-! ## The steps, from the records -/

theorem wp_sig' (c : Dev nD) (k : Fin 7) (n : Dev nD) (hn : n = peer c k) (S₁ S₂ : Finset (Fin 7)) (hk : k ∈ S₂) {W : Waits sig Unit}
    {α : Type} {Q : α → sProp 𝕄} {kont : PUnit → Prog (TpuEff nD τ sig (Elt F) Λ₀ .tc) α} {amt : ℕ} (hamt : amt = 1)
    (f : Buf (Elt F) ((c : Thread nD τ).loc cc0_scratch0)) :
    iprop(records m ρ K ∗ owes (c : Thread nD τ) (owedOf c S₁ S₂) W ∗ dutyTok ER (barCell (peer c k)) 0 c ∗ rowPts c (peer c k) fullShare f)
      ⊢ iprop((owes (c : Thread nD τ) (owedOf c S₁ (S₂.erase k)) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((n, Proc.tc) : Thread nD τ) barS amt) kont) Q) := by
  iintro ⟨#Hrec, HO, Ht, Hr⟩
  iapply (wp_sig m ρ c k n hn S₁ S₂ hk (κ := K (peer c k, 0)) hamt)
  isplitr; · iapply (inv_at m ρ K (peer c k, 0)); iexact Hrec
  isplitl [HO]; · iexact HO
  isplitl [Ht]; · iexact Ht
  isplitl [Hr]; · iexists f; iexact Hr
  iapply (reached_at m ρ K (peer c k, 0)); iexact Hrec

theorem wp_bar' (c : Dev nD) {W : Waits sig Unit}
    {α : Type} {Q : α → sProp 𝕄} {kont : PUnit → Prog (TpuEff nD τ sig (Elt F) Λ₀ .tc) α} {amt : ℕ} (hamt : amt = 7) :
    iprop(records m ρ K ∗ cred (tallyAt (barCell c) () 7) ∗ owes (c : Thread nD τ) (owedOf c Finset.univ ∅) W
        ∗ levAts L lv ∗ atPos ER (barCell c) 0 ∅ 0)
      ⊢ iprop(((owes (c : Thread nD τ) (owedOf c Finset.univ ∅) (insert (SemLoc.reg barS, ()) W)
              ∗ atPos ER (barCell c) 1 ∅ 0
              ∗ bigSep Finset.univ fun k : Fin 7 => iprop(∃ f, rowPts (peer c k) c fullShare f))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS amt) kont) Q) := by
  iintro ⟨#Hrec, Hc, HO, Hlev, Ha⟩
  iapply (wp_bar_wait m ρ c (κ := K (c, 0)) hamt)
  isplitr; · iapply (inv_at m ρ K (c, 0)); iexact Hrec
  isplitl [Hc]; · iexact Hc
  isplitl [HO]; · iexact HO
  isplitl [Hlev]; · iexact Hlev
  iexact Ha

theorem wp_send' (c : Dev nD) (k : Fin 7) (n : Dev nD) (hn : n = peer c k)
    (src : Memref sig .tc .vmem S1x768 .f32) (hs : src = rowM c)
    (dst : Memref sig (Dev.tc n : Thread nD τ).2.kind .vmem S1x768 .f32) (hd : dst = rowM c)
    (sS sR : DmaSem sig) (hsS : sS = sendSem ⟨k.val + 1, by have := k.isLt; omega⟩) (hsR : sR = recvSem c)
    {hsc : dst.view.ref.isScScratch = false} {hsrc : src.view.WordExact} {hdst : dst.view.WordExact}
    {hsem : DmaTarget.Typed .vmem (.dma sR) (.remote (Dev.tc n : Thread nD τ) dst (.dma sS) hsc)}
    (S₁ : Finset (Fin 7)) (hk : k ∈ S₁) {W : Waits sig Unit}
    {α : Type} {Q : α → sProp 𝕄} {kont : PUnit → Prog (TpuEff nD τ sig (Elt F) Λ₀ .tc) α}
    (fn : Buf (Elt F) ((peer c k : Thread nD τ).loc cc0_scratch0)) :
    iprop(records m ρ K ∗ rowPts c c (ssh k.val) (tbl m ρ) ∗ rowPts (peer c k) c fullShare fn
        ∗ owes (c : Thread nD τ) (owedOf c S₁ ∅) W
        ∗ dutyTok ER (sendCell c k) 0 0 ∗ dutyTok ER (recvCell (peer c k) c) 0 0)
      ⊢ iprop(((cred (tallyAt (sendCell c k) () N) ∗ owes (c : Thread nD τ) (owedOf c (S₁.erase k) ∅) W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kont) Q) := by
  iintro ⟨#Hrec, Hs, Hn, HO, HtS, HtR⟩
  iapply (wp_send_row m ρ c k n hn src hs dst hd sS sR hsS hsR S₁ hk (κ₁ := K (c, sIdx k))
    (κ₂ := K (peer c k, rIdx c)) fn)
  isplitr; · iapply (inv_send m ρ K c k); iexact Hrec
  isplitr; · iapply (inv_recv m ρ K (peer c k) c); iexact Hrec
  isplitl [Hs]; · iexact Hs
  isplitl [Hn]; · iexact Hn
  isplitl [HO]; · iexact HO
  isplitl [HtS]; · iexact HtS
  isplitr; · iapply (reached_send m ρ K c k); iexact Hrec
  isplitl [HtR]; · iexact HtR
  iapply (reached_recv m ρ K (peer c k) c); iexact Hrec

theorem wp_recvw' (c : Dev nD) (k : Fin 7) (sR : DmaSem sig) (hsR : sR = recvSem (peer c k))
    (src dst : Memref sig .tc .vmem S1x768 .f32) (hd : dst = rowM (peer c k))
    {hsrc : src.view.WordExact} {hdst : dst.view.WordExact} {W : Waits sig Unit}
    {α : Type} {Q : α → sProp 𝕄} {kont : PUnit → Prog (TpuEff nD τ sig (Elt F) Λ₀ .tc) α} :
    iprop(records m ρ K ∗ cred (tallyAt (recvCell c (peer c k)) () N) ∗ owes (c : Thread nD τ) 0 W
        ∗ atPos ER (recvCell c (peer c k)) 0 ∅ 0)
      ⊢ iprop(((owes (c : Thread nD τ) 0 (insert (SemLoc.dma (recvSem (peer c k)), ()) W)
              ∗ atPos ER (recvCell c (peer c k)) 1 ∅ 0 ∗ rowPts c (peer c k) fullShare (tbl m ρ))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sR src dst hsrc hdst) kont) Q) := by
  iintro ⟨#Hrec, Hc, HO, Ha⟩
  iapply (wp_recv_wait m ρ c k sR hsR src dst hd (κ := K (c, rIdx (peer c k))))
  isplitr; · iapply (inv_recv m ρ K c (peer c k)); iexact Hrec
  isplitl [Hc]; · iexact Hc
  isplitl [HO]; · iexact HO
  iexact Ha

theorem wp_sendw' (c : Dev nD) (k : Fin 7) (sS : DmaSem sig) (hsS : sS = sendSem ⟨k.val + 1, by have := k.isLt; omega⟩)
    (src dst : Memref sig .tc .vmem S1x768 .f32) (hd : dst = rowM c)
    {hsrc : src.view.WordExact} {hdst : dst.view.WordExact} {W : Waits sig Unit}
    {α : Type} {Q : α → sProp 𝕄} {kont : PUnit → Prog (TpuEff nD τ sig (Elt F) Λ₀ .tc) α} :
    iprop(records m ρ K ∗ cred (tallyAt (sendCell c k) () N) ∗ owes (c : Thread nD τ) 0 W
        ∗ atPos ER (sendCell c k) 0 ∅ 0)
      ⊢ iprop(((owes (c : Thread nD τ) 0 (insert (SemLoc.dma (sendSem ⟨k.val + 1, by have := k.isLt; omega⟩), ()) W)
              ∗ atPos ER (sendCell c k) 1 ∅ 0 ∗ rowPts c c (ssh k.val) (tbl m ρ))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sS src dst hsrc hdst) kont) Q) := by
  iintro ⟨#Hrec, Hc, HO, Ha⟩
  iapply (wp_send_wait m ρ c k sS hsS src dst hd (κ := K (c, sIdx k)))
  isplitr; · iapply (inv_send m ρ K c k); iexact Hrec
  isplitl [Hc]; · iexact Hc
  isplitl [HO]; · iexact HO
  iexact Ha

theorem close_send (c : Dev nD) (k : Fin 7) :
    iprop(records m ρ K ∗ atPos ER (sendCell c k) 1 ∅ 0) ⊢ iprop(|={Set.univ}=> semVal (sendCell c k) 0) := by
  iintro ⟨#Hrec, Ha⟩
  iapply (close_cell m ρ (sendCell c k) 1 (duties_later m ρ _) (κ := K (c, sIdx k)))
  isplitr; · iapply (inv_send m ρ K c k); iexact Hrec
  iexact Ha
theorem close_recv (c : Dev nD) (j : Fin 8) (R : ℕ) (hR : ∀ r, R ≤ r → (rd (F := F) m ρ).duties (recvCell c j) r = ∅) :
    iprop(records m ρ K ∗ atPos ER (recvCell c j) R ∅ 0) ⊢ iprop(|={Set.univ}=> semVal (recvCell c j) 0) := by
  iintro ⟨#Hrec, Ha⟩
  iapply (close_cell m ρ (recvCell c j) R hR (κ := K (c, rIdx j)))
  isplitr; · iapply (inv_recv m ρ K c j); iexact Hrec
  iexact Ha
theorem close_send0 (c : Dev nD) :
    iprop(records m ρ K ∗ atPos ER (send0Cell c) 0 ∅ 0) ⊢ iprop(|={Set.univ}=> semVal (send0Cell c) 0) := by
  iintro ⟨#Hrec, Ha⟩
  iapply (close_cell m ρ (send0Cell c) 0 (fun r _ => duties_send0 m ρ c r) (κ := K (c, 1)))
  isplitr; · iapply (inv_send0 m ρ K c); iexact Hrec
  iexact Ha

/-! ## The accesses of the own row, at the printed rectangle -/

omit [FloatOps F] in
theorem load_own_sub (c : Dev nD) (off : Fin 2 → Nat) (hoff : off = rowOff c) (p : ∀ a, off a + S1x768.size a ≤ S8x768.size a) :
    gM.view.setOn (Rect.unit (s := S8x768) off S1x768.size p).toLoadRect.set ⊆ (rowM c).view.set := by
  subst hoff; exact load_row_sub c
omit [FloatOps F] in
theorem store_own_sub (c : Dev nD) (off : Fin 2 → Nat) (hoff : off = rowOff c) (p : ∀ a, off a + S1x768.size a ≤ S8x768.size a) :
    (gM.access (Rect.unit (s := S8x768) off S1x768.size p)).setOn Finset.univ ⊆ (rowM c).view.set := by
  subst hoff; exact store_row_sub c
theorem store_own_eq (c : Dev nD) (off : Fin 2 → Nat) (hoff : off = rowOff c) (p : ∀ a, off a + S1x768.size a ≤ S8x768.size a)
    (f : Buf (Elt F) ((c : Thread nD τ).loc cc0_scratch0)) :
    ∀ i ∈ (rowM c).view.set, (gM.access (Rect.unit (s := S8x768) off S1x768.size p)).write (Elt F) f (Tbl.rowOf (xstg m ρ c)) Finset.univ i = tbl m ρ i := by
  subst hoff; exact store_row_eq m ρ c f

/-- A row at the n-th rest share is its n-th send share and the next rest share. -/
theorem row_share (c : Dev nD) (r : Fin 8) (n n' : ℕ) (h : n' = n + 1) (f : Buf (Elt F) ((c : Thread nD τ).loc cc0_scratch0)) :
    (rowPts (F := F) c r (rsh n) f) ⊣⊢ iprop(rowPts c r (ssh n) f ∗ rowPts c r (rsh n') f) := by
  subst h; exact rowPts_share c r n f
theorem row_full (c : Dev nD) (r : Fin 8) (f : Buf (Elt F) ((c : Thread nD τ).loc cc0_scratch0)) :
    (rowPts (F := F) c r fullShare f) = rowPts c r (rsh 0) f := rfl

/-- Owing nothing, whatever waits were recorded: what the point hands on. -/
theorem owes_done (c : Dev nD) (W' : Waits sig Unit) :
    (owes (c : Thread nD τ) 0 W' : sProp 𝕄) ⊢ (dats m ρ 0 c).owesAt () t₀.succ := by
  unfold Dat.owesAt Pipeline.owesWithin
  rw [show (dats m ρ 0 c).owed t₀.succ = 0 from rfl]
  iintro H
  iexists W'
  isplitr; · ipureintro; exact fun _ _ => Or.inl trivial
  iexact H

/-! ## The body -/

def bodyPre (c : Dev nD) : sProp 𝕄 :=
  iprop((ghost m ρ K c ∗ cred (tallyAt (barCell c) () 7)
      ∗ (bigSep Finset.univ fun k : Fin 7 => cred (tallyAt (recvCell c (peer c k)) () N)) ∗ levAts L lv ∗ ∃ f, gPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ))

set_option maxHeartbeats 6400000 in
set_option maxRecDepth 65536 in
/-- The body from bodyPre, one rule per effect in program order, to bodyPost: the seven signals, the own row computed
    and stored, the barrier wait, the seven sends, the seven landings, the seven sends read, the cells closed, the
    table reduced. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  unfold bodyPre ghost linear
  iintro ⟨⟨⟨⟨#Hrec, Hat, Htok⟩, HcB, HcR, #Hlev, ⟨%f0, Hg⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  -- the positions, the tokens and the credit, offset by offset
  ihave Hat' := (Entails.of_eq (bigSep_cells c (fun g => (atPos ER g 0 ∅ 0 : sProp 𝕄)))) $$ Hat
  icases Hat' with ⟨HaB, Ha0, HaC, Hats⟩
  ihave Hats' := (Entails.of_eq (bigSep_fin7 (fun k : Fin 7 => iprop((atPos ER (sendCell c k) 0 ∅ 0 : sProp 𝕄) ∗ atPos ER (recvCell c (peer c k)) 0 ∅ 0)))) $$ Hats
  icases Hats' with ⟨⟨HaS0, HaR0⟩, ⟨HaS1, HaR1⟩, ⟨HaS2, HaR2⟩, ⟨HaS3, HaR3⟩, ⟨HaS4, HaR4⟩, ⟨HaS5, HaR5⟩, ⟨HaS6, HaR6⟩⟩
  ihave Htok' := (Entails.of_eq (bigSep_fin7 (fun k : Fin 7 => (payTok c k : sProp 𝕄)))) $$ Htok
  unfold payTok
  icases Htok' with ⟨⟨HtB0, HtR0, HtS0⟩, ⟨HtB1, HtR1, HtS1⟩, ⟨HtB2, HtR2, HtS2⟩, ⟨HtB3, HtR3, HtS3⟩, ⟨HtB4, HtR4, HtS4⟩, ⟨HtB5, HtR5, HtS5⟩, ⟨HtB6, HtR6, HtS6⟩⟩
  ihave HcR' := (Entails.of_eq (bigSep_fin7 (fun k : Fin 7 => (cred (tallyAt (recvCell c (peer c k)) () N) : sProp 𝕄)))) $$ HcR
  icases HcR' with ⟨HcR0, HcR1, HcR2, HcR3, HcR4, HcR5, HcR6⟩
  -- the table, row by row: the own row and the seven rows the peers will write
  ihave Hrows := (Entails.of_eq (gPts_rows (F := F) c f0)) $$ Hg
  ihave Hrows' := (Entails.of_eq (bigSep_rows c (fun r : Fin 8 => (rowPts c r fullShare f0 : sProp 𝕄)))) $$ Hrows
  icases Hrows' with ⟨Hrc, Hrp⟩
  ihave Hrp' := (Entails.of_eq (bigSep_fin7 (fun k : Fin 7 => (rowPts c (peer c k) fullShare f0 : sProp 𝕄)))) $$ Hrp
  icases Hrp' with ⟨Hr0, Hr1, Hr2, Hr3, Hr4, Hr5, Hr6⟩
  -- the signal to the device 1 place after: row (that device) of this device's table goes with it
  iapply (wp_sig' m ρ K c 0 _ (dev1_eq c) Finset.univ (Finset.univ : Finset (Fin 7)) (by decide) (by decide) f0) $$ [HO HtB0 Hr0]
  · isplitr; · iexact Hrec
    isplitl [HO]; · iexact HO
    isplitl [HtB0]; · iexact HtB0
    iexact Hr0
  iintro HO
  -- the signal to the device 2 places after: row (that device) of this device's table goes with it
  iapply (wp_sig' m ρ K c 1 _ (dev2_eq c) Finset.univ ((Finset.univ : Finset (Fin 7)).erase 0) (by decide) (by decide) f0) $$ [HO HtB1 Hr1]
  · isplitr; · iexact Hrec
    isplitl [HO]; · iexact HO
    isplitl [HtB1]; · iexact HtB1
    iexact Hr1
  iintro HO
  -- the signal to the device 3 places after: row (that device) of this device's table goes with it
  iapply (wp_sig' m ρ K c 2 _ (dev3_eq c) Finset.univ (((Finset.univ : Finset (Fin 7)).erase 0).erase 1) (by decide) (by decide) f0) $$ [HO HtB2 Hr2]
  · isplitr; · iexact Hrec
    isplitl [HO]; · iexact HO
    isplitl [HtB2]; · iexact HtB2
    iexact Hr2
  iintro HO
  -- the signal to the device 4 places after: row (that device) of this device's table goes with it
  iapply (wp_sig' m ρ K c 3 _ (dev4_eq c) Finset.univ ((((Finset.univ : Finset (Fin 7)).erase 0).erase 1).erase 2) (by decide) (by decide) f0) $$ [HO HtB3 Hr3]
  · isplitr; · iexact Hrec
    isplitl [HO]; · iexact HO
    isplitl [HtB3]; · iexact HtB3
    iexact Hr3
  iintro HO
  -- the signal to the device 5 places after: row (that device) of this device's table goes with it
  iapply (wp_sig' m ρ K c 4 _ (dev5_eq c) Finset.univ (((((Finset.univ : Finset (Fin 7)).erase 0).erase 1).erase 2).erase 3) (by decide) (by decide) f0) $$ [HO HtB4 Hr4]
  · isplitr; · iexact Hrec
    isplitl [HO]; · iexact HO
    isplitl [HtB4]; · iexact HtB4
    iexact Hr4
  iintro HO
  -- the signal to the device 6 places after: row (that device) of this device's table goes with it
  iapply (wp_sig' m ρ K c 5 _ (dev6_eq c) Finset.univ ((((((Finset.univ : Finset (Fin 7)).erase 0).erase 1).erase 2).erase 3).erase 4) (by decide) (by decide) f0) $$ [HO HtB5 Hr5]
  · isplitr; · iexact Hrec
    isplitl [HO]; · iexact HO
    isplitl [HtB5]; · iexact HtB5
    iexact Hr5
  iintro HO
  -- the signal to the device 7 places after: row (that device) of this device's table goes with it
  iapply (wp_sig' m ρ K c 6 _ (dev7_eq c) Finset.univ (((((((Finset.univ : Finset (Fin 7)).erase 0).erase 1).erase 2).erase 3).erase 4).erase 5) (by decide) (by decide) f0) $$ [HO HtB6 Hr6]
  · isplitr; · iexact Hrec
    isplitl [HO]; · iexact HO
    isplitl [HtB6]; · iexact HtB6
    iexact Hr6
  iintro HO
  rw [show ((((((((Finset.univ : Finset (Fin 7)).erase 0).erase 1).erase 2).erase 3).erase 4).erase 5).erase 6) = (∅ : Finset (Fin 7)) from by decide]
  -- the block, and the own row of column maxima stored
  iapply (wp_load 𝒱₀ (c : Thread nD τ) none Set.univ (m := xM) (Finset.subset_univ _)) $$ Hx; iintro Hx
  rw [read_x]
  ihave Hrw := (Entails.of_eq (show (rowPts c c fullShare f0 : sProp 𝕄) = (gM.view.loc (c : Thread nD τ) ↦[(rowM c).view.set]{fullShare} f0) from rfl)) $$ Hrc
  iapply (wp_load 𝒱₀ (c : Thread nD τ) none Set.univ (m := gM) (load_own_sub c _ (k0_off1_eq c) _)) $$ Hrw; iintro Hrw
  iapply (wp_store 𝒱₀ (c : Thread nD τ) none Set.univ (m := gM) (r := Rect.unit (s := S8x768) (k0_off1 c) S1x768.size (k0_off1_inb c)) (Mk := Finset.univ) (S := (rowM c).view.set) (f := f0) (store_own_sub c _ (k0_off1_eq c) _)) $$ Hrw; iintro Hrw
  ihave Hrf := (Entails.of_eq (rowPts_congr (F := F) c c fullShare ((gM.access (Rect.unit (s := S8x768) (k0_off1 c) S1x768.size (k0_off1_inb c))).write (Elt F) f0 (Tbl.rowOf (xstg m ρ c)) Finset.univ) (tbl m ρ) (store_own_eq m ρ c _ (k0_off1_eq c) _ f0))) $$ [Hrw]
  · unfold rowPts; iexact Hrw
  -- the wait for the seven peers: their rows c come with it
  iapply (wp_bar' m ρ K c (by decide)) $$ [HcB HO HaB]
  · isplitr; · iexact Hrec
    isplitl [HcB]; · iexact HcB
    isplitl [HO]; · iexact HO
    isplitr; · iexact Hlev
    iexact HaB
  iintro ⟨HO, HaB, Hpay⟩
  ihave Hpay' := (Entails.of_eq (bigSep_fin7 (fun k : Fin 7 => iprop(∃ f, (rowPts (peer c k) c fullShare f : sProp 𝕄))))) $$ Hpay
  icases Hpay' with ⟨⟨%fn0, Hn0⟩, ⟨%fn1, Hn1⟩, ⟨%fn2, Hn2⟩, ⟨%fn3, Hn3⟩, ⟨%fn4, Hn4⟩, ⟨%fn5, Hn5⟩, ⟨%fn6, Hn6⟩⟩
  -- the own row in seven shares and a rest
  ihave Hrem := (Entails.of_eq (row_full (F := F) c c (tbl m ρ))) $$ Hrf
  ihave Hsp0 := (row_share (F := F) c c 0 1 rfl (tbl m ρ)).1 $$ Hrem
  icases Hsp0 with ⟨Hs0, Hrm1⟩
  ihave Hsp1 := (row_share (F := F) c c 1 2 rfl (tbl m ρ)).1 $$ Hrm1
  icases Hsp1 with ⟨Hs1, Hrm2⟩
  ihave Hsp2 := (row_share (F := F) c c 2 3 rfl (tbl m ρ)).1 $$ Hrm2
  icases Hsp2 with ⟨Hs2, Hrm3⟩
  ihave Hsp3 := (row_share (F := F) c c 3 4 rfl (tbl m ρ)).1 $$ Hrm3
  icases Hsp3 with ⟨Hs3, Hrm4⟩
  ihave Hsp4 := (row_share (F := F) c c 4 5 rfl (tbl m ρ)).1 $$ Hrm4
  icases Hsp4 with ⟨Hs4, Hrm5⟩
  ihave Hsp5 := (row_share (F := F) c c 5 6 rfl (tbl m ρ)).1 $$ Hrm5
  icases Hsp5 with ⟨Hs5, Hrm6⟩
  ihave Hsp6 := (row_share (F := F) c c 6 7 rfl (tbl m ρ)).1 $$ Hrm6
  icases Hsp6 with ⟨Hs6, Hrm7⟩
  -- the transfer to the device 1 place after, reading share 0 of the own row
  iapply (wp_send' m ρ K c 0 _ (dev8_eq c) _ (slice_off3 c) _ (slice_off3 c) _ _ (sendSem_eq 1 _) (recvSem_off2 c) (Finset.univ : Finset (Fin 7)) (by decide) fn0) $$ [Hs0 Hn0 HO HtS0 HtR0]
  · isplitr; · iexact Hrec
    isplitl [Hs0]; · iexact Hs0
    isplitl [Hn0]; · iexact Hn0
    isplitl [HO]; · iexact HO
    isplitl [HtS0]; · iexact HtS0
    iexact HtR0
  iintro ⟨HcS0, HO⟩
  -- the transfer to the device 2 places after, reading share 1 of the own row
  iapply (wp_send' m ρ K c 1 _ (dev9_eq c) _ (slice_off3 c) _ (slice_off3 c) _ _ (sendSem_eq 2 _) (recvSem_off2 c) ((Finset.univ : Finset (Fin 7)).erase 0) (by decide) fn1) $$ [Hs1 Hn1 HO HtS1 HtR1]
  · isplitr; · iexact Hrec
    isplitl [Hs1]; · iexact Hs1
    isplitl [Hn1]; · iexact Hn1
    isplitl [HO]; · iexact HO
    isplitl [HtS1]; · iexact HtS1
    iexact HtR1
  iintro ⟨HcS1, HO⟩
  -- the transfer to the device 3 places after, reading share 2 of the own row
  iapply (wp_send' m ρ K c 2 _ (dev10_eq c) _ (slice_off3 c) _ (slice_off3 c) _ _ (sendSem_eq 3 _) (recvSem_off2 c) (((Finset.univ : Finset (Fin 7)).erase 0).erase 1) (by decide) fn2) $$ [Hs2 Hn2 HO HtS2 HtR2]
  · isplitr; · iexact Hrec
    isplitl [Hs2]; · iexact Hs2
    isplitl [Hn2]; · iexact Hn2
    isplitl [HO]; · iexact HO
    isplitl [HtS2]; · iexact HtS2
    iexact HtR2
  iintro ⟨HcS2, HO⟩
  -- the transfer to the device 4 places after, reading share 3 of the own row
  iapply (wp_send' m ρ K c 3 _ (dev11_eq c) _ (slice_off3 c) _ (slice_off3 c) _ _ (sendSem_eq 4 _) (recvSem_off2 c) ((((Finset.univ : Finset (Fin 7)).erase 0).erase 1).erase 2) (by decide) fn3) $$ [Hs3 Hn3 HO HtS3 HtR3]
  · isplitr; · iexact Hrec
    isplitl [Hs3]; · iexact Hs3
    isplitl [Hn3]; · iexact Hn3
    isplitl [HO]; · iexact HO
    isplitl [HtS3]; · iexact HtS3
    iexact HtR3
  iintro ⟨HcS3, HO⟩
  -- the transfer to the device 5 places after, reading share 4 of the own row
  iapply (wp_send' m ρ K c 4 _ (dev12_eq c) _ (slice_off3 c) _ (slice_off3 c) _ _ (sendSem_eq 5 _) (recvSem_off2 c) (((((Finset.univ : Finset (Fin 7)).erase 0).erase 1).erase 2).erase 3) (by decide) fn4) $$ [Hs4 Hn4 HO HtS4 HtR4]
  · isplitr; · iexact Hrec
    isplitl [Hs4]; · iexact Hs4
    isplitl [Hn4]; · iexact Hn4
    isplitl [HO]; · iexact HO
    isplitl [HtS4]; · iexact HtS4
    iexact HtR4
  iintro ⟨HcS4, HO⟩
  -- the transfer to the device 6 places after, reading share 5 of the own row
  iapply (wp_send' m ρ K c 5 _ (dev13_eq c) _ (slice_off3 c) _ (slice_off3 c) _ _ (sendSem_eq 6 _) (recvSem_off2 c) ((((((Finset.univ : Finset (Fin 7)).erase 0).erase 1).erase 2).erase 3).erase 4) (by decide) fn5) $$ [Hs5 Hn5 HO HtS5 HtR5]
  · isplitr; · iexact Hrec
    isplitl [Hs5]; · iexact Hs5
    isplitl [Hn5]; · iexact Hn5
    isplitl [HO]; · iexact HO
    isplitl [HtS5]; · iexact HtS5
    iexact HtR5
  iintro ⟨HcS5, HO⟩
  -- the transfer to the device 7 places after, reading share 6 of the own row
  iapply (wp_send' m ρ K c 6 _ (dev14_eq c) _ (slice_off3 c) _ (slice_off3 c) _ _ (sendSem_eq 7 _) (recvSem_off2 c) (((((((Finset.univ : Finset (Fin 7)).erase 0).erase 1).erase 2).erase 3).erase 4).erase 5) (by decide) fn6) $$ [Hs6 Hn6 HO HtS6 HtR6]
  · isplitr; · iexact Hrec
    isplitl [Hs6]; · iexact Hs6
    isplitl [Hn6]; · iexact Hn6
    isplitl [HO]; · iexact HO
    isplitl [HtS6]; · iexact HtS6
    iexact HtR6
  iintro ⟨HcS6, HO⟩
  rw [show ((((((((Finset.univ : Finset (Fin 7)).erase 0).erase 1).erase 2).erase 3).erase 4).erase 5).erase 6) = (∅ : Finset (Fin 7)) from by decide, owedOf_empty]
  -- the landing of the row of the device 1 place after
  iapply (wp_recvw' m ρ K c 0 _ (recvSem_off4 c 0) _ _ (slice_off5 c 0)) $$ [HcR0 HO HaR0]
  · isplitr; · iexact Hrec
    isplitl [HcR0]; · iexact HcR0
    isplitl [HO]; · iexact HO
    iexact HaR0
  iintro ⟨HO, HaR0, Hl0⟩
  -- the landing of the row of the device 2 places after
  iapply (wp_recvw' m ρ K c 1 _ (recvSem_off4 c 1) _ _ (slice_off5 c 1)) $$ [HcR1 HO HaR1]
  · isplitr; · iexact Hrec
    isplitl [HcR1]; · iexact HcR1
    isplitl [HO]; · iexact HO
    iexact HaR1
  iintro ⟨HO, HaR1, Hl1⟩
  -- the landing of the row of the device 3 places after
  iapply (wp_recvw' m ρ K c 2 _ (recvSem_off4 c 2) _ _ (slice_off5 c 2)) $$ [HcR2 HO HaR2]
  · isplitr; · iexact Hrec
    isplitl [HcR2]; · iexact HcR2
    isplitl [HO]; · iexact HO
    iexact HaR2
  iintro ⟨HO, HaR2, Hl2⟩
  -- the landing of the row of the device 4 places after
  iapply (wp_recvw' m ρ K c 3 _ (recvSem_off4 c 3) _ _ (slice_off5 c 3)) $$ [HcR3 HO HaR3]
  · isplitr; · iexact Hrec
    isplitl [HcR3]; · iexact HcR3
    isplitl [HO]; · iexact HO
    iexact HaR3
  iintro ⟨HO, HaR3, Hl3⟩
  -- the landing of the row of the device 5 places after
  iapply (wp_recvw' m ρ K c 4 _ (recvSem_off4 c 4) _ _ (slice_off5 c 4)) $$ [HcR4 HO HaR4]
  · isplitr; · iexact Hrec
    isplitl [HcR4]; · iexact HcR4
    isplitl [HO]; · iexact HO
    iexact HaR4
  iintro ⟨HO, HaR4, Hl4⟩
  -- the landing of the row of the device 6 places after
  iapply (wp_recvw' m ρ K c 5 _ (recvSem_off4 c 5) _ _ (slice_off5 c 5)) $$ [HcR5 HO HaR5]
  · isplitr; · iexact Hrec
    isplitl [HcR5]; · iexact HcR5
    isplitl [HO]; · iexact HO
    iexact HaR5
  iintro ⟨HO, HaR5, Hl5⟩
  -- the landing of the row of the device 7 places after
  iapply (wp_recvw' m ρ K c 6 _ (recvSem_off4 c 6) _ _ (slice_off5 c 6)) $$ [HcR6 HO HaR6]
  · isplitr; · iexact Hrec
    isplitl [HcR6]; · iexact HcR6
    isplitl [HO]; · iexact HO
    iexact HaR6
  iintro ⟨HO, HaR6, Hl6⟩
  -- the send of offset 1 has read its source: its share of the own row comes back
  iapply (wp_sendw' m ρ K c 0 _ (sendSem_eq 1 _) _ _ (slice_off3 c)) $$ [HcS0 HO HaS0]
  · isplitr; · iexact Hrec
    isplitl [HcS0]; · iexact HcS0
    isplitl [HO]; · iexact HO
    iexact HaS0
  iintro ⟨HO, HaS0, Hs0⟩
  -- the send of offset 2 has read its source: its share of the own row comes back
  iapply (wp_sendw' m ρ K c 1 _ (sendSem_eq 2 _) _ _ (slice_off3 c)) $$ [HcS1 HO HaS1]
  · isplitr; · iexact Hrec
    isplitl [HcS1]; · iexact HcS1
    isplitl [HO]; · iexact HO
    iexact HaS1
  iintro ⟨HO, HaS1, Hs1⟩
  -- the send of offset 3 has read its source: its share of the own row comes back
  iapply (wp_sendw' m ρ K c 2 _ (sendSem_eq 3 _) _ _ (slice_off3 c)) $$ [HcS2 HO HaS2]
  · isplitr; · iexact Hrec
    isplitl [HcS2]; · iexact HcS2
    isplitl [HO]; · iexact HO
    iexact HaS2
  iintro ⟨HO, HaS2, Hs2⟩
  -- the send of offset 4 has read its source: its share of the own row comes back
  iapply (wp_sendw' m ρ K c 3 _ (sendSem_eq 4 _) _ _ (slice_off3 c)) $$ [HcS3 HO HaS3]
  · isplitr; · iexact Hrec
    isplitl [HcS3]; · iexact HcS3
    isplitl [HO]; · iexact HO
    iexact HaS3
  iintro ⟨HO, HaS3, Hs3⟩
  -- the send of offset 5 has read its source: its share of the own row comes back
  iapply (wp_sendw' m ρ K c 4 _ (sendSem_eq 5 _) _ _ (slice_off3 c)) $$ [HcS4 HO HaS4]
  · isplitr; · iexact Hrec
    isplitl [HcS4]; · iexact HcS4
    isplitl [HO]; · iexact HO
    iexact HaS4
  iintro ⟨HO, HaS4, Hs4⟩
  -- the send of offset 6 has read its source: its share of the own row comes back
  iapply (wp_sendw' m ρ K c 5 _ (sendSem_eq 6 _) _ _ (slice_off3 c)) $$ [HcS5 HO HaS5]
  · isplitr; · iexact Hrec
    isplitl [HcS5]; · iexact HcS5
    isplitl [HO]; · iexact HO
    iexact HaS5
  iintro ⟨HO, HaS5, Hs5⟩
  -- the send of offset 7 has read its source: its share of the own row comes back
  iapply (wp_sendw' m ρ K c 6 _ (sendSem_eq 7 _) _ _ (slice_off3 c)) $$ [HcS6 HO HaS6]
  · isplitr; · iexact Hrec
    isplitl [HcS6]; · iexact HcS6
    isplitl [HO]; · iexact HO
    iexact HaS6
  iintro ⟨HO, HaS6, Hs6⟩
  -- the own row whole again, the table whole again
  ihave Hj6 := (row_share (F := F) c c 6 7 rfl (tbl m ρ)).2 $$ [Hs6 Hrm7]
  · isplitl [Hs6]; · iexact Hs6
    iexact Hrm7
  ihave Hj5 := (row_share (F := F) c c 5 6 rfl (tbl m ρ)).2 $$ [Hs5 Hj6]
  · isplitl [Hs5]; · iexact Hs5
    iexact Hj6
  ihave Hj4 := (row_share (F := F) c c 4 5 rfl (tbl m ρ)).2 $$ [Hs4 Hj5]
  · isplitl [Hs4]; · iexact Hs4
    iexact Hj5
  ihave Hj3 := (row_share (F := F) c c 3 4 rfl (tbl m ρ)).2 $$ [Hs3 Hj4]
  · isplitl [Hs3]; · iexact Hs3
    iexact Hj4
  ihave Hj2 := (row_share (F := F) c c 2 3 rfl (tbl m ρ)).2 $$ [Hs2 Hj3]
  · isplitl [Hs2]; · iexact Hs2
    iexact Hj3
  ihave Hj1 := (row_share (F := F) c c 1 2 rfl (tbl m ρ)).2 $$ [Hs1 Hj2]
  · isplitl [Hs1]; · iexact Hs1
    iexact Hj2
  ihave Hj0 := (row_share (F := F) c c 0 1 rfl (tbl m ρ)).2 $$ [Hs0 Hj1]
  · isplitl [Hs0]; · iexact Hs0
    iexact Hj1
  ihave Hjf := (Entails.of_eq (row_full (F := F) c c (tbl m ρ)).symm) $$ Hj0
  ihave Hrp := (Entails.of_eq (bigSep_fin7 (fun k : Fin 7 => (rowPts c (peer c k) fullShare (tbl m ρ) : sProp 𝕄))).symm) $$ [Hl0 Hl1 Hl2 Hl3 Hl4 Hl5 Hl6]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    iexact Hl6
  ihave Hrows := (Entails.of_eq (bigSep_rows c (fun r : Fin 8 => (rowPts c r fullShare (tbl m ρ) : sProp 𝕄))).symm) $$ [Hjf Hrp]
  · isplitl [Hjf]; · iexact Hjf
    iexact Hrp
  ihave Hg := (Entails.of_eq (gPts_rows (F := F) c (tbl m ρ)).symm) $$ Hrows
  -- the sixteen own cells close: their counters at zero are the core's again
  imod (close_send m ρ K c 0) $$ [HaS0] with HzS0
  · isplitr; · iexact Hrec
    iexact HaS0
  imod (close_recv m ρ K c (peer c 0) 1 (duties_later m ρ _)) $$ [HaR0] with HzR0
  · isplitr; · iexact Hrec
    iexact HaR0
  imod (close_send m ρ K c 1) $$ [HaS1] with HzS1
  · isplitr; · iexact Hrec
    iexact HaS1
  imod (close_recv m ρ K c (peer c 1) 1 (duties_later m ρ _)) $$ [HaR1] with HzR1
  · isplitr; · iexact Hrec
    iexact HaR1
  imod (close_send m ρ K c 2) $$ [HaS2] with HzS2
  · isplitr; · iexact Hrec
    iexact HaS2
  imod (close_recv m ρ K c (peer c 2) 1 (duties_later m ρ _)) $$ [HaR2] with HzR2
  · isplitr; · iexact Hrec
    iexact HaR2
  imod (close_send m ρ K c 3) $$ [HaS3] with HzS3
  · isplitr; · iexact Hrec
    iexact HaS3
  imod (close_recv m ρ K c (peer c 3) 1 (duties_later m ρ _)) $$ [HaR3] with HzR3
  · isplitr; · iexact Hrec
    iexact HaR3
  imod (close_send m ρ K c 4) $$ [HaS4] with HzS4
  · isplitr; · iexact Hrec
    iexact HaS4
  imod (close_recv m ρ K c (peer c 4) 1 (duties_later m ρ _)) $$ [HaR4] with HzR4
  · isplitr; · iexact Hrec
    iexact HaR4
  imod (close_send m ρ K c 5) $$ [HaS5] with HzS5
  · isplitr; · iexact Hrec
    iexact HaS5
  imod (close_recv m ρ K c (peer c 5) 1 (duties_later m ρ _)) $$ [HaR5] with HzR5
  · isplitr; · iexact Hrec
    iexact HaR5
  imod (close_send m ρ K c 6) $$ [HaS6] with HzS6
  · isplitr; · iexact Hrec
    iexact HaS6
  imod (close_recv m ρ K c (peer c 6) 1 (duties_later m ρ _)) $$ [HaR6] with HzR6
  · isplitr; · iexact Hrec
    iexact HaR6
  imod (close_send0 m ρ K c) $$ [Ha0] with Hz0
  · isplitr; · iexact Hrec
    iexact Ha0
  imod (close_recv m ρ K c c 0 (fun r _ => duties_recv_self m ρ c r)) $$ [HaC] with HzC
  · isplitr; · iexact Hrec
    iexact HaC
  -- the table reduced, the result stored
  unfold gPts
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Hout; iintro Hout
  iapply (wp_store 𝒱₀ (c : Thread nD τ) none Set.univ (m := oM) (r := Rect.unit (s := S1x768) ![0, 0] S1x768.size inb_S1x768_S1x768_0_0) (Mk := Finset.univ) (Finset.subset_univ _)) $$ Hout; iintro Hout
  rw [write_out, wp_ret]; imodintro
  iapply Hk
  unfold bodyPost Φ₁ gPts Pipeline.ownSems0
  isplitl [Hg Hz0 HzC HzS0 HzR0 HzS1 HzR1 HzS2 HzR2 HzS3 HzR3 HzS4 HzR4 HzS5 HzR5 HzS6 HzR6]
  · isplitl [Hg]; · iexact Hg
    iapply (Entails.of_eq (bigSep_own c (fun g => (semVal g 0 : sProp 𝕄))).symm)
    isplitl [Hz0]; · iexact Hz0
    isplitl [HzC]; · iexact HzC
    iapply (Entails.of_eq (bigSep_fin7 (fun k : Fin 7 => iprop((semVal (sendCell c k) 0 : sProp 𝕄) ∗ semVal (recvCell c (peer c k)) 0))).symm)
    isplitl [HzS0 HzR0]; · (isplitl [HzS0] <;> iassumption)
    isplitl [HzS1 HzR1]; · (isplitl [HzS1] <;> iassumption)
    isplitl [HzS2 HzR2]; · (isplitl [HzS2] <;> iassumption)
    isplitl [HzS3 HzR3]; · (isplitl [HzS3] <;> iassumption)
    isplitl [HzS4 HzR4]; · (isplitl [HzS4] <;> iassumption)
    isplitl [HzS5 HzR5]; · (isplitl [HzS5] <;> iassumption)
    isplitl [HzS6] <;> iassumption
  isplitl [HO]
  · iapply (owes_done m ρ c _); iexact HO
  isplitl [Hx]
  · iexists _; isplitr; · (ipureintro; rfl)
    iexact Hx
  iexists _; isplitr; · (ipureintro; rfl)
  iexact Hout

set_option maxRecDepth 65536 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on core c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.Kernel.AG

end
-- ==== Proof.Bits.Launch.lean ====
/-
  The launch: the protocol's ghost state funded and dealt to the eight devices, the launch credit, and the run of the whole program with every array named after it.
-/
import proofs.«900913_g7700000000000914_dist_max_ax0_shard0_i_m1536_n768_v7x_i8_bf16_1_alg».proof.Proof.Bits.Body

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-! ### The protocol's cells and the duty tokens minted -/

/-- A semaphore's number: the barrier 0, DMA semaphore q the number q + 1. -/
def semCode : SemLoc sig → ℕ
  | .reg _ => 0
  | .dma q => q.val + 1

theorem csem_injective : Function.Injective (csem : Fin 17 → SemLoc sig) := by
  have key : ∀ i j : Fin 17, semCode (csem i) = semCode (csem j) → i = j := by decide
  exact fun i j h => key i j (congrArg semCode h)

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def protoCells : Finset (GSem nD τ sig) := Finset.univ.map ⟨kcell, kcell_injective⟩

/-- The duty tokens of a device's own cells as minted: (device, offset k, which cell) — its barrier cell's duty named by
    the device k + 1 places before it, the duty of its send cell of offset k + 1, the duty of its receive cell of that
    device's row. -/
abbrev tokOf (x : Dev nD × Fin 7 × Fin 3) : GSem nD τ sig × ℕ × Fin 8 := match x.2.2 with
  | 0 => (barCell x.1, 0, rpeer x.1 x.2.1)
  | 1 => (sendCell x.1 x.2.1, 0, 0)
  | 2 => (recvCell x.1 (rpeer x.1 x.2.1), 0, 0)

/-- A token's device, semaphore number and duty as numbers. -/
def tokCode (x : GSem nD τ sig × ℕ × Fin 8) : ℕ × ℕ × ℕ := (x.1.1.1.val, semCode x.1.2, x.2.2.val)

theorem tokOf_injective : Function.Injective (tokOf : Dev nD × Fin 7 × Fin 3 → GSem nD τ sig × ℕ × Fin 8) := by
  have key : ∀ (c : Dev nD) (a b : Fin 7 × Fin 3), tokCode (tokOf (c, a)) = tokCode (tokOf (c, b)) → a = b := by decide
  rintro ⟨c, a⟩ ⟨c', b⟩ h
  have h1 : c = c' := by
    have := congrArg (fun x : GSem nD τ sig × ℕ × Fin 8 => x.1.1.1) h
    obtain ⟨k, j⟩ := a; obtain ⟨k', j'⟩ := b
    fin_cases j <;> fin_cases j' <;> exact this
  subst h1
  rw [key c a b (congrArg tokCode h)]
def protoToks : Finset (GSem nD τ sig × ℕ × Fin 8) := Finset.univ.map ⟨tokOf, tokOf_injective⟩

def u₀ : UU :=
  (initOf (Pipeline.cells cfgs cellOf_inj) (Pipeline.launchToks cfgs cellOf_inj), initOf protoCells protoToks)

/-- The duty tokens of device c's own cells. -/
def toks (c : Dev nD) : sProp 𝕄 :=
  bigSep Finset.univ fun k : Fin 7 =>
    iprop(dutyTok ER (barCell c) 0 (rpeer c k) ∗ dutyTok ER (sendCell c k) 0 0 ∗ dutyTok ER (recvCell c (rpeer c k)) 0 0)

/-- What the launch element deals device c. -/
def G (c : Dev nD) : sProp 𝕄 :=
  iprop((bigSep Finset.univ fun i : Fin 17 => roundState ER (rd m ρ) (kcell (c, i)) 0)
    ∗ (bigSep Finset.univ fun i : Fin 17 => iprop(atPos ER (kcell (c, i)) 0 ∅ 0 ∗ reached ER (kcell (c, i)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

/-- A conjunction over Fin (n + 1): the summand at 0, then the rest. -/
theorem bigSep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]; rfl

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun i : Fin 17 => Φ (kcell (c, i)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    refine bigSep_congr fun c _ => ?_
    unfold toks; rw [bigSep_univ_prod]
    exact bigSep_congr fun k _ => by rw [bigSep_fin3]; rfl
  iintro HX
  imod (Rounds.fund ER (rd m ρ) protoCells protoToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The cells' invariants allocated -/

theorem csem_succ (i : Fin 16) : csem i.succ = osem i := by
  have h : ¬ (i.succ.val = 0) := by rw [Fin.val_succ]; exact Nat.succ_ne_zero _
  exact (dif_neg h).trans (congrArg SemLoc.dma (Fin.ext (by show 1 + i.succ.val = 2 + i.val; rw [Fin.val_succ]; omega)))

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 17 => semVal (kcell (c, i)) 0 : sProp 𝕄) := by
  rw [unscopedSems0_eq, bigSep_fin_succ]
  unfold Pipeline.ownSems0
  iintro ⟨HS, HB⟩
  isplitl [HB]; · iexact HB
  iapply (Entails.of_eq (bigSep_congr (s := Finset.univ) fun (i : Fin 16) _ =>
    show (semVal ((c : Thread nD τ), osem i) 0 : sProp 𝕄) = semVal (kcell (c, i.succ)) 0 by rw [← csem_succ i]))
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (rd m ρ) κ (kcell (c, i))))
          ∗ (bigSep Finset.univ fun i : Fin 17 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 17 => semVal (kcell (c, i)) 0) ∗ bigSep Finset.univ fun i : Fin 17 => roundState ER (rd m ρ) (kcell (c, i)) 0)
      ⊢ (|={Set.univ}=> bigSep Finset.univ fun i => iprop(∃ κ : ℕ, cellInv ER (rd m ρ) κ (kcell (c, i))) : sProp 𝕄) from by
        rw [← bigSep_sep']
        exact (bigSep_mono fun i _ => (Rounds.body_intro ER (rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt to their payers -/

/-- The devices shifted k + 1 places up. -/
def shiftDev (k : Fin 7) : Dev nD ≃ Dev nD := ⟨fun c => peer c k, fun c => rpeer c k, fun c => rpeer_peer c k, fun c => peer_rpeer c k⟩
/-- (device, offset) pairs, the device shifted by its offset. -/
def shift : Dev nD × Fin 7 ≃ Dev nD × Fin 7 :=
  ⟨fun x => (peer x.1 x.2, x.2), fun x => (rpeer x.1 x.2, x.2), fun x => Prod.ext (rpeer_peer x.1 x.2) rfl, fun x => Prod.ext (peer_rpeer x.1 x.2) rfl⟩

theorem ghost_intro (K : Dev nD × Fin 17 → ℕ) (c : Dev nD) : iprop(records m ρ K ∗ linear c) ⊢ G' m ρ c := by
  unfold G' ghost
  iintro H
  iexists K
  iexact H

/-- A barrier token goes to the device its duty names, a receive token to the device whose row it is. -/
theorem toks_around : (bigSep Finset.univ fun c : Dev nD => (toks c : sProp 𝕄)) ⊢ bigSep Finset.univ fun c : Dev nD => bigSep Finset.univ fun k : Fin 7 => payTok c k := by
  have hB : (bigSep Finset.univ fun x : Dev nD × Fin 7 => (dutyTok ER (barCell x.1) 0 (rpeer x.1 x.2) : sProp 𝕄))
      = bigSep Finset.univ fun x : Dev nD × Fin 7 => dutyTok ER (barCell (peer x.1 x.2)) 0 x.1 := by
    rw [bigSep_univ_equiv shift]
    exact bigSep_congr fun x _ => by
      show dutyTok ER (barCell (peer x.1 x.2)) 0 (rpeer (peer x.1 x.2) x.2) = _
      rw [rpeer_peer]
  have hR : (bigSep Finset.univ fun x : Dev nD × Fin 7 => (dutyTok ER (recvCell x.1 (rpeer x.1 x.2)) 0 0 : sProp 𝕄))
      = bigSep Finset.univ fun x : Dev nD × Fin 7 => dutyTok ER (recvCell (peer x.1 x.2) x.1) 0 0 := by
    rw [bigSep_univ_equiv shift]
    exact bigSep_congr fun x _ => by
      show dutyTok ER (recvCell (peer x.1 x.2) (rpeer (peer x.1 x.2) x.2)) 0 0 = _
      rw [rpeer_peer]
  have h1 := bigSep_univ_prod (fun x : Dev nD × Fin 7 =>
    (iprop(dutyTok ER (barCell x.1) 0 (rpeer x.1 x.2) ∗ dutyTok ER (sendCell x.1 x.2) 0 0 ∗ dutyTok ER (recvCell x.1 (rpeer x.1 x.2)) 0 0) : sProp 𝕄))
  have h2 := bigSep_univ_prod (fun x : Dev nD × Fin 7 =>
    (iprop(dutyTok ER (barCell (peer x.1 x.2)) 0 x.1 ∗ dutyTok ER (recvCell (peer x.1 x.2) x.1) 0 0 ∗ dutyTok ER (sendCell x.1 x.2) 0 0) : sProp 𝕄))
  have key : (bigSep Finset.univ fun x : Dev nD × Fin 7 =>
        (iprop(dutyTok ER (barCell x.1) 0 (rpeer x.1 x.2) ∗ dutyTok ER (sendCell x.1 x.2) 0 0 ∗ dutyTok ER (recvCell x.1 (rpeer x.1 x.2)) 0 0) : sProp 𝕄))
      ⊢ bigSep Finset.univ fun x : Dev nD × Fin 7 =>
        (iprop(dutyTok ER (barCell (peer x.1 x.2)) 0 x.1 ∗ dutyTok ER (recvCell (peer x.1 x.2) x.1) 0 0 ∗ dutyTok ER (sendCell x.1 x.2) 0 0) : sProp 𝕄) := by
    rw [bigSep_sep', bigSep_sep', bigSep_sep', bigSep_sep', hB, hR]
    iintro ⟨H1, H2, H3⟩
    isplitl [H1]; · iexact H1
    isplitl [H3]; · iexact H3
    iexact H2
  unfold toks payTok
  exact (Entails.of_eq h1.symm).trans (key.trans (Entails.of_eq h2))

theorem regroup :
    (bigSep Finset.univ fun c : Dev nD => iprop((bigSep Finset.univ fun i => iprop(∃ κ : ℕ, cellInv ER (rd m ρ) κ (kcell (c, i))))
          ∗ (bigSep Finset.univ fun i : Fin 17 => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (rd m ρ) κ (kcell ck))),
    bigSep_congr (s := Finset.univ) (fun (c : Dev nD) _ => bigSep_sep' Finset.univ (fun i : Fin 17 => (atPos ER (kcell (c, i)) 0 ∅ 0 : sProp 𝕄)) (fun i => reached ER (kcell (c, i)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun i : Fin 17 => (atPos ER (kcell (c, i)) 0 ∅ 0 : sProp 𝕄))
        (fun c : Dev nD => bigSep Finset.univ fun k : Fin 7 => payTok c k)).symm).trans
      (bigSep_mono fun c _ => show _ ⊢ linear c from Entails.of_eq (by unfold linear; rfl)))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What a device's waits are credited with: its barrier's seven units and a row's credit on each of its seven receive cells. -/
def creditOf (c : Dev nD) : CellTallies nD τ sig Unit :=
  tallyAt (barCell c) () 7 + ∑ k : Fin 7, tallyAt (recvCell c (peer c k)) () N

theorem tallyAt_nsmul (g : GSem nD τ sig) (n k : ℕ) : n • (tallyAt g () k : CellTallies nD τ sig Unit) = tallyAt g () (n * k) := by
  induction n with
  | zero => rw [zero_smul, Nat.zero_mul, tallyAt_zero]
  | succ n ih => rw [succ_nsmul, ih, tallyAt_add, Nat.succ_mul]

/-- The device k + 1 places before c is the one 7 - k places after it. -/
theorem rpeer_eq_peer_rev (c : Dev nD) (k : Fin 7) : rpeer c k = peer c k.rev := by revert c k; decide

/-- The barrier units owed, summed over the devices: seven on every device's barrier cell. -/
theorem owed_bar_sum : (∑ d : Dev nD, ∑ k : Fin 7, (tallyAt (barCell (peer d k)) () 1 : CellTallies nD τ sig Unit)) = ∑ c : Dev nD, tallyAt (barCell c) () 7 := by
  rw [Finset.sum_comm]
  have h (k : Fin 7) : (∑ d : Dev nD, (tallyAt (barCell (peer d k)) () 1 : CellTallies nD τ sig Unit)) = ∑ c : Dev nD, tallyAt (barCell c) () 1 :=
    Equiv.sum_comp (shiftDev k) fun c => (tallyAt (barCell c) () 1 : CellTallies nD τ sig Unit)
  rw [Finset.sum_congr rfl fun k _ => h k, Finset.sum_comm]
  refine Finset.sum_congr rfl fun c _ => ?_
  rw [Finset.sum_const, Finset.card_univ, Fintype.card_fin, tallyAt_nsmul]

/-- The rows' credits owed, summed over the devices: a row's credit on every receive cell of another device's row. -/
theorem owed_recv_sum : (∑ d : Dev nD, ∑ k : Fin 7, (tallyAt (recvCell (peer d k) d) () N : CellTallies nD τ sig Unit))
    = ∑ c : Dev nD, ∑ k : Fin 7, tallyAt (recvCell c (peer c k)) () N := by
  rw [Finset.sum_comm]
  have h (k : Fin 7) : (∑ d : Dev nD, (tallyAt (recvCell (peer d k) d) () N : CellTallies nD τ sig Unit)) = ∑ c : Dev nD, tallyAt (recvCell c (rpeer c k)) () N :=
    (Finset.sum_congr rfl fun d _ => by
        show (tallyAt (recvCell (peer d k) d) () N : CellTallies nD τ sig Unit) = tallyAt (recvCell (peer d k) (rpeer (peer d k) k)) () N
        rw [rpeer_peer]).trans
      ((shiftDev k).sum_comp fun c => (tallyAt (recvCell c (rpeer c k)) () N : CellTallies nD τ sig Unit))
  rw [Finset.sum_congr rfl fun k _ => h k, Finset.sum_comm]
  refine Finset.sum_congr rfl fun c _ => ?_
  rw [Finset.sum_congr rfl fun k _ => by rw [rpeer_eq_peer_rev]]
  exact Equiv.sum_comp Fin.revPerm fun k => (tallyAt (recvCell c (peer c k)) () N : CellTallies nD τ sig Unit)

/-- What the devices owe, summed, is what their waits are credited with, summed. -/
theorem owed_sum : (∑ d : Dev nD, O₀ d) = ∑ c : Dev nD, creditOf c := by
  unfold O₀ owedOf creditOf
  rw [Finset.sum_add_distrib, Finset.sum_add_distrib, owed_bar_sum, owed_recv_sum, add_comm]

/-- A device's credit is on its own cells. -/
theorem creditOf_own (d : Dev nD) (g : GSem nD τ sig) (h : creditOf d g ≠ 0) : g.1 = (d : Thread nD τ) := by
  by_contra hne
  refine h ?_
  unfold creditOf
  rw [Pi.add_apply, Finset.sum_apply, tallyAt_ne_cell (fun e => hne (congrArg Prod.fst e)),
    Finset.sum_eq_zero (fun k _ => tallyAt_ne_cell (fun e => hne (congrArg Prod.fst e)) _ _), add_zero]

theorem creds (c : Dev nD) :
    (Pipeline.launchCred O₀ c : sProp 𝕄) ⊢ iprop(cred (tallyAt (barCell c) () 7) ∗ bigSep Finset.univ fun k : Fin 7 => cred (tallyAt (recvCell c (peer c k)) () N)) := by
  rw [Pipeline.launchCred_of_sum O₀ creditOf owed_sum creditOf_own c]
  unfold creditOf
  exact (cred_add _ _).1.trans (sep_mono_right (Entails.of_eq (Pipeline.cred_finsetSum Finset.univ _)))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ gPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ gPts
  iintro ⟨Hr, Hz⟩
  isplitr; · iempintro
  isplitl [Hz]; · iexact Hz
  iexists (tbl m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the column maxima of the gathered table. -/
theorem finalA_out (c : Dev nD) : finalA m ρ c (1 : Fin 2) = outAt m ρ := by
  have h := (dats (F := F) m ρ 0 c).arrAt_succ (1 : Fin 2) t0_0
  rw [flush0_1, if_pos rfl] at h
  exact h.trans (Memref.write_access_unit_zero_univ (Elt F) main_v1
    (off := fun a => (cfg0.win (1 : Fin 2)).index t0_0 a * (cfg0.win (1 : Fin 2)).size a) (funext fun a => Nat.zero_mul _) _ _ _)

end Cert.Kernel.AG

end
-- ==== Proof.ClaimsBits.lean ====
/-
  The claim about the kernel as printed: it runs and leaves every device's argument block as it was — the run with the
  values dropped.
-/
import proofs.«900913_g7700000000000914_dist_max_ax0_shard0_i_m1536_n768_v7x_i8_bf16_1_alg».proof.Proof.Bits.Launch
import proofs.«900913_g7700000000000914_dist_max_ax0_shard0_i_m1536_n768_v7x_i8_bf16_1_alg».proof.Proof.Gen.Pre_finite_inputs_Kernel
import proofs.«900913_g7700000000000914_dist_max_ax0_shard0_i_m1536_n768_v7x_i8_bf16_1_alg».proof.Defs

noncomputable section

open Idealize.ShloMosaic Idealize.ShloMosaic.TcCoe Idealize.SL.Sem

namespace Cert.Proof.ClaimsBits

open Cert.Kernel Cert.Kernel.Gen Cert.Kernel.AG

/-- The kernel runs and leaves every device's argument block as it was. -/
theorem frame_p : Cert.frame_Kernel := fun m ρ _ =>
  (θ_run Cert.Kernel.defs _ _).mono (fun _ h c => (h c (0 : Fin 2)).trans (finalA_x m ρ c))
    (run_main (F := Bits) m ρ)

end Cert.Proof.ClaimsBits

end
-- ==== Proof.lean ====
/- The certificate of the all-gather-then-maximum kernel on eight devices against the column maxima of the whole array.

   Each device reduces its 1536 x 768 block to a row of column maxima, the eight rows are exchanged (a barrier handshake,
   then seven remote copies a device, each waited at both ends) into an 8 x 768 table that ends the same on every device,
   and every device's result is the row of column maxima of that table: over the extended reals the maximum over the
   eight blocks of the maxima over their rows is the maximum over all rows, which is the reference's result. The three
   frames are the runs with the values dropped; nothing was rewritten by the idealization, so it preserves trivially. -/
import proofs.«900913_g7700000000000914_dist_max_ax0_shard0_i_m1536_n768_v7x_i8_bf16_1_alg».proof.Defs
import proofs.«900913_g7700000000000914_dist_max_ax0_shard0_i_m1536_n768_v7x_i8_bf16_1_alg».proof.Proof.Gen.Kernel
import proofs.«900913_g7700000000000914_dist_max_ax0_shard0_i_m1536_n768_v7x_i8_bf16_1_alg».proof.Proof.Gen.Kernel.Skeleton
import proofs.«900913_g7700000000000914_dist_max_ax0_shard0_i_m1536_n768_v7x_i8_bf16_1_alg».proof.Proof.Gen.Kernel.Launch
import proofs.«900913_g7700000000000914_dist_max_ax0_shard0_i_m1536_n768_v7x_i8_bf16_1_alg».proof.Proof.Gen.Kernel.Points
import proofs.«900913_g7700000000000914_dist_max_ax0_shard0_i_m1536_n768_v7x_i8_bf16_1_alg».proof.Proof.Gen.Kernel.Frame
import proofs.«900913_g7700000000000914_dist_max_ax0_shard0_i_m1536_n768_v7x_i8_bf16_1_alg».proof.Proof.Gen.KernelIdeal
import proofs.«900913_g7700000000000914_dist_max_ax0_shard0_i_m1536_n768_v7x_i8_bf16_1_alg».proof.Proof.Gen.KernelIdeal.Skeleton
import proofs.«900913_g7700000000000914_dist_max_ax0_shard0_i_m1536_n768_v7x_i8_bf16_1_alg».proof.Proof.Gen.KernelIdeal.Launch
import proofs.«900913_g7700000000000914_dist_max_ax0_shard0_i_m1536_n768_v7x_i8_bf16_1_alg».proof.Proof.Gen.KernelIdeal.Points
import proofs.«900913_g7700000000000914_dist_max_ax0_shard0_i_m1536_n768_v7x_i8_bf16_1_alg».proof.Proof.Gen.KernelIdeal.Frame
import proofs.«900913_g7700000000000914_dist_max_ax0_shard0_i_m1536_n768_v7x_i8_bf16_1_alg».proof.Proof.Gen.ReferenceIdeal
import proofs.«900913_g7700000000000914_dist_max_ax0_shard0_i_m1536_n768_v7x_i8_bf16_1_alg».proof.Proof.Gen.Pre_finite_inputs_Kernel
import proofs.«900913_g7700000000000914_dist_max_ax0_shard0_i_m1536_n768_v7x_i8_bf16_1_alg».proof.Proof.Gen.Pre_finite_inputs_ReferenceIdeal
import proofs.«900913_g7700000000000914_dist_max_ax0_shard0_i_m1536_n768_v7x_i8_bf16_1_alg».proof.Proof.Claims
import proofs.«900913_g7700000000000914_dist_max_ax0_shard0_i_m1536_n768_v7x_i8_bf16_1_alg».proof.Proof.ClaimsBits
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Proof.ClaimsBits.frame_p, Cert.Proof.Claims.frame_pi, Cert.Proof.Claims.frame_ri, Cert.Proof.Claims.preserves, Cert.Proof.Claims.algebraic⟩

end Cert.Proof

end
